-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S500000x32 : Shape := ⟨2, ![500000, 32]⟩
abbrev S512x256 : Shape := ⟨2, ![512, 256]⟩
abbrev S256 : Shape := ⟨1, ![256]⟩
abbrev S32x256 : Shape := ⟨2, ![32, 256]⟩
abbrev S2x500000 : Shape := ⟨2, ![2, 500000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_

variable [Facts]

def fn_part5 {F : FTy → Type} [FloatOps F] (main_arg18 : FVec F S256 .f32) (main_arg19 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  main_v98

def fn_part4 {F : FTy → Type} [FloatOps F] (main_arg14 : FVec F S32x256 .f32) (main_arg15 : FVec F S256 .f32) (main_arg16 : FVec F S256 .f32) (main_arg17 : FVec F S256 .f32) (main_arg18 : FVec F S256 .f32) (main_arg19 : FVec F S256 .f32) (main_v63 : IVec S_ 1) (main_v67 : IVec S_ 1) : IVec S_ 1 :=
  let main_v68 : IVec S_ 1 := andi main_v63 main_v67
  let main_v69 : FVec F S32x256 .f32 := Host.absf main_arg14
  let main_cst_26 : FVec F S_ .f32 := constant S_ .f32 0x7F800000#32
  let main_v70 : FVec F S32x256 .f32 := broadcastInDim S32x256 ![] bcast_S_S32x256 main_cst_26
  let main_v71 : IVec S32x256 1 := cmpf .olt main_v69 main_v70
  let main_c_27 : IVec S_ 1 := constantI S_ 1 1#1
  let main_v72 : IVec S_ 1 := (fun x v => Host.reduce IntOp.andi x v reducesTo_S32x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S256 .f32) (main_arg12 : FVec F S32x256 .f32) (main_arg13 : FVec F S256 .f32) (main_arg14 : FVec F S32x256 .f32) (main_arg15 : FVec F S256 .f32) (main_arg16 : FVec F S256 .f32) (main_arg17 : FVec F S256 .f32) (main_arg18 : FVec F S256 .f32) (main_arg19 : FVec F S256 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S32x256 .f32 := Host.absf main_arg12
  let main_cst_22 : FVec F S_ .f32 := constant S_ .f32 0x7F800000#32
  let main_v60 : FVec F S32x256 .f32 := broadcastInDim S32x256 ![] bcast_S_S32x256 main_cst_22
  let main_v61 : IVec S32x256 1 := cmpf .olt main_v59 main_v60
  let main_c_23 : IVec S_ 1 := constantI S_ 1 1#1
  let main_v62 : IVec S_ 1 := (fun x v => Host.reduce IntOp.andi x v reducesTo_S32x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_v63 main_v67

def fn_part2 {F : FTy → Type} [FloatOps F] (main_arg7 : FVec F S256 .f32) (main_arg8 : FVec F S512x256 .f32) (main_arg9 : FVec F S256 .f32) (main_arg10 : FVec F S512x256 .f32) (main_arg11 : FVec F S256 .f32) (main_arg12 : FVec F S32x256 .f32) (main_arg13 : FVec F S256 .f32) (main_arg14 : FVec F S32x256 .f32) (main_arg15 : FVec F S256 .f32) (main_arg16 : FVec F S256 .f32) (main_arg17 : FVec F S256 .f32) (main_arg18 : FVec F S256 .f32) (main_arg19 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x256 .f32 := Host.absf main_arg8
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S512x256 .f32 := Host.absf main_arg10
  let main_cst_18 : FVec F S_ .f32 := constant S_ .f32 0x7F800000#32
  let main_v50 : FVec F S512x256 .f32 := broadcastInDim S512x256 ![] bcast_S_S512x256 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S512x256 .f32) (main_arg5 : FVec F S256 .f32) (main_arg6 : FVec F S512x256 .f32) (main_arg7 : FVec F S256 .f32) (main_arg8 : FVec F S512x256 .f32) (main_arg9 : FVec F S256 .f32) (main_arg10 : FVec F S512x256 .f32) (main_arg11 : FVec F S256 .f32) (main_arg12 : FVec F S32x256 .f32) (main_arg13 : FVec F S256 .f32) (main_arg14 : FVec F S32x256 .f32) (main_arg15 : FVec F S256 .f32) (main_arg16 : FVec F S256 .f32) (main_arg17 : FVec F S256 .f32) (main_arg18 : FVec F S256 .f32) (main_arg19 : FVec F S256 .f32) (main_v13 : IVec S_ 1) (main_v16 : IVec S500000x32 1) : IVec S_ 1 :=
  let main_c_5 : IVec S_ 1 := constantI S_ 1 1#1
  let main_v17 : IVec S_ 1 := (fun x v => Host.reduce IntOp.andi x v reducesTo_S500000x32_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S50000x256 .f32) (main_arg1 : FVec F S50000x256 .f32) (main_arg2 : FVec F S500000x32 .f32) (main_arg3 : FVec F S500000x32 .f32) (main_arg4 : FVec F S512x256 .f32) (main_arg5 : FVec F S256 .f32) (main_arg6 : FVec F S512x256 .f32) (main_arg7 : FVec F S256 .f32) (main_arg8 : FVec F S512x256 .f32) (main_arg9 : FVec F S256 .f32) (main_arg10 : FVec F S512x256 .f32) (main_arg11 : FVec F S256 .f32) (main_arg12 : FVec F S32x256 .f32) (main_arg13 : FVec F S256 .f32) (main_arg14 : FVec F S32x256 .f32) (main_arg15 : FVec F S256 .f32) (main_arg16 : FVec F S256 .f32) (main_arg17 : FVec F S256 .f32) (main_arg18 : FVec F S256 .f32) (main_arg19 : FVec F S256 .f32) (main_arg20 : IVec S2x500000 32) (main_arg21 : IVec S2x500000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S500000x32 .f32 := Host.absf main_arg2
  let main_cst_2 : FVec F S_ .f32 := constant S_ .f32 0x7F800000#32
  let main_v10 : FVec F S500000x32 .f32 := broadcastInDim S500000x32 ![] bcast_S_S500000x32 main_cst_2
  let main_v11 : IVec S500000x32 1 := cmpf .olt main_v9 main_v10
  let main_c_3 : IVec S_ 1 := constantI S_ 1 1#1
  let main_v12 : IVec S_ 1 := (fun x v => Host.reduce IntOp.andi x v reducesTo_S500000x32_S_d0_1 h_S_) main_v11 main_c_3
  let main_v13 : IVec S_ 1 := andi main_v8 main_v12
  let main_v14 : FVec F S500000x32 .f32 := Host.absf main_arg3
  let main_cst_4 : FVec F S_ .f32 := constant S_ .f32 0x7F800000#32
  let main_v15 : FVec F S500000x32 .f32 := broadcastInDim S500000x32 ![] bcast_S_S500000x32 main_cst_4
  let main_v16 : IVec S500000x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S50000x256 : Shape := ⟨2, ![50000, 256]⟩
abbrev S500000x32 : Shape := ⟨2, ![500000, 32]⟩
abbrev S512x256 : Shape := ⟨2, ![512, 256]⟩
abbrev S256 : Shape := ⟨1, ![256]⟩
abbrev S32x256 : Shape := ⟨2, ![32, 256]⟩
abbrev S2x500000 : Shape := ⟨2, ![2, 500000]⟩
abbrev S1x256 : Shape := ⟨2, ![1, 256]⟩
abbrev S500000x256 : Shape := ⟨2, ![500000, 256]⟩
abbrev S5000x32 : Shape := ⟨2, ![5000, 32]⟩
abbrev S5000x256 : Shape := ⟨2, ![5000, 256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S50000x1 : Shape := ⟨2, ![50000, 1]⟩
abbrev S256x256 : Shape := ⟨2, ![256, 256]⟩
abbrev S2000x256 : Shape := ⟨2, ![2000, 256]⟩
abbrev S2000 : Shape := ⟨1, ![2000]⟩
abbrev S2000x1 : Shape := ⟨2, ![2000, 1]⟩
abbrev S1x50000x256 : Shape := ⟨3, ![1, 50000, 256]⟩
abbrev S2x50000x256 : Shape := ⟨3, ![2, 50000, 256]⟩

abbrev nBuf : Space → Nat
  | .hbm => 199
  | .vmem => 64
  | .smem => 0
  | _ => 0

abbrev hbmTy0_0 (i : Nat) : BufTy := match i % 128 with
  | 0 => ⟨S50000x256, .f32⟩
  | 1 => ⟨S50000x256, .f32⟩
  | 2 => ⟨S500000x32, .f32⟩
  | 3 => ⟨S500000x32, .f32⟩
  | 4 => ⟨S512x256, .f32⟩
  | 5 => ⟨S256, .f32⟩
  | 6 => ⟨S512x256, .f32⟩
  | 7 => ⟨S256, .f32⟩
  | 8 => ⟨S512x256, .f32⟩
  | 9 => ⟨S256, .f32⟩
  | 10 => ⟨S512x256, .f32⟩
  | 11 => ⟨S256, .f32⟩
  | 12 => ⟨S32x256, .f32⟩
  | 13 => ⟨S256, .f32⟩
  | 14 => ⟨S32x256, .f32⟩
  | 15 => ⟨S256, .f32⟩
  | 16 => ⟨S256, .f32⟩
  | 17 => ⟨S256, .f32⟩
  | 18 => ⟨S256, .f32⟩
  | 19 => ⟨S256, .f32⟩
  | 20 => ⟨S2x500000, .i32⟩
  | 21 => ⟨S2x500000, .i32⟩
  | 22 => ⟨S1x256, .f32⟩
  | 23 => ⟨S500000x256, .f32⟩
  | 24 => ⟨S1x256, .f32⟩
  | 25 => ⟨S500000x256, .f32⟩
  | 26 => ⟨S1x500000, .i32⟩
  | 27 => ⟨S500000, .i32⟩
  | 28 => ⟨S_, .f32⟩
  | 29 => ⟨S50000x256, .f32⟩
  | 30 => ⟨S500000x1, .i32⟩
  | 31 => ⟨S50000x256, .f32⟩
  | 32 => ⟨S_, .f32⟩
  | 33 => ⟨S500000x1, .f32⟩
  | 34 => ⟨S_, .f32⟩
  | 35 => ⟨S50000x1, .f32⟩
  | 36 => ⟨S500000x1, .i32⟩
  | 37 => ⟨S50000x1, .f32⟩
  | 38 => ⟨S_, .f32⟩
  | 39 => ⟨S50000x1, .f32⟩
  | 40 => ⟨S50000x1, .f32⟩
  | 41 => ⟨S50000x256, .f32⟩
  | 42 => ⟨S50000x256, .f32⟩
  | 43 => ⟨S1x500000, .i32⟩
  | 44 => ⟨S500000, .i32⟩
  | 45 => ⟨S_, .f32⟩
  | 46 => ⟨S50000x256, .f32⟩
  | 47 => ⟨S500000x1, .i32⟩
  | 48 => ⟨S50000x256, .f32⟩
  | 49 => ⟨S_, .f32⟩
  | 50 => ⟨S500000x1, .f32⟩
  | 51 => ⟨S_, .f32⟩
  | 52 => ⟨S50000x1, .f32⟩
  | 53 => ⟨S500000x1, .i32⟩
  | 54 => ⟨S50000x1, .f32⟩
  | 55 => ⟨S_, .f32⟩
  | 56 => ⟨S50000x1, .f32⟩
  | 57 => ⟨S50000x1, .f32⟩
  | 58 => ⟨S50000x256, .f32⟩
  | 59 => ⟨S50000x256, .f32⟩
  | 60 => ⟨S1x500000, .i32⟩
  | 61 => ⟨S500000, .i32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x256, .f32⟩
  | 71 => ⟨S1x500000, .i32⟩
  | 72 => ⟨S500000, .i32⟩
  | 73 => ⟨S_, .f32⟩
  | 74 => ⟨S50000x256, .f32⟩
  | 75 => ⟨S500000x1, .i32⟩
  | 76 => ⟨S50000x256, .f32⟩
  | 77 => ⟨S_, .f32⟩
  | 78 => ⟨S500000x1, .f32⟩
  | 79 => ⟨S_, .f32⟩
  | 80 => ⟨S50000x1, .f32⟩
  | 81 => ⟨S500000x1, .i32⟩
  | 82 => ⟨S50000x1, .f32⟩
  | 83 => ⟨S_, .f32⟩
  | 84 => ⟨S50000x1, .f32⟩
  | 85 => ⟨S50000x1, .f32⟩
  | 86 => ⟨S50000x256, .f32⟩
  | 87 => ⟨S50000x256, .f32⟩
  | 88 => ⟨S1x500000, .i32⟩
  | 89 => ⟨S500000, .i32⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000x256, .f32⟩
  | 99 => ⟨S1x500000, .i32⟩
  | 100 => ⟨S500000, .i32⟩
  | 101 => ⟨S_, .f32⟩
  | 102 => ⟨S50000x256, .f32⟩
  | 103 => ⟨S500000x1, .i32⟩
  | 104 => ⟨S50000x256, .f32⟩
  | 105 => ⟨S_, .f32⟩
  | 106 => ⟨S500000x1, .f32⟩
  | 107 => ⟨S_, .f32⟩
  | 108 => ⟨S50000x1, .f32⟩
  | 109 => ⟨S500000x1, .i32⟩
  | 110 => ⟨S50000x1, .f32⟩
  | 111 => ⟨S_, .f32⟩
  | 112 => ⟨S50000x1, .f32⟩
  | 113 => ⟨S50000x1, .f32⟩
  | 114 => ⟨S50000x256, .f32⟩
  | 115 => ⟨S50000x256, .f32⟩
  | 116 => ⟨S256x256, .f32⟩
  | 117 => ⟨S256x256, .f32⟩
  | 118 => ⟨S1x256, .f32⟩
  | 119 => ⟨S1x256, .f32⟩
  | 120 => ⟨S1x256, .f32⟩
  | 121 => ⟨S50000x256, .f32⟩
  | 122 => ⟨S256x256, .f32⟩
  | 123 => ⟨S256x256, .f32⟩
  | 124 => ⟨S1x256, .f32⟩
  | 125 => ⟨S1x256, .f32⟩
  | 126 => ⟨S1x256, .f32⟩
  | 127 => ⟨S50000x256, .f32⟩
  | _ => ⟨S50000x256, .f32⟩

abbrev hbmTy0_1 (i : Nat) : BufTy := match i % 128 with
  | 0 => ⟨S1x500000, .i32⟩
  | 1 => ⟨S500000, .i32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S500000x1, .i32⟩
  | 10 => ⟨S500000x256, .f32⟩
  | 11 => ⟨S1x500000, .i32⟩
  | 12 => ⟨S500000, .i32⟩
  | 13 => ⟨S_, .f32⟩
  | 14 => ⟨S50000x256, .f32⟩
  | 15 => ⟨S500000x1, .i32⟩
  | 16 => ⟨S50000x256, .f32⟩
  | 17 => ⟨S_, .f32⟩
  | 18 => ⟨S500000x1, .f32⟩
  | 19 => ⟨S_, .f32⟩
  | 20 => ⟨S50000x1, .f32⟩
  | 21 => ⟨S500000x1, .i32⟩
  | 22 => ⟨S50000x1, .f32⟩
  | 23 => ⟨S_, .f32⟩
  | 24 => ⟨S50000x1, .f32⟩
  | 25 => ⟨S50000x1, .f32⟩
  | 26 => ⟨S50000x256, .f32⟩
  | 27 => ⟨S50000x256, .f32⟩
  | 28 => ⟨S1x500000, .i32⟩
  | 29 => ⟨S500000, .i32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x256, .f32⟩
  | 39 => ⟨S1x500000, .i32⟩
  | 40 => ⟨S500000, .i32⟩
  | 41 => ⟨S_, .f32⟩
  | 42 => ⟨S50000x256, .f32⟩
  | 43 => ⟨S500000x1, .i32⟩
  | 44 => ⟨S50000x256, .f32⟩
  | 45 => ⟨S_, .f32⟩
  | 46 => ⟨S500000x1, .f32⟩
  | 47 => ⟨S_, .f32⟩
  | 48 => ⟨S50000x1, .f32⟩
  | 49 => ⟨S500000x1, .i32⟩
  | 50 => ⟨S50000x1, .f32⟩
  | 51 => ⟨S_, .f32⟩
  | 52 => ⟨S50000x1, .f32⟩
  | 53 => ⟨S50000x1, .f32⟩
  | 54 => ⟨S50000x256, .f32⟩
  | 55 => ⟨S50000x256, .f32⟩
  | 56 => ⟨S256x256, .f32⟩
  | 57 => ⟨S256x256, .f32⟩
  | 58 => ⟨S1x256, .f32⟩
  | 59 => ⟨S1x256, .f32⟩
  | 60 => ⟨S1x256, .f32⟩
  | 61 => ⟨S50000x256, .f32⟩
  | 62 => ⟨S256x256, .f32⟩
  | 63 => ⟨S256x256, .f32⟩
  | 64 => ⟨S1x256, .f32⟩
  | 65 => ⟨S1x256, .f32⟩
  | 66 => ⟨S1x256, .f32⟩
  | 67 => ⟨S50000x256, .f32⟩
  | 68 => ⟨S1x50000x256, .f32⟩
  | 69 => ⟨S1x50000x256, .f32⟩
  | 70 => ⟨S2x50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x32, .f32⟩
  | .local _ .vmem, ⟨7, _⟩ => ⟨S5000x32, .f32⟩
  | .local _ .vmem, ⟨8, _⟩ => ⟨S32x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S256x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x256, .f32⟩
  | .local _ .vmem, ⟨32, _⟩ => ⟨S256x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S256x256, .f32⟩
  | .local _ .vmem, ⟨45, _⟩ => ⟨S256x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S2000x256, .f32⟩
  | .local _ .vmem, ⟨55, _⟩ => ⟨S2000x256, .f32⟩
  | .local _ .vmem, ⟨56, _⟩ => ⟨S2000x256, .f32⟩
  | .local _ .vmem, ⟨57, _⟩ => ⟨S256x256, .f32⟩
  | .local _ .vmem, ⟨58, _⟩ => ⟨S256x256, .f32⟩
  | .local _ .vmem, ⟨59, _⟩ => ⟨S1x256, .f32⟩
  | .local _ .vmem, ⟨60, _⟩ => ⟨S1x256, .f32⟩
  | .local _ .vmem, ⟨61, _⟩ => ⟨S1x256, .f32⟩
  | .local _ .vmem, ⟨62, _⟩ => ⟨S2000x256, .f32⟩
  | .local _ .vmem, ⟨63, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩
abbrev main_cst_5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_6 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c : Ref sig .tc := ⟨.hbm, 62, rfl⟩
abbrev main_v32 : Ref sig .tc := ⟨.hbm, 63, rfl⟩
abbrev main_v33 : Ref sig .tc := ⟨.hbm, 64, rfl⟩
abbrev main_c_7 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_9 : Ref sig .tc := ⟨.hbm, 77, rfl⟩
abbrev main_v44 : Ref sig .tc := ⟨.hbm, 78, rfl⟩
abbrev main_cst_10 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_11 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_12 : Ref sig .tc := ⟨.hbm, 90, rfl⟩
abbrev main_v54 : Ref sig .tc := ⟨.hbm, 91, rfl⟩
abbrev main_v55 : Ref sig .tc := ⟨.hbm, 92, rfl⟩
abbrev main_c_13 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_14 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_15 : Ref sig .tc := ⟨.hbm, 105, rfl⟩
abbrev main_v66 : Ref sig .tc := ⟨.hbm, 106, rfl⟩
abbrev main_cst_16 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_17 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_c_18 : Ref sig .tc := ⟨.hbm, 130, rfl⟩
abbrev main_v88 : Ref sig .tc := ⟨.hbm, 131, rfl⟩
abbrev main_v89 : Ref sig .tc := ⟨.hbm, 132, rfl⟩
abbrev main_c_19 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_20 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_21 : Ref sig .tc := ⟨.hbm, 145, rfl⟩
abbrev main_v100 : Ref sig .tc := ⟨.hbm, 146, rfl⟩
abbrev main_cst_22 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_23 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_24 : Ref sig .tc := ⟨.hbm, 158, rfl⟩
abbrev main_v110 : Ref sig .tc := ⟨.hbm, 159, rfl⟩
abbrev main_v111 : Ref sig .tc := ⟨.hbm, 160, rfl⟩
abbrev main_c_25 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_26 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_27 : Ref sig .tc := ⟨.hbm, 173, rfl⟩
abbrev main_v122 : Ref sig .tc := ⟨.hbm, 174, rfl⟩
abbrev main_cst_28 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_29 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg8_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg8_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg8_0 : Ref sig .tc := ⟨.vmem, 49, rfl⟩
abbrev cc4_stg8_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg8_0 : Ref sig .tc := ⟨.vmem, 62, rfl⟩
abbrev cc5_stg8_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem8_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem8_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem8_0 : DmaSem sig := 49
abbrev cc4_sem8_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem2_1 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem8_0 : DmaSem sig := 62
abbrev cc5_sem8_1 : DmaSem sig := 63

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  shapeCasts_S256_S1x256 : S256.ShapeCasts S1x256
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  slices_S2x500000_S1x500000_1_0 : S2x500000.Slices ![1, 0] S1x500000
  shapeCasts_S1x500000_S500000 : S1x500000.ShapeCasts S500000
  bcast_S_S50000x256 : S_.BroadcastsInDim S50000x256 (![] : Fin 0 → Fin S50000x256.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  slices_S2x500000_S1x500000_0_0 : S2x500000.Slices ![0, 0] S1x500000
  bcast_S_S500000 : S_.BroadcastsInDim S500000 (![] : Fin 0 → Fin S500000.rank)
  slices_S512x256_S256x256_0_0 : S512x256.Slices ![0, 0] S256x256
  slices_S512x256_S256x256_256_0 : S512x256.Slices ![256, 0] S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  bcast_S50000x256_S1x50000x256_1_2 : S50000x256.BroadcastsInDim S1x50000x256 (![1, 2] : Fin 2 → Fin S1x50000x256.rank)
  concatenates_S1x50000x256_S1x50000x256_S2x50000x256_d0 : Shape.Concatenates [S1x50000x256, S1x50000x256] S2x50000x256 0
  dot_S5000x32_S32x256_S5000x256_1_0_0_1_n_n_wf : DotDims.WF S5000x32 S32x256 S5000x256 [1] [0] [0] [1] [] []
  scatter_S50000x256_S500000x1_S500000x256_1_0_0_1_wf : ScatterDims.WF S50000x256 S500000x1 S500000x256 [1] [0] [0] 1
  scatter_S50000x1_S500000x1_S500000x1_1_0_0_1_wf : ScatterDims.WF S50000x1 S500000x1 S500000x1 [1] [0] [0] 1
  gather_S50000x256_S500000x1_S500000x256_1_0_n_n_0_1_1256_wf : GatherDims.WF S50000x256 S500000x1 S500000x256 [1] [0] [] [0] [] 1 ![1, 256]
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S500000x32.size a
  hwx0_0 : ∀ i : grid0.Coords, EltTy.bits .f32 = 32 ∨ (Rect.block (s := S500000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S500000x256.size a
  hwx0_3 : ∀ i : grid0.Coords, EltTy.bits .f32 = 32 ∨ (Rect.block (s := S500000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S500000x32.size a
  hwx1_0 : ∀ i : grid1.Coords, EltTy.bits .f32 = 32 ∨ (Rect.block (s := S500000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S32x256.size a
  hwx1_1 : ∀ i : grid1.Coords, EltTy.bits .f32 = 32 ∨ (Rect.block (s := S32x256) S32x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S500000x256.size a
  hwx1_3 : ∀ i : grid1.Coords, EltTy.bits .f32 = 32 ∨ (Rect.block (s := S500000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S50000x256.size a
  hwx2_8 : ∀ i : grid2.Coords, EltTy.bits .f32 = 32 ∨ (Rect.block (s := S50000x256) S2000x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x256.size a ≤ S50000x256.size a
  hwx3_8 : ∀ i : grid3.Coords, EltTy.bits .f32 = 32 ∨ (Rect.block (s := S50000x256) S2000x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x256.size a ≤ S50000x256.size a
  hwx4_8 : ∀ i : grid4.Coords, EltTy.bits .f32 = 32 ∨ (Rect.block (s := S50000x256) S2000x256.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .f32 = 32 ∨ (Rect.block (s := S256x256) S256x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x256.size a ≤ S50000x256.size a
  hwx5_8 : ∀ i : grid5.Coords, EltTy.bits .f32 = 32 ∨ (Rect.block (s := S50000x256) S2000x256.size (cc5_transform_8 i) (hinb5_8 i)).WholeWords (EltTy.packing .f32)

variable [Facts₀]

def dot_S5000x32_S32x256_S5000x256_1_0_0_1_n_n : DotDims S5000x32 S32x256 S5000x256 where
  lhsContracting := [1]
  rhsContracting := [0]
  lhsNonContracting := [0]
  rhsNonContracting := [1]
  lhsBatch := []
  rhsBatch := []
  wf := dot_S5000x32_S32x256_S5000x256_1_0_0_1_n_n_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg2) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg14) S32x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v74) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v77) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v78) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v79) S2000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_arg0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v80) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v83) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v84) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v85) S2000x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v79) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v107) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v130) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v131) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v132) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v133) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v134) S1x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v135) S2000x256.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v85) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v129) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v29) S2000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v136) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v137) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v138) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v139) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v140) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v141) S2000x256.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S50000x256 : Shape := ⟨2, ![50000, 256]⟩
abbrev S500000x32 : Shape := ⟨2, ![500000, 32]⟩
abbrev S512x256 : Shape := ⟨2, ![512, 256]⟩
abbrev S256 : Shape := ⟨1, ![256]⟩
abbrev S32x256 : Shape := ⟨2, ![32, 256]⟩
abbrev S2x500000 : Shape := ⟨2, ![2, 500000]⟩
abbrev S500000x256 : Shape := ⟨2, ![500000, 256]⟩
abbrev S1x256 : Shape := ⟨2, ![1, 256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S50000x1 : Shape := ⟨2, ![50000, 1]⟩
abbrev S50000x512 : Shape := ⟨2, ![50000, 512]⟩
abbrev S50000 : Shape := ⟨1, ![50000]⟩
abbrev S1x50000x256 : Shape := ⟨3, ![1, 50000, 256]⟩
abbrev S2x50000x256 : Shape := ⟨3, ![2, 50000, 256]⟩

abbrev nBuf : Space → Nat
  | .hbm => 319
  | .vmem => 0
  | .smem => 0
  | _ => 0

abbrev hbmTy0_0 (i : Nat) : BufTy := match i % 128 with
  | 0 => ⟨S50000x256, .f32⟩
  | 1 => ⟨S50000x256, .f32⟩
  | 2 => ⟨S500000x32, .f32⟩
  | 3 => ⟨S500000x32, .f32⟩
  | 4 => ⟨S512x256, .f32⟩
  | 5 => ⟨S256, .f32⟩
  | 6 => ⟨S512x256, .f32⟩
  | 7 => ⟨S256, .f32⟩
  | 8 => ⟨S512x256, .f32⟩
  | 9 => ⟨S256, .f32⟩
  | 10 => ⟨S512x256, .f32⟩
  | 11 => ⟨S256, .f32⟩
  | 12 => ⟨S32x256, .f32⟩
  | 13 => ⟨S256, .f32⟩
  | 14 => ⟨S32x256, .f32⟩
  | 15 => ⟨S256, .f32⟩
  | 16 => ⟨S256, .f32⟩
  | 17 => ⟨S256, .f32⟩
  | 18 => ⟨S256, .f32⟩
  | 19 => ⟨S256, .f32⟩
  | 20 => ⟨S2x500000, .i32⟩
  | 21 => ⟨S2x500000, .i32⟩
  | 22 => ⟨S500000x256, .f32⟩
  | 23 => ⟨S1x256, .f32⟩
  | 24 => ⟨S500000x256, .f32⟩
  | 25 => ⟨S500000x256, .f32⟩
  | 26 => ⟨S1x500000, .i32⟩
  | 27 => ⟨S500000, .i32⟩
  | 28 => ⟨S_, .f32⟩
  | 29 => ⟨S50000x256, .f32⟩
  | 30 => ⟨S500000x1, .i32⟩
  | 31 => ⟨S50000x256, .f32⟩
  | 32 => ⟨S_, .f32⟩
  | 33 => ⟨S500000x1, .f32⟩
  | 34 => ⟨S_, .f32⟩
  | 35 => ⟨S50000x1, .f32⟩
  | 36 => ⟨S500000x1, .i32⟩
  | 37 => ⟨S50000x1, .f32⟩
  | 38 => ⟨S_, .f32⟩
  | 39 => ⟨S50000x1, .f32⟩
  | 40 => ⟨S50000x1, .f32⟩
  | 41 => ⟨S50000x256, .f32⟩
  | 42 => ⟨S50000x256, .f32⟩
  | 43 => ⟨S500000x256, .f32⟩
  | 44 => ⟨S1x256, .f32⟩
  | 45 => ⟨S500000x256, .f32⟩
  | 46 => ⟨S500000x256, .f32⟩
  | 47 => ⟨S1x500000, .i32⟩
  | 48 => ⟨S500000, .i32⟩
  | 49 => ⟨S_, .f32⟩
  | 50 => ⟨S50000x256, .f32⟩
  | 51 => ⟨S500000x1, .i32⟩
  | 52 => ⟨S50000x256, .f32⟩
  | 53 => ⟨S_, .f32⟩
  | 54 => ⟨S500000x1, .f32⟩
  | 55 => ⟨S_, .f32⟩
  | 56 => ⟨S50000x1, .f32⟩
  | 57 => ⟨S500000x1, .i32⟩
  | 58 => ⟨S50000x1, .f32⟩
  | 59 => ⟨S_, .f32⟩
  | 60 => ⟨S50000x1, .f32⟩
  | 61 => ⟨S50000x1, .f32⟩
  | 62 => ⟨S50000x256, .f32⟩
  | 63 => ⟨S50000x256, .f32⟩
  | 64 => ⟨S1x500000, .i32⟩
  | 65 => ⟨S500000, .i32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x256, .f32⟩
  | 75 => ⟨S1x500000, .i32⟩
  | 76 => ⟨S500000, .i32⟩
  | 77 => ⟨S_, .f32⟩
  | 78 => ⟨S50000x256, .f32⟩
  | 79 => ⟨S500000x1, .i32⟩
  | 80 => ⟨S50000x256, .f32⟩
  | 81 => ⟨S_, .f32⟩
  | 82 => ⟨S500000x1, .f32⟩
  | 83 => ⟨S_, .f32⟩
  | 84 => ⟨S50000x1, .f32⟩
  | 85 => ⟨S500000x1, .i32⟩
  | 86 => ⟨S50000x1, .f32⟩
  | 87 => ⟨S_, .f32⟩
  | 88 => ⟨S50000x1, .f32⟩
  | 89 => ⟨S50000x1, .f32⟩
  | 90 => ⟨S50000x256, .f32⟩
  | 91 => ⟨S50000x256, .f32⟩
  | 92 => ⟨S50000x512, .f32⟩
  | 93 => ⟨S50000x256, .f32⟩
  | 94 => ⟨S1x256, .f32⟩
  | 95 => ⟨S50000x256, .f32⟩
  | 96 => ⟨S50000x256, .f32⟩
  | 97 => ⟨S50000x256, .f32⟩
  | 98 => ⟨S1x500000, .i32⟩
  | 99 => ⟨S500000, .i32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S500000x1, .i32⟩
  | 108 => ⟨S500000x256, .f32⟩
  | 109 => ⟨S1x500000, .i32⟩
  | 110 => ⟨S500000, .i32⟩
  | 111 => ⟨S_, .f32⟩
  | 112 => ⟨S50000x256, .f32⟩
  | 113 => ⟨S500000x1, .i32⟩
  | 114 => ⟨S50000x256, .f32⟩
  | 115 => ⟨S_, .f32⟩
  | 116 => ⟨S500000x1, .f32⟩
  | 117 => ⟨S_, .f32⟩
  | 118 => ⟨S50000x1, .f32⟩
  | 119 => ⟨S500000x1, .i32⟩
  | 120 => ⟨S50000x1, .f32⟩
  | 121 => ⟨S_, .f32⟩
  | 122 => ⟨S50000x1, .f32⟩
  | 123 => ⟨S50000x1, .f32⟩
  | 124 => ⟨S50000x256, .f32⟩
  | 125 => ⟨S50000x256, .f32⟩
  | 126 => ⟨S50000x512, .f32⟩
  | 127 => ⟨S50000x256, .f32⟩
  | _ => ⟨S50000x256, .f32⟩

abbrev hbmTy0_1 (i : Nat) : BufTy := match i % 128 with
  | 0 => ⟨S1x256, .f32⟩
  | 1 => ⟨S50000x256, .f32⟩
  | 2 => ⟨S50000x256, .f32⟩
  | 3 => ⟨S50000x256, .f32⟩
  | 4 => ⟨S_, .f32⟩
  | 5 => ⟨S50000, .f32⟩
  | 6 => ⟨S50000x1, .f32⟩
  | 7 => ⟨S_, .f32⟩
  | 8 => ⟨S50000x1, .f32⟩
  | 9 => ⟨S50000x1, .f32⟩
  | 10 => ⟨S50000x256, .f32⟩
  | 11 => ⟨S50000x256, .f32⟩
  | 12 => ⟨S50000x256, .f32⟩
  | 13 => ⟨S_, .f32⟩
  | 14 => ⟨S50000, .f32⟩
  | 15 => ⟨S50000x1, .f32⟩
  | 16 => ⟨S_, .f32⟩
  | 17 => ⟨S50000x1, .f32⟩
  | 18 => ⟨S50000x1, .f32⟩
  | 19 => ⟨S50000x256, .f32⟩
  | 20 => ⟨S50000x256, .f32⟩
  | 21 => ⟨S_, .f32⟩
  | 22 => ⟨S50000x1, .f32⟩
  | 23 => ⟨S50000x1, .f32⟩
  | 24 => ⟨S50000x1, .f32⟩
  | 25 => ⟨S50000x256, .f32⟩
  | 26 => ⟨S50000x256, .f32⟩
  | 27 => ⟨S1x256, .f32⟩
  | 28 => ⟨S50000x256, .f32⟩
  | 29 => ⟨S50000x256, .f32⟩
  | 30 => ⟨S1x256, .f32⟩
  | 31 => ⟨S50000x256, .f32⟩
  | 32 => ⟨S50000x256, .f32⟩
  | 33 => ⟨S_, .f32⟩
  | 34 => ⟨S50000, .f32⟩
  | 35 => ⟨S50000x1, .f32⟩
  | 36 => ⟨S_, .f32⟩
  | 37 => ⟨S50000x1, .f32⟩
  | 38 => ⟨S50000x1, .f32⟩
  | 39 => ⟨S50000x256, .f32⟩
  | 40 => ⟨S50000x256, .f32⟩
  | 41 => ⟨S50000x256, .f32⟩
  | 42 => ⟨S_, .f32⟩
  | 43 => ⟨S50000, .f32⟩
  | 44 => ⟨S50000x1, .f32⟩
  | 45 => ⟨S_, .f32⟩
  | 46 => ⟨S50000x1, .f32⟩
  | 47 => ⟨S50000x1, .f32⟩
  | 48 => ⟨S50000x256, .f32⟩
  | 49 => ⟨S50000x256, .f32⟩
  | 50 => ⟨S_, .f32⟩
  | 51 => ⟨S50000x1, .f32⟩
  | 52 => ⟨S50000x1, .f32⟩
  | 53 => ⟨S50000x1, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S1x256, .f32⟩
  | 60 => ⟨S50000x256, .f32⟩
  | 61 => ⟨S50000x256, .f32⟩
  | 62 => ⟨S1x500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x256, .f32⟩
  | 73 => ⟨S1x500000, .i32⟩
  | 74 => ⟨S500000, .i32⟩
  | 75 => ⟨S_, .f32⟩
  | 76 => ⟨S50000x256, .f32⟩
  | 77 => ⟨S500000x1, .i32⟩
  | 78 => ⟨S50000x256, .f32⟩
  | 79 => ⟨S_, .f32⟩
  | 80 => ⟨S500000x1, .f32⟩
  | 81 => ⟨S_, .f32⟩
  | 82 => ⟨S50000x1, .f32⟩
  | 83 => ⟨S500000x1, .i32⟩
  | 84 => ⟨S50000x1, .f32⟩
  | 85 => ⟨S_, .f32⟩
  | 86 => ⟨S50000x1, .f32⟩
  | 87 => ⟨S50000x1, .f32⟩
  | 88 => ⟨S50000x256, .f32⟩
  | 89 => ⟨S50000x256, .f32⟩
  | 90 => ⟨S50000x512, .f32⟩
  | 91 => ⟨S50000x256, .f32⟩
  | 92 => ⟨S1x256, .f32⟩
  | 93 => ⟨S50000x256, .f32⟩
  | 94 => ⟨S50000x256, .f32⟩
  | 95 => ⟨S50000x256, .f32⟩
  | 96 => ⟨S1x500000, .i32⟩
  | 97 => ⟨S500000, .i32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x256, .f32⟩
  | 107 => ⟨S1x500000, .i32⟩
  | 108 => ⟨S500000, .i32⟩
  | 109 => ⟨S_, .f32⟩
  | 110 => ⟨S50000x256, .f32⟩
  | 111 => ⟨S500000x1, .i32⟩
  | 112 => ⟨S50000x256, .f32⟩
  | 113 => ⟨S_, .f32⟩
  | 114 => ⟨S500000x1, .f32⟩
  | 115 => ⟨S_, .f32⟩
  | 116 => ⟨S50000x1, .f32⟩
  | 117 => ⟨S500000x1, .i32⟩
  | 118 => ⟨S50000x1, .f32⟩
  | 119 => ⟨S_, .f32⟩
  | 120 => ⟨S50000x1, .f32⟩
  | 121 => ⟨S50000x1, .f32⟩
  | 122 => ⟨S50000x256, .f32⟩
  | 123 => ⟨S50000x256, .f32⟩
  | 124 => ⟨S50000x512, .f32⟩
  | 125 => ⟨S50000x256, .f32⟩
  | 126 => ⟨S1x256, .f32⟩
  | 127 => ⟨S50000x256, .f32⟩
  | _ => ⟨S50000x256, .f32⟩

abbrev hbmTy0_2 (i : Nat) : BufTy := match i % 128 with
  | 0 => ⟨S50000x256, .f32⟩
  | 1 => ⟨S50000x256, .f32⟩
  | 2 => ⟨S_, .f32⟩
  | 3 => ⟨S50000, .f32⟩
  | 4 => ⟨S50000x1, .f32⟩
  | 5 => ⟨S_, .f32⟩
  | 6 => ⟨S50000x1, .f32⟩
  | 7 => ⟨S50000x1, .f32⟩
  | 8 => ⟨S50000x256, .f32⟩
  | 9 => ⟨S50000x256, .f32⟩
  | 10 => ⟨S50000x256, .f32⟩
  | 11 => ⟨S_, .f32⟩
  | 12 => ⟨S50000, .f32⟩
  | 13 => ⟨S50000x1, .f32⟩
  | 14 => ⟨S_, .f32⟩
  | 15 => ⟨S50000x1, .f32⟩
  | 16 => ⟨S50000x1, .f32⟩
  | 17 => ⟨S50000x256, .f32⟩
  | 18 => ⟨S50000x256, .f32⟩
  | 19 => ⟨S_, .f32⟩
  | 20 => ⟨S50000x1, .f32⟩
  | 21 => ⟨S50000x1, .f32⟩
  | 22 => ⟨S50000x1, .f32⟩
  | 23 => ⟨S50000x256, .f32⟩
  | 24 => ⟨S50000x256, .f32⟩
  | 25 => ⟨S1x256, .f32⟩
  | 26 => ⟨S50000x256, .f32⟩
  | 27 => ⟨S50000x256, .f32⟩
  | 28 => ⟨S1x256, .f32⟩
  | 29 => ⟨S50000x256, .f32⟩
  | 30 => ⟨S50000x256, .f32⟩
  | 31 => ⟨S_, .f32⟩
  | 32 => ⟨S50000, .f32⟩
  | 33 => ⟨S50000x1, .f32⟩
  | 34 => ⟨S_, .f32⟩
  | 35 => ⟨S50000x1, .f32⟩
  | 36 => ⟨S50000x1, .f32⟩
  | 37 => ⟨S50000x256, .f32⟩
  | 38 => ⟨S50000x256, .f32⟩
  | 39 => ⟨S50000x256, .f32⟩
  | 40 => ⟨S_, .f32⟩
  | 41 => ⟨S50000, .f32⟩
  | 42 => ⟨S50000x1, .f32⟩
  | 43 => ⟨S_, .f32⟩
  | 44 => ⟨S50000x1, .f32⟩
  | 45 => ⟨S50000x1, .f32⟩
  | 46 => ⟨S50000x256, .f32⟩
  | 47 => ⟨S50000x256, .f32⟩
  | 48 => ⟨S_, .f32⟩
  | 49 => ⟨S50000x1, .f32⟩
  | 50 => ⟨S50000x1, .f32⟩
  | 51 => ⟨S50000x1, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S1x256, .f32⟩
  | 58 => ⟨S50000x256, .f32⟩
  | 59 => ⟨S50000x256, .f32⟩
  | 60 => ⟨S1x50000x256, .f32⟩
  | 61 => ⟨S1x50000x256, .f32⟩
  | 62 => ⟨S2x50000x256, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_4 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_9 : Ref sig .tc := ⟨.hbm, 81, rfl⟩
abbrev main_v48 : Ref sig .tc := ⟨.hbm, 82, rfl⟩
abbrev main_cst_10 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_11 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_12 : Ref sig .tc := ⟨.hbm, 100, rfl⟩
abbrev main_v64 : Ref sig .tc := ⟨.hbm, 101, rfl⟩
abbrev main_v65 : Ref sig .tc := ⟨.hbm, 102, rfl⟩
abbrev main_c_13 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_14 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_15 : Ref sig .tc := ⟨.hbm, 115, rfl⟩
abbrev main_v76 : Ref sig .tc := ⟨.hbm, 116, rfl⟩
abbrev main_cst_16 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_17 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_18 : Ref sig .tc := ⟨.hbm, 132, rfl⟩
abbrev main_v90 : Ref sig .tc := ⟨.hbm, 133, rfl⟩
abbrev main_v91 : Ref sig .tc := ⟨.hbm, 134, rfl⟩
abbrev main_cst_19 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_20 : Ref sig .tc := ⟨.hbm, 141, rfl⟩
abbrev main_v97 : Ref sig .tc := ⟨.hbm, 142, rfl⟩
abbrev main_v98 : Ref sig .tc := ⟨.hbm, 143, rfl⟩
abbrev main_cst_21 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_22 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_23 : Ref sig .tc := ⟨.hbm, 161, rfl⟩
abbrev main_v114 : Ref sig .tc := ⟨.hbm, 162, rfl⟩
abbrev main_v115 : Ref sig .tc := ⟨.hbm, 163, rfl⟩
abbrev main_cst_24 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_25 : Ref sig .tc := ⟨.hbm, 170, rfl⟩
abbrev main_v121 : Ref sig .tc := ⟨.hbm, 171, rfl⟩
abbrev main_v122 : Ref sig .tc := ⟨.hbm, 172, rfl⟩
abbrev main_cst_26 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_27 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_c_28 : Ref sig .tc := ⟨.hbm, 192, rfl⟩
abbrev main_v140 : Ref sig .tc := ⟨.hbm, 193, rfl⟩
abbrev main_v141 : Ref sig .tc := ⟨.hbm, 194, rfl⟩
abbrev main_c_29 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_cst_30 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_cst_31 : Ref sig .tc := ⟨.hbm, 207, rfl⟩
abbrev main_v152 : Ref sig .tc := ⟨.hbm, 208, rfl⟩
abbrev main_cst_32 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_33 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_c_34 : Ref sig .tc := ⟨.hbm, 226, rfl⟩
abbrev main_v168 : Ref sig .tc := ⟨.hbm, 227, rfl⟩
abbrev main_v169 : Ref sig .tc := ⟨.hbm, 228, rfl⟩
abbrev main_c_35 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_cst_36 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_cst_37 : Ref sig .tc := ⟨.hbm, 241, rfl⟩
abbrev main_v180 : Ref sig .tc := ⟨.hbm, 242, rfl⟩
abbrev main_cst_38 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_cst_39 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_cst_40 : Ref sig .tc := ⟨.hbm, 258, rfl⟩
abbrev main_v194 : Ref sig .tc := ⟨.hbm, 259, rfl⟩
abbrev main_v195 : Ref sig .tc := ⟨.hbm, 260, rfl⟩
abbrev main_cst_41 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_cst_42 : Ref sig .tc := ⟨.hbm, 267, rfl⟩
abbrev main_v201 : Ref sig .tc := ⟨.hbm, 268, rfl⟩
abbrev main_v202 : Ref sig .tc := ⟨.hbm, 269, rfl⟩
abbrev main_cst_43 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_cst_44 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_cst_45 : Ref sig .tc := ⟨.hbm, 287, rfl⟩
abbrev main_v218 : Ref sig .tc := ⟨.hbm, 288, rfl⟩
abbrev main_v219 : Ref sig .tc := ⟨.hbm, 289, rfl⟩
abbrev main_cst_46 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_cst_47 : Ref sig .tc := ⟨.hbm, 296, rfl⟩
abbrev main_v225 : Ref sig .tc := ⟨.hbm, 297, rfl⟩
abbrev main_v226 : Ref sig .tc := ⟨.hbm, 298, rfl⟩
abbrev main_cst_48 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_cst_49 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  slices_S2x500000_S1x500000_1_0 : S2x500000.Slices ![1, 0] S1x500000
  shapeCasts_S1x500000_S500000 : S1x500000.ShapeCasts S500000
  bcast_S_S50000x256 : S_.BroadcastsInDim S50000x256 (![] : Fin 0 → Fin S50000x256.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  slices_S2x500000_S1x500000_0_0 : S2x500000.Slices ![0, 0] S1x500000
  bcast_S_S500000 : S_.BroadcastsInDim S500000 (![] : Fin 0 → Fin S500000.rank)
  concatenates_S50000x256_S50000x256_S50000x512_d1 : Shape.Concatenates [S50000x256, S50000x256] S50000x512 1
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S50000x256_S1x50000x256_1_2 : S50000x256.BroadcastsInDim S1x50000x256 (![1, 2] : Fin 2 → Fin S1x50000x256.rank)
  concatenates_S1x50000x256_S1x50000x256_S2x50000x256_d0 : Shape.Concatenates [S1x50000x256, S1x50000x256] S2x50000x256 0
  dot_S500000x32_S32x256_S500000x256_1_0_0_1_n_n_wf : DotDims.WF S500000x32 S32x256 S500000x256 [1] [0] [0] [1] [] []
  scatter_S50000x256_S500000x1_S500000x256_1_0_0_1_wf : ScatterDims.WF S50000x256 S500000x1 S500000x256 [1] [0] [0] 1
  scatter_S50000x1_S500000x1_S500000x1_1_0_0_1_wf : ScatterDims.WF S50000x1 S500000x1 S500000x1 [1] [0] [0] 1
  gather_S50000x256_S500000x1_S500000x256_1_0_n_n_0_1_1256_wf : GatherDims.WF S50000x256 S500000x1 S500000x256 [1] [0] [] [0] [] 1 ![1, 256]
  dot_S50000x512_S512x256_S50000x256_1_0_0_1_n_n_wf : DotDims.WF S50000x512 S512x256 S50000x256 [1] [0] [0] [1] [] []

variable [Facts₀]

def dot_S500000x32_S32x256_S500000x256_1_0_0_1_n_n : DotDims S500000x32 S32x256 S500000x256 where
  lhsContracting := [1]
  rhsContracting := [0]
  lhsNonContracting := [0]
  rhsNonContracting := [1]
  lhsBatch := []
  rhsBatch := []
  wf := dot_S500000x32_S32x256_S500000x256_1_0_0_1_n_n_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.Spec.lean ====
/-
  The mathematics both programs compute, on the extended reals, stated once and index by index.

  An edge's embedding is a dense layer of its 32 time features: entry (e, j) is  Σ_k et[e,k]·Wem[k,j] + bem[j].
  A node's new state is a layer norm over the 256 features of
      y[n,j] = ((Σ_k h[n,k]·Wtop[k,j] + Σ_k agg[n,k]·Wbot[k,j]) + b[j]) + add[n,j],
  that is  (y − μ)·rsqrt(σ² + ε)·g + β  with μ the mean of the row and σ² the mean of the squared deviations, the
  means taken as a sum divided by the float 256.  Both are functions of ONE row of the row-indexed operands, which is
  what lets a row block of the result be computed from the same row block of the operands.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `r` rows and `c` columns, as the programs' rank-2 arrays are read at `Ideal`. -/
abbrev Mat (r c : Nat) : Type := (⟨2, ![r, c]⟩ : Shape).Idx → EReal

/-- The float 256.0, the divisor of both means (the same word in both programs, never evaluated). -/
abbrev c256 : EReal := Ideal.ofBits .f32 0x43800000#32
/-- The float nearest 1e-5, the variance's offset (the same word in both programs, never evaluated). -/
abbrev ceps : EReal := Ideal.ofBits .f32 0x3727C5AC#32

/-- One entry of a dense layer over 32 inputs. -/
def embedAt (x w : Fin 32 → EReal) (b : EReal) : EReal := (∑ k, x k * w k) + b

/-- One entry of the pre-normalisation state: the self term, the neighbour term, the bias and the edge bias, added in
    this order. -/
def preAt (h a wt wb : Fin 256 → EReal) (b add : EReal) : EReal :=
  (((∑ k, h k * wt k) + ∑ k, a k * wb k) + b) + add

/-- The mean of a row of 256: its sum over the float 256. -/
def mean (y : Fin 256 → EReal) : EReal := Ideal.div (∑ k, y k) c256

/-- The mean squared deviation of a row of 256. -/
def var (y : Fin 256 → EReal) : EReal := Ideal.div (∑ k, (y k - mean y) * (y k - mean y)) c256

/-- Layer norm of a row at column `j`, with scale `g` and shift `β`. -/
def lnAt (y g beta : Fin 256 → EReal) (j : Fin 256) : EReal :=
  ((y j - mean y) * Ideal.rsqrt (var y + ceps)) * g j + beta j

/-- The embedded edge features: row `e` of the result from row `e` of `et`. -/
def embed {E : Nat} (et : Mat E 32) (w : Mat 32 256) (b : Mat 1 256) : Mat E 256 := fun i =>
  embedAt (fun k => et (ix2 (i 0 : Fin E) k)) (fun k => w (ix2 k (i 1 : Fin 256))) (b (ix2 (0 : Fin 1) (i 1 : Fin 256)))

/-- Row `n` of the pre-normalisation state, from row `n` of `h`, `agg`, `add`. -/
def preRow {N : Nat} (h agg add : Mat N 256) (wt wb : Mat 256 256) (b : Mat 1 256) (n : Fin N) : Fin 256 → EReal := fun j =>
  preAt (fun k => h (ix2 n k)) (fun k => agg (ix2 n k)) (fun k => wt (ix2 k j)) (fun k => wb (ix2 k j))
    (b (ix2 (0 : Fin 1) j)) (add (ix2 n j))

/-- The new node states: the layer norm of each row of the pre-normalisation state. -/
def layer {N : Nat} (h agg add : Mat N 256) (wt wb : Mat 256 256) (b g beta : Mat 1 256) : Mat N 256 := fun i =>
  lnAt (preRow h agg add wt wb b (i 0 : Fin N)) (fun j => g (ix2 (0 : Fin 1) j)) (fun j => beta (ix2 (0 : Fin 1) j)) (i 1 : Fin 256)

/-- A row of the embedding depends on that row of `et` only: if row `p` of `etB` is row `r` of `et`, then row `p` of
    `embed etB` is row `r` of `embed et`. -/
theorem embed_row {E E' : Nat} (etB : Mat E' 32) (et : Mat E 32) (w : Mat 32 256) (b : Mat 1 256) (p : Fin E') (r : Fin E)
    (hrow : ∀ k : Fin 32, etB (ix2 p k) = et (ix2 r k)) (q : Fin 256) :
    embed etB w b (ix2 p q) = embed et w b (ix2 r q) := by
  show embedAt (fun k => etB (ix2 p k)) _ _ = embedAt (fun k => et (ix2 r k)) _ _
  rw [show (fun k => etB (ix2 p k)) = fun k => et (ix2 r k) from funext hrow]
  rfl

/-- A row of the new states depends on that row of `h`, `agg`, `add` only. -/
theorem layer_row {N N' : Nat} (hB aggB addB : Mat N' 256) (h agg add : Mat N 256) (wt wb : Mat 256 256) (b g beta : Mat 1 256)
    (p : Fin N') (r : Fin N)
    (hh : ∀ k : Fin 256, hB (ix2 p k) = h (ix2 r k)) (ha : ∀ k : Fin 256, aggB (ix2 p k) = agg (ix2 r k))
    (hd : ∀ k : Fin 256, addB (ix2 p k) = add (ix2 r k)) (q : Fin 256) :
    layer hB aggB addB wt wb b g beta (ix2 p q) = layer h agg add wt wb b g beta (ix2 r q) := by
  show lnAt (preRow hB aggB addB wt wb b p) _ _ q = lnAt (preRow h agg add wt wb b r) _ _ q
  have e : preRow hB aggB addB wt wb b p = preRow h agg add wt wb b r := by
    funext j
    unfold preRow
    rw [show (fun k => hB (ix2 p k)) = fun k => h (ix2 r k) from funext hh,
      show (fun k => aggB (ix2 p k)) = fun k => agg (ix2 r k) from funext ha, hd j]
  rw [e]

end Cert.Spec

end
-- ==== Proof.KEmbed.lean ====
import proofs.«401930_j19567871000709_3_alg».proof.Proof.Gen.KernelIdeal.Frame
import proofs.«401930_j19567871000709_3_alg».proof.Proof.Spec
import Idealize.ShloMosaic.Lib.ValueIdx
import Idealize.ShloMosaic.Lib.Pipeline.Value
import Idealize.ShloMosaic.PureOps.Ideal.Laws
set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-! ## The dense layer's contraction, index by index

The product contracts axis 1 of the row block with axis 0 of the weights; the free axes are the block's row and the
weights' column. At output index (p, q) and contraction position k the operands are read at (p, k) and (k, q). -/

/-- The row-block operand keeps the output's row. -/
theorem lhs_embed_0 (i : S5000x256.Idx) (k : dot_S5000x32_S32x256_S5000x256_1_0_0_1_n_n.contr.Idx) :
    (dot_S5000x32_S32x256_S5000x256_1_0_0_1_n_n.lhsIdx i k 0).val = (i 0).val := by
  unfold DotDims.lhsIdx
  rw [dif_neg (show ¬(0 : Fin S5000x32.rank) ∈ dot_S5000x32_S32x256_S5000x256_1_0_0_1_n_n.lhsBatch by decide),
    dif_pos (show (0 : Fin S5000x32.rank) ∈ dot_S5000x32_S32x256_S5000x256_1_0_0_1_n_n.lhsNonContracting by decide)]
  rfl

/-- Its column is the contraction position. -/
theorem lhs_embed_1 (i : S5000x256.Idx) (k : dot_S5000x32_S32x256_S5000x256_1_0_0_1_n_n.contr.Idx) :
    (dot_S5000x32_S32x256_S5000x256_1_0_0_1_n_n.lhsIdx i k 1).val = (k ⟨0, by decide⟩).val :=
  dot_S5000x32_S32x256_S5000x256_1_0_0_1_n_n.lhsIdx_val_of_single rfl i k

/-- The weights' row is the contraction position. -/
theorem rhs_embed_0 (i : S5000x256.Idx) (k : dot_S5000x32_S32x256_S5000x256_1_0_0_1_n_n.contr.Idx) :
    (dot_S5000x32_S32x256_S5000x256_1_0_0_1_n_n.rhsIdx i k 0).val = (k ⟨0, by decide⟩).val :=
  dot_S5000x32_S32x256_S5000x256_1_0_0_1_n_n.rhsIdx_val_of_single rfl i k

/-- The weights keep the output's column. -/
theorem rhs_embed_1 (i : S5000x256.Idx) (k : dot_S5000x32_S32x256_S5000x256_1_0_0_1_n_n.contr.Idx) :
    (dot_S5000x32_S32x256_S5000x256_1_0_0_1_n_n.rhsIdx i k 1).val = (i 1).val := by
  unfold DotDims.rhsIdx
  rw [dif_neg (show ¬(1 : Fin S32x256.rank) ∈ dot_S5000x32_S32x256_S5000x256_1_0_0_1_n_n.rhsBatch by decide),
    dif_pos (show (1 : Fin S32x256.rank) ∈ dot_S5000x32_S32x256_S5000x256_1_0_0_1_n_n.rhsNonContracting by decide)]
  rfl

/-- The product into the zero accumulator at (p, q): the sum over the 32 inputs of row p times column q. -/
theorem matmul_embed (a : FVec Ideal S5000x32 .bf16) (b : FVec Ideal S32x256 .bf16) (p : Fin 5000) (q : Fin 256) :
    matmul dot_S5000x32_S32x256_S5000x256_1_0_0_1_n_n none a b (constant (F := Ideal) S5000x256 .f32 0x00000000#32) (ix2 p q)
      = ∑ k : Fin 32, a (ix2 p k) * b (ix2 k q) := by
  show FloatOps.matmul dot_S5000x32_S32x256_S5000x256_1_0_0_1_n_n none a b (constant S5000x256 .f32 0x00000000#32) (ix2 p q) = _
  rw [Ideal.matmul_constant_zero_apply, ← Equiv.sum_comp (contrEquiv1 dot_S5000x32_S32x256_S5000x256_1_0_0_1_n_n 32 rfl rfl).symm]
  refine Finset.sum_congr rfl fun k _ => ?_
  have hk := contrEquiv1_symm_val dot_S5000x32_S32x256_S5000x256_1_0_0_1_n_n 32 rfl rfl k
  have el : dot_S5000x32_S32x256_S5000x256_1_0_0_1_n_n.lhsIdx (ix2 p q)
      ((contrEquiv1 dot_S5000x32_S32x256_S5000x256_1_0_0_1_n_n 32 rfl rfl).symm k) = ix2 p k := funext fun a => Fin.ext (by
    match a with
    | ⟨0, _⟩ => exact lhs_embed_0 _ _
    | ⟨1, _⟩ => exact (lhs_embed_1 _ _).trans hk)
  have er : dot_S5000x32_S32x256_S5000x256_1_0_0_1_n_n.rhsIdx (ix2 p q)
      ((contrEquiv1 dot_S5000x32_S32x256_S5000x256_1_0_0_1_n_n 32 rfl rfl).symm k) = ix2 k q := funext fun a => Fin.ext (by
    match a with
    | ⟨0, _⟩ => exact (rhs_embed_0 _ _).trans hk
    | ⟨1, _⟩ => exact rhs_embed_1 _ _)
  rw [el, er]

/-- The one-row bias spread over the block's rows reads its column's entry. -/
theorem bias_embed (x2 : Vec Ideal S1x256 .f32) (p : Fin 5000) (q : Fin 256) :
    broadcastTo S5000x256 (shapeCast S1x256 x2 shapeCasts_S1x256_S1x256) broadcasts_S1x256_S5000x256 (ix2 p q)
      = x2 (ix2 (0 : Fin 1) q) := by
  rw [shapeCast_self]
  refine broadcastTo_apply _ _ _ _ fun a => ?_
  match a with
  | ⟨0, _⟩ => rfl
  | ⟨1, _⟩ => rfl

/-- THE BODY'S RESULT on a row block: the dense layer of the block. -/
theorem pay0 (x0 : Vec Ideal S5000x32 .f32) (x1 : Vec Ideal S32x256 .f32) (x2 : Vec Ideal S1x256 .f32) :
    k0_pay1 (F := Ideal) x0 x1 x2 = Spec.embed x0 x1 x2 := by
  funext j
  obtain ⟨p, q, rfl⟩ : ∃ (p : Fin 5000) (q : Fin 256), j = ix2 p q := ⟨j 0, j 1, eq_ix2 j⟩
  unfold k0_pay1
  show addf _ _ (ix2 p q) = _
  rw [addf_apply, matmul_embed, bias_embed]
  rfl

/-- THE BODY'S RESULT on a row block, second edge type: the same dense layer. -/
theorem pay1 (x0 : Vec Ideal S5000x32 .f32) (x1 : Vec Ideal S32x256 .f32) (x2 : Vec Ideal S1x256 .f32) :
    k1_pay1 (F := Ideal) x0 x1 x2 = Spec.embed x0 x1 x2 := by
  funext j
  obtain ⟨p, q, rfl⟩ : ∃ (p : Fin 5000) (q : Fin 256), j = ix2 p q := ⟨j 0, j 1, eq_ix2 j⟩
  unfold k1_pay1
  show addf _ _ (ix2 p q) = _
  rw [addf_apply, matmul_embed, bias_embed]
  rfl

variable (V : (c : Dev nD) → (b : Ref sig .tc) → Buf (Elt Ideal) ((c : Thread nD τ).loc b))

/-! ## REGION 0: from the row blocks to the array -/

theorem zero_offsets : (![0, 0] : Fin 2 → Nat) = fun _ => 0 := funext fun a => by fin_cases a <;> rfl

/-- The printed index maps over the 100 grid points: the feature rows and the result rows move together, block t at
    point t; the weights and the bias stay at block (0, 0). -/
theorem idx_embed0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the feature block at point t is row 5000·t + p of the feature array. -/
theorem iblk0_0_row (c : Dev nD) (t : Fin cfg0.N) (p : Fin 5000) (k : Fin 32) (r : Fin 500000)
    (hr : r.val = t.val * 5000 + p.val) :
    (iblk0 (F := Ideal) V c 0 t : Vec Ideal S5000x32 .f32) (ix2 p k)
      = (V c main_arg2 : S500000x32.Idx → Elt Ideal .f32) (ix2 r k) := by
  obtain ⟨e0, e1, -, -, -, -, -, -⟩ := idx_embed0 t
  unfold iblk0
  rw [View.read_apply]
  show V c main_arg2 _ = V c main_arg2 _
  congr 1
  funext a
  apply Fin.ext
  match a with
  | ⟨0, _⟩ => show win0_0.index t (0 : Fin 2) * 5000 + 1 * p.val = r.val; omega
  | ⟨1, _⟩ => show win0_0.index t (1 : Fin 2) * 32 + 1 * k.val = k.val; omega

/-- The weights' block at any point is the whole weight array. -/
theorem iblk0_1_eq (c : Dev nD) (t : Fin cfg0.N) :
    (iblk0 (F := Ideal) V c 1 t : Vec Ideal S32x256 .f32) = (V c main_arg12 : S32x256.Idx → Elt Ideal .f32) := by
  obtain ⟨-, -, e2, e3, -, -, -, -⟩ := idx_embed0 t
  funext j
  unfold iblk0
  rw [View.read_apply]
  show V c main_arg12 _ = V c main_arg12 _
  congr 1
  funext a
  apply Fin.ext
  match a with
  | ⟨0, _⟩ => show win0_1.index t (0 : Fin 2) * 32 + 1 * (j 0).val = (j 0).val; omega
  | ⟨1, _⟩ => show win0_1.index t (1 : Fin 2) * 256 + 1 * (j 1).val = (j 1).val; omega

/-- The bias's block at any point is the whole one-row bias. -/
theorem iblk0_2_eq (c : Dev nD) (t : Fin cfg0.N) :
    (iblk0 (F := Ideal) V c 2 t : Vec Ideal S1x256 .f32) = (V c main_v0 : S1x256.Idx → Elt Ideal .f32) := by
  obtain ⟨-, -, -, -, e4, e5, -, -⟩ := idx_embed0 t
  funext j
  unfold iblk0
  rw [View.read_apply]
  show V c main_v0 _ = V c main_v0 _
  congr 1
  funext a
  apply Fin.ext
  match a with
  | ⟨0, _⟩ => show win0_2.index t (0 : Fin 2) * 1 + 1 * (j 0).val = (j 0).val; omega
  | ⟨1, _⟩ => show win0_2.index t (1 : Fin 2) * 256 + 1 * (j 1).val = (j 1).val; omega

/-- WHAT POINT t WRITES BACK is block t of the dense layer of the three arrays: the body's result on the block is the
    layer of the block, and a row of the layer depends on that row of the features only. -/
theorem flushed0 (c : Dev nD) (t : Fin cfg0.N) :
    (dat0 (F := Ideal) V c).flushed 3 t
      = ((cfg0.win 3).blk t).view.read (Elt Ideal) (Spec.embed (V c main_arg2) (V c main_arg12) (V c main_v0)) := by
  show (cfg0.win 3).cut (grid0.coords t) ((dat0 V c).after 3 t) = _
  rw [after0_3]
  unfold out0_3
  rw [View.canon_unit_zero zero_offsets]
  simp only [View.ld_unit_zero (S := S5000x32) zero_offsets, View.ld_unit_zero (S := S32x256) zero_offsets,
    View.ld_unit_zero (S := S1x256) zero_offsets]
  rw [pay0, iblk0_1_eq, iblk0_2_eq]
  obtain ⟨-, -, -, -, -, -, e6, e7⟩ := idx_embed0 t
  have ht : t.val < 100 := lt_of_lt_of_eq t.isLt N_0
  funext j
  have hj0 : (j 0).val < 5000 := (j 0).isLt
  have hj1 : (j 1).val < 256 := (j 1).isLt
  have hL : (cfg0.win 3).xinj (grid0.coords t) j = ix2 (⟨(j 0).val, hj0⟩ : Fin 5000) (⟨(j 1).val, hj1⟩ : Fin 256) :=
    funext fun a => Fin.ext (by match a with | ⟨0, _⟩ => rfl | ⟨1, _⟩ => rfl)
  have hR : ((cfg0.win 3).blk t).view.emb j
      = ix2 (⟨t.val * 5000 + (j 0).val, by omega⟩ : Fin 500000) (⟨(j 1).val, hj1⟩ : Fin 256) :=
    funext fun a => Fin.ext (by
      match a with
      | ⟨0, _⟩ => show win0_3.index t (0 : Fin 2) * 5000 + 1 * (j 0).val = t.val * 5000 + (j 0).val; omega
      | ⟨1, _⟩ => show win0_3.index t (1 : Fin 2) * 256 + 1 * (j 1).val = (j 1).val; omega)
  rw [View.read_apply]
  show Spec.embed _ _ _ ((cfg0.win 3).xinj (grid0.coords t) j) = Spec.embed _ _ _ (((cfg0.win 3).blk t).view.emb j)
  rw [hL, hR]
  exact Spec.embed_row _ _ _ _ _ _ (fun k => iblk0_0_row V c t _ k _ rfl) _

/-- An index of the result array is in point t's block iff each coordinate is in the block's range on its axis. -/
theorem mem_blk0 (t : Fin cfg0.N) (i : S500000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v1).slice (win0_3.rect t)).set ↔ _
  rw [View.set_slice_whole, Rect.mem_set_unit]
  exact Iff.rfl

/-- The 100 row blocks fill the result array: row r lies in the block of point r / 5000. -/
theorem cover0 (i : S500000x256.Idx) :
    ∃ t : Fin cfg0.N, (cfg0.win 3).flush t = true ∧ i ∈ ((cfg0.win 3).blk t).view.set := by
  have hi0 : (i 0).val < 500000 := (i 0).isLt
  have hi1 : (i 1).val < 256 := (i 1).isLt
  obtain ⟨t, ht⟩ : ∃ t : Fin cfg0.N, t.val = (i 0).val / 5000 :=
    ⟨⟨(i 0).val / 5000, by rw [show cfg0.N = 100 from N_0]; omega⟩, rfl⟩
  obtain ⟨-, -, -, -, -, -, e6, e7⟩ := idx_embed0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- REGION 0: after the run the embedded-feature array holds `Spec.embed` of the region's three input arrays as it found them. -/
theorem final0 (c : Dev nD) :
    (dat0 (F := Ideal) V c).arrAt 3 cfg0.N = Spec.embed (V c main_arg2) (V c main_arg12) (V c main_v0) :=
  (dat0 V c).arrAt_eq_of_cover 3 (Spec.embed (V c main_arg2) (V c main_arg12) (V c main_v0))
    (fun t _ => flushed0 V c t) cover0

/-! ## REGION 1: from the row blocks to the array, for the second edge type -/

/-- The printed index maps over the 100 grid points: the feature rows and the result rows move together, block t at
    point t; the weights and the bias stay at block (0, 0). -/
theorem idx_embed1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the feature block at point t is row 5000·t + p of the feature array. -/
theorem iblk1_0_row (c : Dev nD) (t : Fin cfg1.N) (p : Fin 5000) (k : Fin 32) (r : Fin 500000)
    (hr : r.val = t.val * 5000 + p.val) :
    (iblk1 (F := Ideal) V c 0 t : Vec Ideal S5000x32 .f32) (ix2 p k)
      = (V c main_arg3 : S500000x32.Idx → Elt Ideal .f32) (ix2 r k) := by
  obtain ⟨e0, e1, -, -, -, -, -, -⟩ := idx_embed1 t
  unfold iblk1
  rw [View.read_apply]
  show V c main_arg3 _ = V c main_arg3 _
  congr 1
  funext a
  apply Fin.ext
  match a with
  | ⟨0, _⟩ => show win1_0.index t (0 : Fin 2) * 5000 + 1 * p.val = r.val; omega
  | ⟨1, _⟩ => show win1_0.index t (1 : Fin 2) * 32 + 1 * k.val = k.val; omega

/-- The weights' block at any point is the whole weight array. -/
theorem iblk1_1_eq (c : Dev nD) (t : Fin cfg1.N) :
    (iblk1 (F := Ideal) V c 1 t : Vec Ideal S32x256 .f32) = (V c main_arg14 : S32x256.Idx → Elt Ideal .f32) := by
  obtain ⟨-, -, e2, e3, -, -, -, -⟩ := idx_embed1 t
  funext j
  unfold iblk1
  rw [View.read_apply]
  show V c main_arg14 _ = V c main_arg14 _
  congr 1
  funext a
  apply Fin.ext
  match a with
  | ⟨0, _⟩ => show win1_1.index t (0 : Fin 2) * 32 + 1 * (j 0).val = (j 0).val; omega
  | ⟨1, _⟩ => show win1_1.index t (1 : Fin 2) * 256 + 1 * (j 1).val = (j 1).val; omega

/-- The bias's block at any point is the whole one-row bias. -/
theorem iblk1_2_eq (c : Dev nD) (t : Fin cfg1.N) :
    (iblk1 (F := Ideal) V c 2 t : Vec Ideal S1x256 .f32) = (V c main_v2 : S1x256.Idx → Elt Ideal .f32) := by
  obtain ⟨-, -, -, -, e4, e5, -, -⟩ := idx_embed1 t
  funext j
  unfold iblk1
  rw [View.read_apply]
  show V c main_v2 _ = V c main_v2 _
  congr 1
  funext a
  apply Fin.ext
  match a with
  | ⟨0, _⟩ => show win1_2.index t (0 : Fin 2) * 1 + 1 * (j 0).val = (j 0).val; omega
  | ⟨1, _⟩ => show win1_2.index t (1 : Fin 2) * 256 + 1 * (j 1).val = (j 1).val; omega

/-- WHAT POINT t WRITES BACK is block t of the dense layer of the three arrays: the body's result on the block is the
    layer of the block, and a row of the layer depends on that row of the features only. -/
theorem flushed1 (c : Dev nD) (t : Fin cfg1.N) :
    (dat1 (F := Ideal) V c).flushed 3 t
      = ((cfg1.win 3).blk t).view.read (Elt Ideal) (Spec.embed (V c main_arg3) (V c main_arg14) (V c main_v2)) := by
  show (cfg1.win 3).cut (grid1.coords t) ((dat1 V c).after 3 t) = _
  rw [after1_3]
  unfold out1_3
  rw [View.canon_unit_zero zero_offsets]
  simp only [View.ld_unit_zero (S := S5000x32) zero_offsets, View.ld_unit_zero (S := S32x256) zero_offsets,
    View.ld_unit_zero (S := S1x256) zero_offsets]
  rw [pay1, iblk1_1_eq, iblk1_2_eq]
  obtain ⟨-, -, -, -, -, -, e6, e7⟩ := idx_embed1 t
  have ht : t.val < 100 := lt_of_lt_of_eq t.isLt N_1
  funext j
  have hj0 : (j 0).val < 5000 := (j 0).isLt
  have hj1 : (j 1).val < 256 := (j 1).isLt
  have hL : (cfg1.win 3).xinj (grid1.coords t) j = ix2 (⟨(j 0).val, hj0⟩ : Fin 5000) (⟨(j 1).val, hj1⟩ : Fin 256) :=
    funext fun a => Fin.ext (by match a with | ⟨0, _⟩ => rfl | ⟨1, _⟩ => rfl)
  have hR : ((cfg1.win 3).blk t).view.emb j
      = ix2 (⟨t.val * 5000 + (j 0).val, by omega⟩ : Fin 500000) (⟨(j 1).val, hj1⟩ : Fin 256) :=
    funext fun a => Fin.ext (by
      match a with
      | ⟨0, _⟩ => show win1_3.index t (0 : Fin 2) * 5000 + 1 * (j 0).val = t.val * 5000 + (j 0).val; omega
      | ⟨1, _⟩ => show win1_3.index t (1 : Fin 2) * 256 + 1 * (j 1).val = (j 1).val; omega)
  rw [View.read_apply]
  show Spec.embed _ _ _ ((cfg1.win 3).xinj (grid1.coords t) j) = Spec.embed _ _ _ (((cfg1.win 3).blk t).view.emb j)
  rw [hL, hR]
  exact Spec.embed_row _ _ _ _ _ _ (fun k => iblk1_0_row V c t _ k _ rfl) _

/-- An index of the result array is in point t's block iff each coordinate is in the block's range on its axis. -/
theorem mem_blk1 (t : Fin cfg1.N) (i : S500000x256.Idx) :
    i ∈ ((cfg1.win 3).blk t).view.set ↔ ∀ a : Fin 2, win1_3.index t a * S5000x256.size a ≤ (i a).val
      ∧ (i a).val < win1_3.index t a * S5000x256.size a + S5000x256.size a := by
  show i ∈ ((View.whole main_v3).slice (win1_3.rect t)).set ↔ _
  rw [View.set_slice_whole, Rect.mem_set_unit]
  exact Iff.rfl

/-- The 100 row blocks fill the result array: row r lies in the block of point r / 5000. -/
theorem cover1 (i : S500000x256.Idx) :
    ∃ t : Fin cfg1.N, (cfg1.win 3).flush t = true ∧ i ∈ ((cfg1.win 3).blk t).view.set := by
  have hi0 : (i 0).val < 500000 := (i 0).isLt
  have hi1 : (i 1).val < 256 := (i 1).isLt
  obtain ⟨t, ht⟩ : ∃ t : Fin cfg1.N, t.val = (i 0).val / 5000 :=
    ⟨⟨(i 0).val / 5000, by rw [show cfg1.N = 100 from N_1]; omega⟩, rfl⟩
  obtain ⟨-, -, -, -, -, -, e6, e7⟩ := idx_embed1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 256 ≤ (i 1).val ∧ (i 1).val < win1_3.index t (1 : Fin 2) * 256 + 256
    omega

/-- REGION 1: the same for the second edge type. -/
theorem final1 (c : Dev nD) :
    (dat1 (F := Ideal) V c).arrAt 3 cfg1.N = Spec.embed (V c main_arg3) (V c main_arg14) (V c main_v2) :=
  (dat1 V c).arrAt_eq_of_cover 3 (Spec.embed (V c main_arg3) (V c main_arg14) (V c main_v2))
    (fun t _ => flushed1 V c t) cover1

end Cert.KernelValue

end
-- ==== Proof.KPayLayer.lean ====
import proofs.«401930_j19567871000709_3_alg».proof.Proof.Gen.KernelIdeal.Skeleton
import proofs.«401930_j19567871000709_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelValue.LayerPay

open Idealize.ShloMosaic Idealize.ShloMosaic.ValueIdx
open Cert.KernelIdeal Cert.KernelIdeal.Gen

/-! ## The product of a row block by a square matrix, at an entry -/

/-- The left operand's index at output index j and contraction position k: its row is j's row. -/
theorem lhs_ax0 (j : S2000x256.Idx) (k : dot_S2000x256_S256x256_S2000x256_1_0_0_1_n_n.contr.Idx) :
    (dot_S2000x256_S256x256_S2000x256_1_0_0_1_n_n.lhsIdx j k 0).val = (j 0).val := by
  simp [DotDims.lhsIdx, dot_S2000x256_S256x256_S2000x256_1_0_0_1_n_n]; rfl

/-- … and its column is the contraction position. -/
theorem lhs_ax1 (j : S2000x256.Idx) (k : dot_S2000x256_S256x256_S2000x256_1_0_0_1_n_n.contr.Idx) :
    (dot_S2000x256_S256x256_S2000x256_1_0_0_1_n_n.lhsIdx j k 1).val = (k ⟨0, by decide⟩).val :=
  dot_S2000x256_S256x256_S2000x256_1_0_0_1_n_n.lhsIdx_val_of_single rfl j k

/-- The right operand's index: its row is the contraction position. -/
theorem rhs_ax0 (j : S2000x256.Idx) (k : dot_S2000x256_S256x256_S2000x256_1_0_0_1_n_n.contr.Idx) :
    (dot_S2000x256_S256x256_S2000x256_1_0_0_1_n_n.rhsIdx j k 0).val = (k ⟨0, by decide⟩).val :=
  dot_S2000x256_S256x256_S2000x256_1_0_0_1_n_n.rhsIdx_val_of_single rfl j k

/-- … and its column is j's column. -/
theorem rhs_ax1 (j : S2000x256.Idx) (k : dot_S2000x256_S256x256_S2000x256_1_0_0_1_n_n.contr.Idx) :
    (dot_S2000x256_S256x256_S2000x256_1_0_0_1_n_n.rhsIdx j k 1).val = (j 1).val := by
  simp [DotDims.rhsIdx, dot_S2000x256_S256x256_S2000x256_1_0_0_1_n_n]; rfl

/-- Entry (p, q) of the product accumulated into the zero block is the plain sum over the contracted coordinate. -/
theorem matmul_at {φ₁ φ₂ : FTy} (l : FVec Ideal S2000x256 φ₁) (r : FVec Ideal S256x256 φ₂) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  show FloatOps.matmul _ none l r _ (ix2 p q) = _
  rw [Ideal.matmul_constant_zero_apply,
    ← Equiv.sum_comp (contrEquiv1 dot_S2000x256_S256x256_S2000x256_1_0_0_1_n_n 256 rfl rfl).symm]
  refine Finset.sum_congr rfl fun c _ => ?_
  have hc := contrEquiv1_symm_val dot_S2000x256_S256x256_S2000x256_1_0_0_1_n_n 256 rfl rfl c
  have hl : dot_S2000x256_S256x256_S2000x256_1_0_0_1_n_n.lhsIdx (ix2 p q)
      ((contrEquiv1 dot_S2000x256_S256x256_S2000x256_1_0_0_1_n_n 256 rfl rfl).symm c) = ix2 p c := by
    funext ax; apply Fin.ext
    match ax with
    | ⟨0, _⟩ => exact lhs_ax0 _ _
    | ⟨1, _⟩ => exact (lhs_ax1 _ _).trans hc
  have hr : dot_S2000x256_S256x256_S2000x256_1_0_0_1_n_n.rhsIdx (ix2 p q)
      ((contrEquiv1 dot_S2000x256_S256x256_S2000x256_1_0_0_1_n_n 256 rfl rfl).symm c) = ix2 c q := by
    funext ax; apply Fin.ext
    match ax with
    | ⟨0, _⟩ => exact (rhs_ax0 _ _).trans hc
    | ⟨1, _⟩ => exact rhs_ax1 _ _
  rw [hl, hr]

/-! ## The sum of a row -/

/-- The reduction over the column axis, at row p, is the sum of the row's 256 entries. -/
theorem rowsum_at (v : FVec Ideal S2000x256 .f32) (hφ : FKind.Formats .f32)
    (hacc : (0x00000000#32 : BitVec 32) = 0x00000000#32) (p : Fin 2000) :
    multiReduction (F := Ideal) .add [1] S2000 v 0x00000000#32 reduces_S2000x256_S2000 hφ hacc (ix1 p)
      = ∑ k : Fin 256, v (ix2 p k) :=
  (Ideal.multiReduction_add_single v 0x00000000#32 reduces_S2000x256_S2000 hφ hacc (ix1 p)).trans
    (Finset.sum_congr rfl fun k _ => congrArg v (funext fun ax => Fin.ext (match ax with
      | ⟨0, _⟩ => rfl
      | ⟨1, _⟩ => rfl)))

/-! ## Layout: a column of row values, and its spreading over the row -/

/-- A vector of 2000 row values cast to a 2000 × 1 column reads, at (p, u), the value of row p. -/
theorem col_cast_at {α : Type} (x : S2000.Idx → α) (h : S2000.ShapeCasts S2000x1) (p : Fin 2000) (u : Fin 1) :
    shapeCast S2000x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A 2000 × 1 column spread over 256 columns reads, at (p, q), the column's entry of row p. -/
theorem col_bcast_at {α : Type} (x : S2000x1.Idx → α) (h : S2000x1.Broadcasts S2000x256) (p : Fin 2000) (q : Fin 256) :
    broadcastTo S2000x256 x h (ix2 p q) = x (ix2 p (0 : Fin 1)) := by
  refine broadcastTo_apply x h (ix2 p q) (ix2 p (0 : Fin 1)) fun ax => ?_
  match ax with
  | ⟨0, _⟩ =>
    split
    · rename_i h1; exact absurd h1 (show ¬ (2000 : Nat) = 1 by decide)
    · rfl
  | ⟨1, _⟩ => rfl

/-- A 1 × 256 row spread over 2000 rows reads, at (p, q), the row's entry of column q. -/
theorem row_bcast_at {α : Type} (x : S1x256.Idx → α) (h : S1x256.Broadcasts S2000x256) (p : Fin 2000) (q : Fin 256) :
    broadcastTo S2000x256 x h (ix2 p q) = x (ix2 (0 : Fin 1) q) :=
  broadcastTo_1b_ab_apply x h p q

/-! ## The body as two blocks: the pre-normalisation block, and the normalisation of a block -/

/-- The pre-normalisation block: the two products (operands narrowed, which is the identity on the extended reals),
    the bias row spread over the rows, and the edge-bias block, added in this order. -/
def preBlock (h agg add : FVec Ideal S2000x256 .f32) (wt wb : FVec Ideal S256x256 .f32) (b : FVec Ideal S1x256 .f32) :
    FVec Ideal S2000x256 .f32 :=
  addf (addf (addf
    (matmul dot_S2000x256_S256x256_S2000x256_1_0_0_1_n_n none (truncf .bf16 h bitsLt_bf16_f32) (truncf .bf16 wt bitsLt_bf16_f32)
      (constant S2000x256 .f32 0x00000000#32))
    (matmul dot_S2000x256_S256x256_S2000x256_1_0_0_1_n_n none (truncf .bf16 agg bitsLt_bf16_f32) (truncf .bf16 wb bitsLt_bf16_f32)
      (constant S2000x256 .f32 0x00000000#32)))
    (broadcastTo S2000x256 b broadcasts_S1x256_S2000x256)) add

/-- The column of row means of a block: each row's sum over the float 256. -/
def meanCol (y : FVec Ideal S2000x256 .f32) : FVec Ideal S2000x1 .f32 :=
  divf (shapeCast S2000x1 (multiReduction .add [1] S2000 y 0x00000000#32 reduces_S2000x256_S2000 (.inl rfl) rfl) shapeCasts_S2000_S2000x1)
    (broadcast S2000x1 (Scalar.ofBits .f32 0x43800000#32))

/-- The block of deviations from the row mean. -/
def devBlock (y : FVec Ideal S2000x256 .f32) : FVec Ideal S2000x256 .f32 :=
  subf y (broadcastTo S2000x256 (meanCol y) broadcasts_S2000x1_S2000x256)

/-- The column of row variances: each row's sum of squared deviations over the float 256. -/
def varCol (y : FVec Ideal S2000x256 .f32) : FVec Ideal S2000x1 .f32 :=
  divf (shapeCast S2000x1 (multiReduction .add [1] S2000 (mulf (devBlock y) (devBlock y)) 0x00000000#32 reduces_S2000x256_S2000 (.inl rfl) rfl)
      shapeCasts_S2000_S2000x1)
    (broadcast S2000x1 (Scalar.ofBits .f32 0x43800000#32))

/-- The normalised block: deviation times the reciprocal root of the offset variance. -/
def normBlock (y : FVec Ideal S2000x256 .f32) : FVec Ideal S2000x256 .f32 :=
  mulf (devBlock y)
    (broadcastTo S2000x256 (rsqrt (addf (varCol y) (broadcast S2000x1 (Scalar.ofBits .f32 0x3727C5AC#32)))) broadcasts_S2000x1_S2000x256)

/-- Scale and shift: the normalised block times the scale row plus the shift row, both spread over the rows. -/
def affBlock (z : FVec Ideal S2000x256 .f32) (g beta : FVec Ideal S1x256 .f32) : FVec Ideal S2000x256 .f32 :=
  addf (mulf z (broadcastTo S2000x256 g broadcasts_S1x256_S2000x256)) (broadcastTo S2000x256 beta broadcasts_S1x256_S2000x256)

/-- Entry (p, q) of the pre-normalisation block is the specification's entry q of row p. -/
theorem preBlock_at (h agg add : FVec Ideal S2000x256 .f32) (wt wb : FVec Ideal S256x256 .f32) (b : FVec Ideal S1x256 .f32)
    (p : Fin 2000) (q : Fin 256) :
    preBlock h agg add wt wb b (ix2 p q) = Spec.preRow h agg add wt wb b p q := by
  unfold preBlock
  rw [addf_apply, addf_apply, addf_apply, matmul_at, matmul_at, row_bcast_at]
  rfl

/-- The mean column at row p is the specification's mean of that row. -/
theorem meanCol_at (y : FVec Ideal S2000x256 .f32) (p : Fin 2000) (u : Fin 1) :
    meanCol y (ix2 p u) = Spec.mean fun k => y (ix2 p k) := by
  unfold meanCol
  rw [divf_apply, col_cast_at, rowsum_at, broadcast_apply]
  rfl

/-- The deviation at (p, q). -/
theorem devBlock_at (y : FVec Ideal S2000x256 .f32) (p : Fin 2000) (q : Fin 256) :
    devBlock y (ix2 p q) = y (ix2 p q) - Spec.mean fun k => y (ix2 p k) := by
  unfold devBlock
  rw [subf_apply, col_bcast_at, meanCol_at]

/-- The variance column at row p is the specification's variance of that row. -/
theorem varCol_at (y : FVec Ideal S2000x256 .f32) (p : Fin 2000) (u : Fin 1) :
    varCol y (ix2 p u) = Spec.var fun k => y (ix2 p k) := by
  unfold varCol
  rw [divf_apply, col_cast_at, rowsum_at, broadcast_apply]
  unfold Spec.var
  refine congrArg (fun s => Ideal.div s _) (Finset.sum_congr rfl fun k _ => ?_)
  rw [mulf_apply, devBlock_at]

/-- The normalised block at (p, q). -/
theorem normBlock_at (y : FVec Ideal S2000x256 .f32) (p : Fin 2000) (q : Fin 256) :
    normBlock y (ix2 p q)
      = (y (ix2 p q) - Spec.mean fun k => y (ix2 p k)) * Ideal.rsqrt ((Spec.var fun k => y (ix2 p k)) + Spec.ceps) := by
  unfold normBlock
  rw [mulf_apply, devBlock_at, col_bcast_at]
  show _ * Ideal.rsqrt (addf (varCol y) _ (ix2 p (0 : Fin 1))) = _
  rw [addf_apply, varCol_at, broadcast_apply]
  rfl

/-- Scale and shift at (p, q). -/
theorem affBlock_at (z : FVec Ideal S2000x256 .f32) (g beta : FVec Ideal S1x256 .f32) (p : Fin 2000) (q : Fin 256) :
    affBlock z g beta (ix2 p q) = z (ix2 p q) * g (ix2 (0 : Fin 1) q) + beta (ix2 (0 : Fin 1) q) := by
  unfold affBlock
  rw [addf_apply, mulf_apply, row_bcast_at, row_bcast_at]

/-- The whole body, as blocks, is the specification's layer. -/
theorem blocks_eq_layer (x0 x1 x2 : FVec Ideal S2000x256 .f32) (x3 x4 : FVec Ideal S256x256 .f32) (x5 x6 x7 : FVec Ideal S1x256 .f32) :
    affBlock (normBlock (preBlock x0 x1 x2 x3 x4 x5)) x6 x7 = Spec.layer x0 x1 x2 x3 x4 x5 x6 x7 := by
  funext j
  obtain ⟨p, q, rfl⟩ : ∃ (p : Fin 2000) (q : Fin 256), j = ix2 p q := ⟨j 0, j 1, eq_ix2 j⟩
  rw [affBlock_at, normBlock_at]
  have hrow : (fun k => preBlock x0 x1 x2 x3 x4 x5 (ix2 p k)) = Spec.preRow x0 x1 x2 x3 x4 x5 p :=
    funext fun k => preBlock_at x0 x1 x2 x3 x4 x5 p k
  rw [hrow, preBlock_at]
  rfl

end Cert.KernelValue.LayerPay

namespace Cert.KernelValue

open Idealize.ShloMosaic Idealize.ShloMosaic.ValueIdx
open Cert.KernelIdeal Cert.KernelIdeal.Gen

/-- The linear + layer-norm body of region 2, as one pure term of its eight loaded blocks, is `Spec.layer` of them. -/
theorem pay2 (x0 x1 x2 : Vec Ideal S2000x256 .f32) (x3 x4 : Vec Ideal S256x256 .f32) (x5 x6 x7 : Vec Ideal S1x256 .f32) :
    k2_pay1 (F := Ideal) (k2_pay2 x0 x1 x3 x4 x5 x2) x6 x7 = Spec.layer x0 x1 x2 x3 x4 x5 x6 x7 := by
  refine Eq.trans ?_ (LayerPay.blocks_eq_layer x0 x1 x2 x3 x4 x5 x6 x7)
  unfold k2_pay1 k2_pay2
  simp only [shapeCast_self]
  rfl

/-- Region 3's body is the same term. -/
theorem pay3 (x0 x1 x2 : Vec Ideal S2000x256 .f32) (x3 x4 : Vec Ideal S256x256 .f32) (x5 x6 x7 : Vec Ideal S1x256 .f32) :
    k3_pay1 (F := Ideal) (k3_pay2 x0 x1 x3 x4 x5 x2) x6 x7 = Spec.layer x0 x1 x2 x3 x4 x5 x6 x7 := by
  refine Eq.trans ?_ (LayerPay.blocks_eq_layer x0 x1 x2 x3 x4 x5 x6 x7)
  unfold k3_pay1 k3_pay2
  simp only [shapeCast_self]
  rfl

/-- Region 4's body (it differs from region 2's by one identity shape cast of the first block). -/
theorem pay4 (x0 x1 x2 : Vec Ideal S2000x256 .f32) (x3 x4 : Vec Ideal S256x256 .f32) (x5 x6 x7 : Vec Ideal S1x256 .f32) :
    k4_pay1 (F := Ideal) (k4_pay2 x0 x1 x3 x4 x5 x2) x6 x7 = Spec.layer x0 x1 x2 x3 x4 x5 x6 x7 := by
  refine Eq.trans ?_ (LayerPay.blocks_eq_layer x0 x1 x2 x3 x4 x5 x6 x7)
  unfold k4_pay1 k4_pay2
  simp only [shapeCast_self]
  rfl

/-- Region 5's body. -/
theorem pay5 (x0 x1 x2 : Vec Ideal S2000x256 .f32) (x3 x4 : Vec Ideal S256x256 .f32) (x5 x6 x7 : Vec Ideal S1x256 .f32) :
    k5_pay1 (F := Ideal) (k5_pay2 x0 x1 x3 x4 x5 x2) x6 x7 = Spec.layer x0 x1 x2 x3 x4 x5 x6 x7 := by
  refine Eq.trans ?_ (LayerPay.blocks_eq_layer x0 x1 x2 x3 x4 x5 x6 x7)
  unfold k5_pay1 k5_pay2
  simp only [shapeCast_self]
  rfl

end Cert.KernelValue

end
-- ==== Proof.KLayer.lean ====
import proofs.«401930_j19567871000709_3_alg».proof.Proof.Gen.KernelIdeal.Frame
import proofs.«401930_j19567871000709_3_alg».proof.Proof.Spec
import proofs.«401930_j19567871000709_3_alg».proof.Proof.KPayLayer
set_option maxRecDepth 16384

/-!
  From the 25 row blocks to the whole array, for the four linear + layer-norm regions.

  Each region runs over 25 grid points. Point t reads rows 2000·t … 2000·t + 1999 of the three row-indexed operands
  (node states, aggregated neighbour states, edge bias), the whole of the two weight matrices and of the one-row bias,
  scale and shift, and writes rows 2000·t … 2000·t + 1999 of the result. A row of `Spec.layer` is a function of the
  same row of the three row-indexed operands (`Spec.layer_row`), so what point t writes is block t of `Spec.layer` of
  the eight arrays; the 25 blocks tile the 50000 rows (row n is in block n / 2000), so the array ends as that function.
  The four regions have the same window geometry; each is treated by the same four steps: the block indices, the
  input blocks as rows of their arrays, the written block, the cover.
-/

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer access, as a function. -/
theorem hzL : (![0, 0] : Fin 2 → Nat) = fun _ => 0 := funext fun a => by fin_cases a <;> rfl

/-! ## Region 2 -/

/-- The printed index maps of region 2, decided over its 25 grid points: the three row windows and the output window
    have block index (t, 0) at point t, the two weight windows and the three one-row windows have block index (0, 0). -/
theorem idxL2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- The weight, bias, scale and shift windows of region 2 hold their whole arrays at every point: block index (0, 0)
    and a block as large as the array, so entry y of the block is entry y of the array. -/
theorem wholeL2 (c : Dev nD) (t : Fin cfg2.N) :
    iblk2 V c 3 t = V c main_v74 ∧ iblk2 V c 4 t = V c main_v75 ∧ iblk2 V c 5 t = V c main_v76
      ∧ iblk2 V c 6 t = V c main_v77 ∧ iblk2 V c 7 t = V c main_v78 := by
  obtain ⟨e00, e01, e10, e11, e20, e21, e30, e31, e40, e41, e50, e51, e60, e61, e70, e71, e80, e81⟩ := idxL2 t
  refine ⟨funext fun y => ?_, funext fun y => ?_, funext fun y => ?_, funext fun y => ?_, funext fun y => ?_⟩
  · show V c main_v74 (((cfg2.win 3).blk t).view.emb y) = V c main_v74 y
    congr 1; funext a; apply Fin.ext
    match a with
    | ⟨0, _⟩ => show win2_3.index t (0 : Fin 2) * 256 + 1 * (y 0).val = (y 0).val; omega
    | ⟨1, _⟩ => show win2_3.index t (1 : Fin 2) * 256 + 1 * (y 1).val = (y 1).val; omega
  · show V c main_v75 (((cfg2.win 4).blk t).view.emb y) = V c main_v75 y
    congr 1; funext a; apply Fin.ext
    match a with
    | ⟨0, _⟩ => show win2_4.index t (0 : Fin 2) * 256 + 1 * (y 0).val = (y 0).val; omega
    | ⟨1, _⟩ => show win2_4.index t (1 : Fin 2) * 256 + 1 * (y 1).val = (y 1).val; omega
  · show V c main_v76 (((cfg2.win 5).blk t).view.emb y) = V c main_v76 y
    congr 1; funext a; apply Fin.ext
    match a with
    | ⟨0, _⟩ => show win2_5.index t (0 : Fin 2) * 1 + 1 * (y 0).val = (y 0).val; omega
    | ⟨1, _⟩ => show win2_5.index t (1 : Fin 2) * 256 + 1 * (y 1).val = (y 1).val; omega
  · show V c main_v77 (((cfg2.win 6).blk t).view.emb y) = V c main_v77 y
    congr 1; funext a; apply Fin.ext
    match a with
    | ⟨0, _⟩ => show win2_6.index t (0 : Fin 2) * 1 + 1 * (y 0).val = (y 0).val; omega
    | ⟨1, _⟩ => show win2_6.index t (1 : Fin 2) * 256 + 1 * (y 1).val = (y 1).val; omega
  · show V c main_v78 (((cfg2.win 7).blk t).view.emb y) = V c main_v78 y
    congr 1; funext a; apply Fin.ext
    match a with
    | ⟨0, _⟩ => show win2_7.index t (0 : Fin 2) * 1 + 1 * (y 0).val = (y 0).val; omega
    | ⟨1, _⟩ => show win2_7.index t (1 : Fin 2) * 256 + 1 * (y 1).val = (y 1).val; omega

/-- Row p of a row window's block at point t of region 2 is row 2000·t + p of the window's array: the block index is
    (t, 0) and a block has 2000 rows and all 256 columns. -/
theorem rowsL2 (c : Dev nD) (t : Fin cfg2.N) (p : Fin 2000) (r : Fin 50000) (hr : r.val = t.val * 2000 + p.val) (k : Fin 256) :
    (iblk2 V c 0 t : Vec Ideal S2000x256 .f32) (ix2 p k) = (V c main_arg1 : S50000x256.Idx → EReal) (ix2 r k)
      ∧ (iblk2 V c 1 t : Vec Ideal S2000x256 .f32) (ix2 p k) = (V c main_v51 : S50000x256.Idx → EReal) (ix2 r k)
      ∧ (iblk2 V c 2 t : Vec Ideal S2000x256 .f32) (ix2 p k) = (V c main_v16 : S50000x256.Idx → EReal) (ix2 r k) := by
  obtain ⟨e00, e01, e10, e11, e20, e21, e30, e31, e40, e41, e50, e51, e60, e61, e70, e71, e80, e81⟩ := idxL2 t
  refine ⟨?_, ?_, ?_⟩
  · show V c main_arg1 (((cfg2.win 0).blk t).view.emb (ix2 p k)) = V c main_arg1 (ix2 r k)
    congr 1; funext a; apply Fin.ext
    match a with
    | ⟨0, _⟩ => show win2_0.index t (0 : Fin 2) * 2000 + 1 * p.val = r.val; omega
    | ⟨1, _⟩ => show win2_0.index t (1 : Fin 2) * 256 + 1 * k.val = k.val; omega
  · show V c main_v51 (((cfg2.win 1).blk t).view.emb (ix2 p k)) = V c main_v51 (ix2 r k)
    congr 1; funext a; apply Fin.ext
    match a with
    | ⟨0, _⟩ => show win2_1.index t (0 : Fin 2) * 2000 + 1 * p.val = r.val; omega
    | ⟨1, _⟩ => show win2_1.index t (1 : Fin 2) * 256 + 1 * k.val = k.val; omega
  · show V c main_v16 (((cfg2.win 2).blk t).view.emb (ix2 p k)) = V c main_v16 (ix2 r k)
    congr 1; funext a; apply Fin.ext
    match a with
    | ⟨0, _⟩ => show win2_2.index t (0 : Fin 2) * 2000 + 1 * p.val = r.val; omega
    | ⟨1, _⟩ => show win2_2.index t (1 : Fin 2) * 256 + 1 * k.val = k.val; omega

/-- Entry (p, q) of the output block at point t of region 2 is entry (2000·t + p, q) of the output array. -/
theorem outL2 (t : Fin cfg2.N) (p : Fin 2000) (r : Fin 50000) (hr : r.val = t.val * 2000 + p.val) (q : Fin 256) :
    ((cfg2.win 8).blk t).view.emb (ix2 p q) = (ix2 r q : S50000x256.Idx) := by
  obtain ⟨e00, e01, e10, e11, e20, e21, e30, e31, e40, e41, e50, e51, e60, e61, e70, e71, e80, e81⟩ := idxL2 t
  funext a; apply Fin.ext
  match a with
  | ⟨0, _⟩ => show win2_8.index t (0 : Fin 2) * 2000 + 1 * p.val = r.val; omega
  | ⟨1, _⟩ => show win2_8.index t (1 : Fin 2) * 256 + 1 * q.val = q.val; omega

/-- WHAT POINT t OF REGION 2 WRITES BACK is block t of `Spec.layer` of the eight arrays the region reads: the body's
    term is the layer of its loaded blocks, the five whole windows are the arrays themselves, and a row of the layer
    needs the same row of the three row-indexed operands only, which the row windows' blocks hold. -/
theorem flushedL2 (c : Dev nD) (t : Fin cfg2.N) :
    (dat2 (F := Ideal) V c).flushed 8 t = ((cfg2.win 8).blk t).view.read (Elt Ideal)
      (Spec.layer (V c main_arg1) (V c main_v51) (V c main_v16) (V c main_v74) (V c main_v75) (V c main_v76) (V c main_v77) (V c main_v78)) := by
  show (cfg2.win 8).cut (grid2.coords t) ((dat2 V c).after 8 t) = _
  rw [after2_8]
  unfold out2_8
  rw [View.canon_unit_zero hzL]
  simp only [View.ld_unit_zero (S := S2000x256) hzL, View.ld_unit_zero (S := S256x256) hzL, View.ld_unit_zero (S := S1x256) hzL]
  rw [pay2]
  obtain ⟨w3, w4, w5, w6, w7⟩ := wholeL2 V c t
  rw [w3, w4, w5, w6, w7]
  funext j
  obtain ⟨p, q, rfl⟩ : ∃ (p : Fin 2000) (q : Fin 256), j = ix2 p q := ⟨j 0, j 1, eq_ix2 j⟩
  have ht : t.val < 25 := lt_of_lt_of_eq t.isLt N_2
  have hr : t.val * 2000 + p.val < 50000 := by have := p.isLt; omega
  show Spec.layer (iblk2 V c 0 t) (iblk2 V c 1 t) (iblk2 V c 2 t) (V c main_v74) (V c main_v75) (V c main_v76) (V c main_v77) (V c main_v78) (ix2 p q)
    = Spec.layer (V c main_arg1) (V c main_v51) (V c main_v16) (V c main_v74) (V c main_v75) (V c main_v76) (V c main_v77) (V c main_v78) (((cfg2.win 8).blk t).view.emb (ix2 p q))
  rw [outL2 t p ⟨t.val * 2000 + p.val, hr⟩ rfl q]
  exact Spec.layer_row _ _ _ _ _ _ _ _ _ _ _ p ⟨t.val * 2000 + p.val, hr⟩
    (fun k => (rowsL2 V c t p _ rfl k).1) (fun k => (rowsL2 V c t p _ rfl k).2.1) (fun k => (rowsL2 V c t p _ rfl k).2.2) q

/-- An index of the output array is in point t's block iff each coordinate is in the block's range on its axis. -/
theorem mem_blkL2 (t : Fin cfg2.N) (i : S50000x256.Idx) :
    i ∈ ((cfg2.win 8).blk t).view.set ↔ ∀ a : Fin 2, win2_8.index t a * S2000x256.size a ≤ (i a).val ∧ (i a).val < win2_8.index t a * S2000x256.size a + S2000x256.size a := by
  show i ∈ ((View.whole main_v79).slice (win2_8.rect t)).set ↔ _
  rw [View.set_slice_whole, Rect.mem_set_unit]
  exact Iff.rfl

/-- The 25 output blocks of region 2 tile the output array: row n lies in the block of point n / 2000. -/
theorem coverL2 (i : S50000x256.Idx) :
    ∃ t : Fin cfg2.N, (cfg2.win 8).flush t = true ∧ i ∈ ((cfg2.win 8).blk t).view.set := by
  have hi0 : (i 0).val < 50000 := (i 0).isLt
  have hi1 : (i 1).val < 256 := (i 1).isLt
  have hN : (i 0).val / 2000 < cfg2.N := lt_of_lt_of_eq (by omega : (i 0).val / 2000 < 25) N_2.symm
  obtain ⟨e00, e01, e10, e11, e20, e21, e30, e31, e40, e41, e50, e51, e60, e61, e70, e71, e80, e81⟩ := idxL2 ⟨(i 0).val / 2000, hN⟩
  refine ⟨⟨(i 0).val / 2000, hN⟩, flush2_8 _, ?_⟩
  rw [mem_blkL2]
  intro a
  match a with
  | ⟨0, _⟩ =>
    show win2_8.index ⟨(i 0).val / 2000, hN⟩ (0 : Fin 2) * 2000 ≤ (i 0).val ∧ (i 0).val < win2_8.index ⟨(i 0).val / 2000, hN⟩ (0 : Fin 2) * 2000 + 2000
    rw [e80]; show (i 0).val / 2000 * 2000 ≤ (i 0).val ∧ (i 0).val < (i 0).val / 2000 * 2000 + 2000; omega
  | ⟨1, _⟩ =>
    show win2_8.index ⟨(i 0).val / 2000, hN⟩ (1 : Fin 2) * 256 ≤ (i 1).val ∧ (i 1).val < win2_8.index ⟨(i 0).val / 2000, hN⟩ (1 : Fin 2) * 256 + 256
    rw [e81]; omega

/-- REGION 2 (layer 0, items): the output array is `Spec.layer` of the region's eight input arrays as it found them. -/
theorem final2 (c : Dev nD) :
    (dat2 (F := Ideal) V c).arrAt 8 cfg2.N
      = Spec.layer (V c main_arg1) (V c main_v51) (V c main_v16) (V c main_v74) (V c main_v75) (V c main_v76) (V c main_v77) (V c main_v78) :=
  (dat2 (F := Ideal) V c).arrAt_eq_of_cover 8 _ (fun t _ => flushedL2 V c t) coverL2

/-! ## Region 3 -/

/-- The printed index maps of region 3, decided over its 25 grid points: the three row windows and the output window
    have block index (t, 0) at point t, the two weight windows and the three one-row windows have block index (0, 0). -/
theorem idxL3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- The weight, bias, scale and shift windows of region 3 hold their whole arrays at every point: block index (0, 0)
    and a block as large as the array, so entry y of the block is entry y of the array. -/
theorem wholeL3 (c : Dev nD) (t : Fin cfg3.N) :
    iblk3 V c 3 t = V c main_v80 ∧ iblk3 V c 4 t = V c main_v81 ∧ iblk3 V c 5 t = V c main_v82
      ∧ iblk3 V c 6 t = V c main_v83 ∧ iblk3 V c 7 t = V c main_v84 := by
  obtain ⟨e00, e01, e10, e11, e20, e21, e30, e31, e40, e41, e50, e51, e60, e61, e70, e71, e80, e81⟩ := idxL3 t
  refine ⟨funext fun y => ?_, funext fun y => ?_, funext fun y => ?_, funext fun y => ?_, funext fun y => ?_⟩
  · show V c main_v80 (((cfg3.win 3).blk t).view.emb y) = V c main_v80 y
    congr 1; funext a; apply Fin.ext
    match a with
    | ⟨0, _⟩ => show win3_3.index t (0 : Fin 2) * 256 + 1 * (y 0).val = (y 0).val; omega
    | ⟨1, _⟩ => show win3_3.index t (1 : Fin 2) * 256 + 1 * (y 1).val = (y 1).val; omega
  · show V c main_v81 (((cfg3.win 4).blk t).view.emb y) = V c main_v81 y
    congr 1; funext a; apply Fin.ext
    match a with
    | ⟨0, _⟩ => show win3_4.index t (0 : Fin 2) * 256 + 1 * (y 0).val = (y 0).val; omega
    | ⟨1, _⟩ => show win3_4.index t (1 : Fin 2) * 256 + 1 * (y 1).val = (y 1).val; omega
  · show V c main_v82 (((cfg3.win 5).blk t).view.emb y) = V c main_v82 y
    congr 1; funext a; apply Fin.ext
    match a with
    | ⟨0, _⟩ => show win3_5.index t (0 : Fin 2) * 1 + 1 * (y 0).val = (y 0).val; omega
    | ⟨1, _⟩ => show win3_5.index t (1 : Fin 2) * 256 + 1 * (y 1).val = (y 1).val; omega
  · show V c main_v83 (((cfg3.win 6).blk t).view.emb y) = V c main_v83 y
    congr 1; funext a; apply Fin.ext
    match a with
    | ⟨0, _⟩ => show win3_6.index t (0 : Fin 2) * 1 + 1 * (y 0).val = (y 0).val; omega
    | ⟨1, _⟩ => show win3_6.index t (1 : Fin 2) * 256 + 1 * (y 1).val = (y 1).val; omega
  · show V c main_v84 (((cfg3.win 7).blk t).view.emb y) = V c main_v84 y
    congr 1; funext a; apply Fin.ext
    match a with
    | ⟨0, _⟩ => show win3_7.index t (0 : Fin 2) * 1 + 1 * (y 0).val = (y 0).val; omega
    | ⟨1, _⟩ => show win3_7.index t (1 : Fin 2) * 256 + 1 * (y 1).val = (y 1).val; omega

/-- Row p of a row window's block at point t of region 3 is row 2000·t + p of the window's array: the block index is
    (t, 0) and a block has 2000 rows and all 256 columns. -/
theorem rowsL3 (c : Dev nD) (t : Fin cfg3.N) (p : Fin 2000) (r : Fin 50000) (hr : r.val = t.val * 2000 + p.val) (k : Fin 256) :
    (iblk3 V c 0 t : Vec Ideal S2000x256 .f32) (ix2 p k) = (V c main_arg0 : S50000x256.Idx → EReal) (ix2 r k)
      ∧ (iblk3 V c 1 t : Vec Ideal S2000x256 .f32) (ix2 p k) = (V c main_v73 : S50000x256.Idx → EReal) (ix2 r k)
      ∧ (iblk3 V c 2 t : Vec Ideal S2000x256 .f32) (ix2 p k) = (V c main_v29 : S50000x256.Idx → EReal) (ix2 r k) := by
  obtain ⟨e00, e01, e10, e11, e20, e21, e30, e31, e40, e41, e50, e51, e60, e61, e70, e71, e80, e81⟩ := idxL3 t
  refine ⟨?_, ?_, ?_⟩
  · show V c main_arg0 (((cfg3.win 0).blk t).view.emb (ix2 p k)) = V c main_arg0 (ix2 r k)
    congr 1; funext a; apply Fin.ext
    match a with
    | ⟨0, _⟩ => show win3_0.index t (0 : Fin 2) * 2000 + 1 * p.val = r.val; omega
    | ⟨1, _⟩ => show win3_0.index t (1 : Fin 2) * 256 + 1 * k.val = k.val; omega
  · show V c main_v73 (((cfg3.win 1).blk t).view.emb (ix2 p k)) = V c main_v73 (ix2 r k)
    congr 1; funext a; apply Fin.ext
    match a with
    | ⟨0, _⟩ => show win3_1.index t (0 : Fin 2) * 2000 + 1 * p.val = r.val; omega
    | ⟨1, _⟩ => show win3_1.index t (1 : Fin 2) * 256 + 1 * k.val = k.val; omega
  · show V c main_v29 (((cfg3.win 2).blk t).view.emb (ix2 p k)) = V c main_v29 (ix2 r k)
    congr 1; funext a; apply Fin.ext
    match a with
    | ⟨0, _⟩ => show win3_2.index t (0 : Fin 2) * 2000 + 1 * p.val = r.val; omega
    | ⟨1, _⟩ => show win3_2.index t (1 : Fin 2) * 256 + 1 * k.val = k.val; omega

/-- Entry (p, q) of the output block at point t of region 3 is entry (2000·t + p, q) of the output array. -/
theorem outL3 (t : Fin cfg3.N) (p : Fin 2000) (r : Fin 50000) (hr : r.val = t.val * 2000 + p.val) (q : Fin 256) :
    ((cfg3.win 8).blk t).view.emb (ix2 p q) = (ix2 r q : S50000x256.Idx) := by
  obtain ⟨e00, e01, e10, e11, e20, e21, e30, e31, e40, e41, e50, e51, e60, e61, e70, e71, e80, e81⟩ := idxL3 t
  funext a; apply Fin.ext
  match a with
  | ⟨0, _⟩ => show win3_8.index t (0 : Fin 2) * 2000 + 1 * p.val = r.val; omega
  | ⟨1, _⟩ => show win3_8.index t (1 : Fin 2) * 256 + 1 * q.val = q.val; omega

/-- WHAT POINT t OF REGION 3 WRITES BACK is block t of `Spec.layer` of the eight arrays the region reads: the body's
    term is the layer of its loaded blocks, the five whole windows are the arrays themselves, and a row of the layer
    needs the same row of the three row-indexed operands only, which the row windows' blocks hold. -/
theorem flushedL3 (c : Dev nD) (t : Fin cfg3.N) :
    (dat3 (F := Ideal) V c).flushed 8 t = ((cfg3.win 8).blk t).view.read (Elt Ideal)
      (Spec.layer (V c main_arg0) (V c main_v73) (V c main_v29) (V c main_v80) (V c main_v81) (V c main_v82) (V c main_v83) (V c main_v84)) := by
  show (cfg3.win 8).cut (grid3.coords t) ((dat3 V c).after 8 t) = _
  rw [after3_8]
  unfold out3_8
  rw [View.canon_unit_zero hzL]
  simp only [View.ld_unit_zero (S := S2000x256) hzL, View.ld_unit_zero (S := S256x256) hzL, View.ld_unit_zero (S := S1x256) hzL]
  rw [pay3]
  obtain ⟨w3, w4, w5, w6, w7⟩ := wholeL3 V c t
  rw [w3, w4, w5, w6, w7]
  funext j
  obtain ⟨p, q, rfl⟩ : ∃ (p : Fin 2000) (q : Fin 256), j = ix2 p q := ⟨j 0, j 1, eq_ix2 j⟩
  have ht : t.val < 25 := lt_of_lt_of_eq t.isLt N_3
  have hr : t.val * 2000 + p.val < 50000 := by have := p.isLt; omega
  show Spec.layer (iblk3 V c 0 t) (iblk3 V c 1 t) (iblk3 V c 2 t) (V c main_v80) (V c main_v81) (V c main_v82) (V c main_v83) (V c main_v84) (ix2 p q)
    = Spec.layer (V c main_arg0) (V c main_v73) (V c main_v29) (V c main_v80) (V c main_v81) (V c main_v82) (V c main_v83) (V c main_v84) (((cfg3.win 8).blk t).view.emb (ix2 p q))
  rw [outL3 t p ⟨t.val * 2000 + p.val, hr⟩ rfl q]
  exact Spec.layer_row _ _ _ _ _ _ _ _ _ _ _ p ⟨t.val * 2000 + p.val, hr⟩
    (fun k => (rowsL3 V c t p _ rfl k).1) (fun k => (rowsL3 V c t p _ rfl k).2.1) (fun k => (rowsL3 V c t p _ rfl k).2.2) q

/-- An index of the output array is in point t's block iff each coordinate is in the block's range on its axis. -/
theorem mem_blkL3 (t : Fin cfg3.N) (i : S50000x256.Idx) :
    i ∈ ((cfg3.win 8).blk t).view.set ↔ ∀ a : Fin 2, win3_8.index t a * S2000x256.size a ≤ (i a).val ∧ (i a).val < win3_8.index t a * S2000x256.size a + S2000x256.size a := by
  show i ∈ ((View.whole main_v85).slice (win3_8.rect t)).set ↔ _
  rw [View.set_slice_whole, Rect.mem_set_unit]
  exact Iff.rfl

/-- The 25 output blocks of region 3 tile the output array: row n lies in the block of point n / 2000. -/
theorem coverL3 (i : S50000x256.Idx) :
    ∃ t : Fin cfg3.N, (cfg3.win 8).flush t = true ∧ i ∈ ((cfg3.win 8).blk t).view.set := by
  have hi0 : (i 0).val < 50000 := (i 0).isLt
  have hi1 : (i 1).val < 256 := (i 1).isLt
  have hN : (i 0).val / 2000 < cfg3.N := lt_of_lt_of_eq (by omega : (i 0).val / 2000 < 25) N_3.symm
  obtain ⟨e00, e01, e10, e11, e20, e21, e30, e31, e40, e41, e50, e51, e60, e61, e70, e71, e80, e81⟩ := idxL3 ⟨(i 0).val / 2000, hN⟩
  refine ⟨⟨(i 0).val / 2000, hN⟩, flush3_8 _, ?_⟩
  rw [mem_blkL3]
  intro a
  match a with
  | ⟨0, _⟩ =>
    show win3_8.index ⟨(i 0).val / 2000, hN⟩ (0 : Fin 2) * 2000 ≤ (i 0).val ∧ (i 0).val < win3_8.index ⟨(i 0).val / 2000, hN⟩ (0 : Fin 2) * 2000 + 2000
    rw [e80]; show (i 0).val / 2000 * 2000 ≤ (i 0).val ∧ (i 0).val < (i 0).val / 2000 * 2000 + 2000; omega
  | ⟨1, _⟩ =>
    show win3_8.index ⟨(i 0).val / 2000, hN⟩ (1 : Fin 2) * 256 ≤ (i 1).val ∧ (i 1).val < win3_8.index ⟨(i 0).val / 2000, hN⟩ (1 : Fin 2) * 256 + 256
    rw [e81]; omega

/-- REGION 3 (layer 0, users). -/
theorem final3 (c : Dev nD) :
    (dat3 (F := Ideal) V c).arrAt 8 cfg3.N
      = Spec.layer (V c main_arg0) (V c main_v73) (V c main_v29) (V c main_v80) (V c main_v81) (V c main_v82) (V c main_v83) (V c main_v84) :=
  (dat3 (F := Ideal) V c).arrAt_eq_of_cover 8 _ (fun t _ => flushedL3 V c t) coverL3

/-! ## Region 4 -/

/-- The printed index maps of region 4, decided over its 25 grid points: the three row windows and the output window
    have block index (t, 0) at point t, the two weight windows and the three one-row windows have block index (0, 0). -/
theorem idxL4 : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0 :=
  (by decide +kernel : ∀ t : Fin grid4.N, _)

/-- The weight, bias, scale and shift windows of region 4 hold their whole arrays at every point: block index (0, 0)
    and a block as large as the array, so entry y of the block is entry y of the array. -/
theorem wholeL4 (c : Dev nD) (t : Fin cfg4.N) :
    iblk4 V c 3 t = V c main_v130 ∧ iblk4 V c 4 t = V c main_v131 ∧ iblk4 V c 5 t = V c main_v132
      ∧ iblk4 V c 6 t = V c main_v133 ∧ iblk4 V c 7 t = V c main_v134 := by
  obtain ⟨e00, e01, e10, e11, e20, e21, e30, e31, e40, e41, e50, e51, e60, e61, e70, e71, e80, e81⟩ := idxL4 t
  refine ⟨funext fun y => ?_, funext fun y => ?_, funext fun y => ?_, funext fun y => ?_, funext fun y => ?_⟩
  · show V c main_v130 (((cfg4.win 3).blk t).view.emb y) = V c main_v130 y
    congr 1; funext a; apply Fin.ext
    match a with
    | ⟨0, _⟩ => show win4_3.index t (0 : Fin 2) * 256 + 1 * (y 0).val = (y 0).val; omega
    | ⟨1, _⟩ => show win4_3.index t (1 : Fin 2) * 256 + 1 * (y 1).val = (y 1).val; omega
  · show V c main_v131 (((cfg4.win 4).blk t).view.emb y) = V c main_v131 y
    congr 1; funext a; apply Fin.ext
    match a with
    | ⟨0, _⟩ => show win4_4.index t (0 : Fin 2) * 256 + 1 * (y 0).val = (y 0).val; omega
    | ⟨1, _⟩ => show win4_4.index t (1 : Fin 2) * 256 + 1 * (y 1).val = (y 1).val; omega
  · show V c main_v132 (((cfg4.win 5).blk t).view.emb y) = V c main_v132 y
    congr 1; funext a; apply Fin.ext
    match a with
    | ⟨0, _⟩ => show win4_5.index t (0 : Fin 2) * 1 + 1 * (y 0).val = (y 0).val; omega
    | ⟨1, _⟩ => show win4_5.index t (1 : Fin 2) * 256 + 1 * (y 1).val = (y 1).val; omega
  · show V c main_v133 (((cfg4.win 6).blk t).view.emb y) = V c main_v133 y
    congr 1; funext a; apply Fin.ext
    match a with
    | ⟨0, _⟩ => show win4_6.index t (0 : Fin 2) * 1 + 1 * (y 0).val = (y 0).val; omega
    | ⟨1, _⟩ => show win4_6.index t (1 : Fin 2) * 256 + 1 * (y 1).val = (y 1).val; omega
  · show V c main_v134 (((cfg4.win 7).blk t).view.emb y) = V c main_v134 y
    congr 1; funext a; apply Fin.ext
    match a with
    | ⟨0, _⟩ => show win4_7.index t (0 : Fin 2) * 1 + 1 * (y 0).val = (y 0).val; omega
    | ⟨1, _⟩ => show win4_7.index t (1 : Fin 2) * 256 + 1 * (y 1).val = (y 1).val; omega

/-- Row p of a row window's block at point t of region 4 is row 2000·t + p of the window's array: the block index is
    (t, 0) and a block has 2000 rows and all 256 columns. -/
theorem rowsL4 (c : Dev nD) (t : Fin cfg4.N) (p : Fin 2000) (r : Fin 50000) (hr : r.val = t.val * 2000 + p.val) (k : Fin 256) :
    (iblk4 V c 0 t : Vec Ideal S2000x256 .f32) (ix2 p k) = (V c main_v79 : S50000x256.Idx → EReal) (ix2 r k)
      ∧ (iblk4 V c 1 t : Vec Ideal S2000x256 .f32) (ix2 p k) = (V c main_v107 : S50000x256.Idx → EReal) (ix2 r k)
      ∧ (iblk4 V c 2 t : Vec Ideal S2000x256 .f32) (ix2 p k) = (V c main_v16 : S50000x256.Idx → EReal) (ix2 r k) := by
  obtain ⟨e00, e01, e10, e11, e20, e21, e30, e31, e40, e41, e50, e51, e60, e61, e70, e71, e80, e81⟩ := idxL4 t
  refine ⟨?_, ?_, ?_⟩
  · show V c main_v79 (((cfg4.win 0).blk t).view.emb (ix2 p k)) = V c main_v79 (ix2 r k)
    congr 1; funext a; apply Fin.ext
    match a with
    | ⟨0, _⟩ => show win4_0.index t (0 : Fin 2) * 2000 + 1 * p.val = r.val; omega
    | ⟨1, _⟩ => show win4_0.index t (1 : Fin 2) * 256 + 1 * k.val = k.val; omega
  · show V c main_v107 (((cfg4.win 1).blk t).view.emb (ix2 p k)) = V c main_v107 (ix2 r k)
    congr 1; funext a; apply Fin.ext
    match a with
    | ⟨0, _⟩ => show win4_1.index t (0 : Fin 2) * 2000 + 1 * p.val = r.val; omega
    | ⟨1, _⟩ => show win4_1.index t (1 : Fin 2) * 256 + 1 * k.val = k.val; omega
  · show V c main_v16 (((cfg4.win 2).blk t).view.emb (ix2 p k)) = V c main_v16 (ix2 r k)
    congr 1; funext a; apply Fin.ext
    match a with
    | ⟨0, _⟩ => show win4_2.index t (0 : Fin 2) * 2000 + 1 * p.val = r.val; omega
    | ⟨1, _⟩ => show win4_2.index t (1 : Fin 2) * 256 + 1 * k.val = k.val; omega

/-- Entry (p, q) of the output block at point t of region 4 is entry (2000·t + p, q) of the output array. -/
theorem outL4 (t : Fin cfg4.N) (p : Fin 2000) (r : Fin 50000) (hr : r.val = t.val * 2000 + p.val) (q : Fin 256) :
    ((cfg4.win 8).blk t).view.emb (ix2 p q) = (ix2 r q : S50000x256.Idx) := by
  obtain ⟨e00, e01, e10, e11, e20, e21, e30, e31, e40, e41, e50, e51, e60, e61, e70, e71, e80, e81⟩ := idxL4 t
  funext a; apply Fin.ext
  match a with
  | ⟨0, _⟩ => show win4_8.index t (0 : Fin 2) * 2000 + 1 * p.val = r.val; omega
  | ⟨1, _⟩ => show win4_8.index t (1 : Fin 2) * 256 + 1 * q.val = q.val; omega

/-- WHAT POINT t OF REGION 4 WRITES BACK is block t of `Spec.layer` of the eight arrays the region reads: the body's
    term is the layer of its loaded blocks, the five whole windows are the arrays themselves, and a row of the layer
    needs the same row of the three row-indexed operands only, which the row windows' blocks hold. -/
theorem flushedL4 (c : Dev nD) (t : Fin cfg4.N) :
    (dat4 (F := Ideal) V c).flushed 8 t = ((cfg4.win 8).blk t).view.read (Elt Ideal)
      (Spec.layer (V c main_v79) (V c main_v107) (V c main_v16) (V c main_v130) (V c main_v131) (V c main_v132) (V c main_v133) (V c main_v134)) := by
  show (cfg4.win 8).cut (grid4.coords t) ((dat4 V c).after 8 t) = _
  rw [after4_8]
  unfold out4_8
  rw [View.canon_unit_zero hzL]
  simp only [View.ld_unit_zero (S := S2000x256) hzL, View.ld_unit_zero (S := S256x256) hzL, View.ld_unit_zero (S := S1x256) hzL]
  rw [pay4]
  obtain ⟨w3, w4, w5, w6, w7⟩ := wholeL4 V c t
  rw [w3, w4, w5, w6, w7]
  funext j
  obtain ⟨p, q, rfl⟩ : ∃ (p : Fin 2000) (q : Fin 256), j = ix2 p q := ⟨j 0, j 1, eq_ix2 j⟩
  have ht : t.val < 25 := lt_of_lt_of_eq t.isLt N_4
  have hr : t.val * 2000 + p.val < 50000 := by have := p.isLt; omega
  show Spec.layer (iblk4 V c 0 t) (iblk4 V c 1 t) (iblk4 V c 2 t) (V c main_v130) (V c main_v131) (V c main_v132) (V c main_v133) (V c main_v134) (ix2 p q)
    = Spec.layer (V c main_v79) (V c main_v107) (V c main_v16) (V c main_v130) (V c main_v131) (V c main_v132) (V c main_v133) (V c main_v134) (((cfg4.win 8).blk t).view.emb (ix2 p q))
  rw [outL4 t p ⟨t.val * 2000 + p.val, hr⟩ rfl q]
  exact Spec.layer_row _ _ _ _ _ _ _ _ _ _ _ p ⟨t.val * 2000 + p.val, hr⟩
    (fun k => (rowsL4 V c t p _ rfl k).1) (fun k => (rowsL4 V c t p _ rfl k).2.1) (fun k => (rowsL4 V c t p _ rfl k).2.2) q

/-- An index of the output array is in point t's block iff each coordinate is in the block's range on its axis. -/
theorem mem_blkL4 (t : Fin cfg4.N) (i : S50000x256.Idx) :
    i ∈ ((cfg4.win 8).blk t).view.set ↔ ∀ a : Fin 2, win4_8.index t a * S2000x256.size a ≤ (i a).val ∧ (i a).val < win4_8.index t a * S2000x256.size a + S2000x256.size a := by
  show i ∈ ((View.whole main_v135).slice (win4_8.rect t)).set ↔ _
  rw [View.set_slice_whole, Rect.mem_set_unit]
  exact Iff.rfl

/-- The 25 output blocks of region 4 tile the output array: row n lies in the block of point n / 2000. -/
theorem coverL4 (i : S50000x256.Idx) :
    ∃ t : Fin cfg4.N, (cfg4.win 8).flush t = true ∧ i ∈ ((cfg4.win 8).blk t).view.set := by
  have hi0 : (i 0).val < 50000 := (i 0).isLt
  have hi1 : (i 1).val < 256 := (i 1).isLt
  have hN : (i 0).val / 2000 < cfg4.N := lt_of_lt_of_eq (by omega : (i 0).val / 2000 < 25) N_4.symm
  obtain ⟨e00, e01, e10, e11, e20, e21, e30, e31, e40, e41, e50, e51, e60, e61, e70, e71, e80, e81⟩ := idxL4 ⟨(i 0).val / 2000, hN⟩
  refine ⟨⟨(i 0).val / 2000, hN⟩, flush4_8 _, ?_⟩
  rw [mem_blkL4]
  intro a
  match a with
  | ⟨0, _⟩ =>
    show win4_8.index ⟨(i 0).val / 2000, hN⟩ (0 : Fin 2) * 2000 ≤ (i 0).val ∧ (i 0).val < win4_8.index ⟨(i 0).val / 2000, hN⟩ (0 : Fin 2) * 2000 + 2000
    rw [e80]; show (i 0).val / 2000 * 2000 ≤ (i 0).val ∧ (i 0).val < (i 0).val / 2000 * 2000 + 2000; omega
  | ⟨1, _⟩ =>
    show win4_8.index ⟨(i 0).val / 2000, hN⟩ (1 : Fin 2) * 256 ≤ (i 1).val ∧ (i 1).val < win4_8.index ⟨(i 0).val / 2000, hN⟩ (1 : Fin 2) * 256 + 256
    rw [e81]; omega

/-- REGION 4 (layer 1, items). -/
theorem final4 (c : Dev nD) :
    (dat4 (F := Ideal) V c).arrAt 8 cfg4.N
      = Spec.layer (V c main_v79) (V c main_v107) (V c main_v16) (V c main_v130) (V c main_v131) (V c main_v132) (V c main_v133) (V c main_v134) :=
  (dat4 (F := Ideal) V c).arrAt_eq_of_cover 8 _ (fun t _ => flushedL4 V c t) coverL4

/-! ## Region 5 -/

/-- The printed index maps of region 5, decided over its 25 grid points: the three row windows and the output window
    have block index (t, 0) at point t, the two weight windows and the three one-row windows have block index (0, 0). -/
theorem idxL5 : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

/-- The weight, bias, scale and shift windows of region 5 hold their whole arrays at every point: block index (0, 0)
    and a block as large as the array, so entry y of the block is entry y of the array. -/
theorem wholeL5 (c : Dev nD) (t : Fin cfg5.N) :
    iblk5 V c 3 t = V c main_v136 ∧ iblk5 V c 4 t = V c main_v137 ∧ iblk5 V c 5 t = V c main_v138
      ∧ iblk5 V c 6 t = V c main_v139 ∧ iblk5 V c 7 t = V c main_v140 := by
  obtain ⟨e00, e01, e10, e11, e20, e21, e30, e31, e40, e41, e50, e51, e60, e61, e70, e71, e80, e81⟩ := idxL5 t
  refine ⟨funext fun y => ?_, funext fun y => ?_, funext fun y => ?_, funext fun y => ?_, funext fun y => ?_⟩
  · show V c main_v136 (((cfg5.win 3).blk t).view.emb y) = V c main_v136 y
    congr 1; funext a; apply Fin.ext
    match a with
    | ⟨0, _⟩ => show win5_3.index t (0 : Fin 2) * 256 + 1 * (y 0).val = (y 0).val; omega
    | ⟨1, _⟩ => show win5_3.index t (1 : Fin 2) * 256 + 1 * (y 1).val = (y 1).val; omega
  · show V c main_v137 (((cfg5.win 4).blk t).view.emb y) = V c main_v137 y
    congr 1; funext a; apply Fin.ext
    match a with
    | ⟨0, _⟩ => show win5_4.index t (0 : Fin 2) * 256 + 1 * (y 0).val = (y 0).val; omega
    | ⟨1, _⟩ => show win5_4.index t (1 : Fin 2) * 256 + 1 * (y 1).val = (y 1).val; omega
  · show V c main_v138 (((cfg5.win 5).blk t).view.emb y) = V c main_v138 y
    congr 1; funext a; apply Fin.ext
    match a with
    | ⟨0, _⟩ => show win5_5.index t (0 : Fin 2) * 1 + 1 * (y 0).val = (y 0).val; omega
    | ⟨1, _⟩ => show win5_5.index t (1 : Fin 2) * 256 + 1 * (y 1).val = (y 1).val; omega
  · show V c main_v139 (((cfg5.win 6).blk t).view.emb y) = V c main_v139 y
    congr 1; funext a; apply Fin.ext
    match a with
    | ⟨0, _⟩ => show win5_6.index t (0 : Fin 2) * 1 + 1 * (y 0).val = (y 0).val; omega
    | ⟨1, _⟩ => show win5_6.index t (1 : Fin 2) * 256 + 1 * (y 1).val = (y 1).val; omega
  · show V c main_v140 (((cfg5.win 7).blk t).view.emb y) = V c main_v140 y
    congr 1; funext a; apply Fin.ext
    match a with
    | ⟨0, _⟩ => show win5_7.index t (0 : Fin 2) * 1 + 1 * (y 0).val = (y 0).val; omega
    | ⟨1, _⟩ => show win5_7.index t (1 : Fin 2) * 256 + 1 * (y 1).val = (y 1).val; omega

/-- Row p of a row window's block at point t of region 5 is row 2000·t + p of the window's array: the block index is
    (t, 0) and a block has 2000 rows and all 256 columns. -/
theorem rowsL5 (c : Dev nD) (t : Fin cfg5.N) (p : Fin 2000) (r : Fin 50000) (hr : r.val = t.val * 2000 + p.val) (k : Fin 256) :
    (iblk5 V c 0 t : Vec Ideal S2000x256 .f32) (ix2 p k) = (V c main_v85 : S50000x256.Idx → EReal) (ix2 r k)
      ∧ (iblk5 V c 1 t : Vec Ideal S2000x256 .f32) (ix2 p k) = (V c main_v129 : S50000x256.Idx → EReal) (ix2 r k)
      ∧ (iblk5 V c 2 t : Vec Ideal S2000x256 .f32) (ix2 p k) = (V c main_v29 : S50000x256.Idx → EReal) (ix2 r k) := by
  obtain ⟨e00, e01, e10, e11, e20, e21, e30, e31, e40, e41, e50, e51, e60, e61, e70, e71, e80, e81⟩ := idxL5 t
  refine ⟨?_, ?_, ?_⟩
  · show V c main_v85 (((cfg5.win 0).blk t).view.emb (ix2 p k)) = V c main_v85 (ix2 r k)
    congr 1; funext a; apply Fin.ext
    match a with
    | ⟨0, _⟩ => show win5_0.index t (0 : Fin 2) * 2000 + 1 * p.val = r.val; omega
    | ⟨1, _⟩ => show win5_0.index t (1 : Fin 2) * 256 + 1 * k.val = k.val; omega
  · show V c main_v129 (((cfg5.win 1).blk t).view.emb (ix2 p k)) = V c main_v129 (ix2 r k)
    congr 1; funext a; apply Fin.ext
    match a with
    | ⟨0, _⟩ => show win5_1.index t (0 : Fin 2) * 2000 + 1 * p.val = r.val; omega
    | ⟨1, _⟩ => show win5_1.index t (1 : Fin 2) * 256 + 1 * k.val = k.val; omega
  · show V c main_v29 (((cfg5.win 2).blk t).view.emb (ix2 p k)) = V c main_v29 (ix2 r k)
    congr 1; funext a; apply Fin.ext
    match a with
    | ⟨0, _⟩ => show win5_2.index t (0 : Fin 2) * 2000 + 1 * p.val = r.val; omega
    | ⟨1, _⟩ => show win5_2.index t (1 : Fin 2) * 256 + 1 * k.val = k.val; omega

/-- Entry (p, q) of the output block at point t of region 5 is entry (2000·t + p, q) of the output array. -/
theorem outL5 (t : Fin cfg5.N) (p : Fin 2000) (r : Fin 50000) (hr : r.val = t.val * 2000 + p.val) (q : Fin 256) :
    ((cfg5.win 8).blk t).view.emb (ix2 p q) = (ix2 r q : S50000x256.Idx) := by
  obtain ⟨e00, e01, e10, e11, e20, e21, e30, e31, e40, e41, e50, e51, e60, e61, e70, e71, e80, e81⟩ := idxL5 t
  funext a; apply Fin.ext
  match a with
  | ⟨0, _⟩ => show win5_8.index t (0 : Fin 2) * 2000 + 1 * p.val = r.val; omega
  | ⟨1, _⟩ => show win5_8.index t (1 : Fin 2) * 256 + 1 * q.val = q.val; omega

/-- WHAT POINT t OF REGION 5 WRITES BACK is block t of `Spec.layer` of the eight arrays the region reads: the body's
    term is the layer of its loaded blocks, the five whole windows are the arrays themselves, and a row of the layer
    needs the same row of the three row-indexed operands only, which the row windows' blocks hold. -/
theorem flushedL5 (c : Dev nD) (t : Fin cfg5.N) :
    (dat5 (F := Ideal) V c).flushed 8 t = ((cfg5.win 8).blk t).view.read (Elt Ideal)
      (Spec.layer (V c main_v85) (V c main_v129) (V c main_v29) (V c main_v136) (V c main_v137) (V c main_v138) (V c main_v139) (V c main_v140)) := by
  show (cfg5.win 8).cut (grid5.coords t) ((dat5 V c).after 8 t) = _
  rw [after5_8]
  unfold out5_8
  rw [View.canon_unit_zero hzL]
  simp only [View.ld_unit_zero (S := S2000x256) hzL, View.ld_unit_zero (S := S256x256) hzL, View.ld_unit_zero (S := S1x256) hzL]
  rw [pay5]
  obtain ⟨w3, w4, w5, w6, w7⟩ := wholeL5 V c t
  rw [w3, w4, w5, w6, w7]
  funext j
  obtain ⟨p, q, rfl⟩ : ∃ (p : Fin 2000) (q : Fin 256), j = ix2 p q := ⟨j 0, j 1, eq_ix2 j⟩
  have ht : t.val < 25 := lt_of_lt_of_eq t.isLt N_5
  have hr : t.val * 2000 + p.val < 50000 := by have := p.isLt; omega
  show Spec.layer (iblk5 V c 0 t) (iblk5 V c 1 t) (iblk5 V c 2 t) (V c main_v136) (V c main_v137) (V c main_v138) (V c main_v139) (V c main_v140) (ix2 p q)
    = Spec.layer (V c main_v85) (V c main_v129) (V c main_v29) (V c main_v136) (V c main_v137) (V c main_v138) (V c main_v139) (V c main_v140) (((cfg5.win 8).blk t).view.emb (ix2 p q))
  rw [outL5 t p ⟨t.val * 2000 + p.val, hr⟩ rfl q]
  exact Spec.layer_row _ _ _ _ _ _ _ _ _ _ _ p ⟨t.val * 2000 + p.val, hr⟩
    (fun k => (rowsL5 V c t p _ rfl k).1) (fun k => (rowsL5 V c t p _ rfl k).2.1) (fun k => (rowsL5 V c t p _ rfl k).2.2) q

/-- An index of the output array is in point t's block iff each coordinate is in the block's range on its axis. -/
theorem mem_blkL5 (t : Fin cfg5.N) (i : S50000x256.Idx) :
    i ∈ ((cfg5.win 8).blk t).view.set ↔ ∀ a : Fin 2, win5_8.index t a * S2000x256.size a ≤ (i a).val ∧ (i a).val < win5_8.index t a * S2000x256.size a + S2000x256.size a := by
  show i ∈ ((View.whole main_v141).slice (win5_8.rect t)).set ↔ _
  rw [View.set_slice_whole, Rect.mem_set_unit]
  exact Iff.rfl

/-- The 25 output blocks of region 5 tile the output array: row n lies in the block of point n / 2000. -/
theorem coverL5 (i : S50000x256.Idx) :
    ∃ t : Fin cfg5.N, (cfg5.win 8).flush t = true ∧ i ∈ ((cfg5.win 8).blk t).view.set := by
  have hi0 : (i 0).val < 50000 := (i 0).isLt
  have hi1 : (i 1).val < 256 := (i 1).isLt
  have hN : (i 0).val / 2000 < cfg5.N := lt_of_lt_of_eq (by omega : (i 0).val / 2000 < 25) N_5.symm
  obtain ⟨e00, e01, e10, e11, e20, e21, e30, e31, e40, e41, e50, e51, e60, e61, e70, e71, e80, e81⟩ := idxL5 ⟨(i 0).val / 2000, hN⟩
  refine ⟨⟨(i 0).val / 2000, hN⟩, flush5_8 _, ?_⟩
  rw [mem_blkL5]
  intro a
  match a with
  | ⟨0, _⟩ =>
    show win5_8.index ⟨(i 0).val / 2000, hN⟩ (0 : Fin 2) * 2000 ≤ (i 0).val ∧ (i 0).val < win5_8.index ⟨(i 0).val / 2000, hN⟩ (0 : Fin 2) * 2000 + 2000
    rw [e80]; show (i 0).val / 2000 * 2000 ≤ (i 0).val ∧ (i 0).val < (i 0).val / 2000 * 2000 + 2000; omega
  | ⟨1, _⟩ =>
    show win5_8.index ⟨(i 0).val / 2000, hN⟩ (1 : Fin 2) * 256 ≤ (i 1).val ∧ (i 1).val < win5_8.index ⟨(i 0).val / 2000, hN⟩ (1 : Fin 2) * 256 + 256
    rw [e81]; omega

/-- REGION 5 (layer 1, users). -/
theorem final5 (c : Dev nD) :
    (dat5 (F := Ideal) V c).arrAt 8 cfg5.N
      = Spec.layer (V c main_v85) (V c main_v129) (V c main_v29) (V c main_v136) (V c main_v137) (V c main_v138) (V c main_v139) (V c main_v140) :=
  (dat5 (F := Ideal) V c).arrAt_eq_of_cover 8 _ (fun t _ => flushedL5 V c t) coverL5

end Cert.KernelValue

end
-- ==== Proof.Chain.lean ====
/-
  The whole computation as ONE function of the 22 argument arrays, at the extended reals: the edge embeddings and the two
  message-passing layers of `Spec`, joined by the host operations both programs apply to them verbatim — a row of the edge
  list, the gather of the source rows, the scatter-mean onto the destination rows (the sum of the scattered rows over the
  count clamped below by one), the two halves of a 512-row weight matrix, a length-256 vector as a one-row matrix, and the
  final stacking of the two node types.  Those host operations are carried as opaque functions: nothing below opens one.
-/
import proofs.«401930_j19567871000709_3_alg».proof.KernelIdeal
import proofs.«401930_j19567871000709_3_alg».proof.Proof.Spec

noncomputable section

namespace Cert.Chain

open Idealize.ShloMosaic Cert.KernelIdeal

variable [Cert.KernelIdeal.Facts]
open Cert.KernelIdeal.Facts₀ Cert.KernelIdeal.Facts

/-- The argument arrays, in the order of the two programs' parameters. -/
structure Inputs where
  hUser : Vec Ideal S50000x256 .f32
  hItem : Vec Ideal S50000x256 .f32
  etUb : Vec Ideal S500000x32 .f32
  etBu : Vec Ideal S500000x32 .f32
  w0Ub : Vec Ideal S512x256 .f32
  b0Ub : Vec Ideal S256 .f32
  w0Bu : Vec Ideal S512x256 .f32
  b0Bu : Vec Ideal S256 .f32
  w1Ub : Vec Ideal S512x256 .f32
  b1Ub : Vec Ideal S256 .f32
  w1Bu : Vec Ideal S512x256 .f32
  b1Bu : Vec Ideal S256 .f32
  wemUb : Vec Ideal S32x256 .f32
  bemUb : Vec Ideal S256 .f32
  wemBu : Vec Ideal S32x256 .f32
  bemBu : Vec Ideal S256 .f32
  gU : Vec Ideal S256 .f32
  betaU : Vec Ideal S256 .f32
  gI : Vec Ideal S256 .f32
  betaI : Vec Ideal S256 .f32
  eiUb : Vec Ideal S2x500000 .i32
  eiBu : Vec Ideal S2x500000 .i32

/-- Row 0 of an edge list: the source node of every edge. -/
def srcRow (ei : Vec Ideal S2x500000 .i32) : Vec Ideal S500000 .i32 :=
  shapeCast S500000 (extractStridedSlice S1x500000 ![0, 0] ei slices_S2x500000_S1x500000_0_0) shapeCasts_S1x500000_S500000

/-- Row 1 of an edge list: the destination node of every edge. -/
def dstRow (ei : Vec Ideal S2x500000 .i32) : Vec Ideal S500000 .i32 :=
  shapeCast S500000 (extractStridedSlice S1x500000 ![1, 0] ei slices_S2x500000_S1x500000_1_0) shapeCasts_S1x500000_S500000

/-- The rows of `h` at the edges' source nodes (a negative index wrapped once by 50000, as jnp indexing does). -/
def gath (h : Vec Ideal S50000x256 .f32) (src : Vec Ideal S500000 .i32) : Vec Ideal S500000x256 .f32 :=
  Host.gather gather_S50000x256_S500000x1_S500000x256_1_0_n_n_0_1_1256 h
    (broadcastInDim S500000x1 ![0] bcast_S500000_S500000x1_0
      (select (cmpi .slt src (broadcastInDim S500000 ![] bcast_S_S500000 (constantI S_ 32 0#32)))
        (addi src (broadcastInDim S500000 ![] bcast_S_S500000 (constantI S_ 32 50000#32))) src))

/-- The mean, per destination node, of the edge rows `vals` scattered there: their sum over max(count, 1). -/
def smean (vals : Vec Ideal S500000x256 .f32) (dst : Vec Ideal S500000 .i32) : Vec Ideal S50000x256 .f32 :=
  Host.divf (F := Ideal)
    (Host.scatterAdd (F := Ideal) scatter_S50000x256_S500000x1_S500000x256_1_0_0_1
      (broadcastInDim S50000x256 ![] bcast_S_S50000x256 (constant (F := Ideal) S_ .f32 0x00000000#32))
      (broadcastInDim S500000x1 ![0] bcast_S500000_S500000x1_0 dst) vals)
    (broadcastInDim S50000x256 ![0, 1] bcast_S50000x1_S50000x256_0_1
      (maximumf (F := Ideal)
        (Host.scatterAdd (F := Ideal) scatter_S50000x1_S500000x1_S500000x1_1_0_0_1
          (broadcastInDim S50000x1 ![] bcast_S_S50000x1 (constant (F := Ideal) S_ .f32 0x00000000#32))
          (broadcastInDim S500000x1 ![0] bcast_S500000_S500000x1_0 dst)
          (broadcastInDim S500000x1 ![] bcast_S_S500000x1 (constant (F := Ideal) S_ .f32 0x3F800000#32)))
        (broadcastInDim S50000x1 ![] bcast_S_S50000x1 (constant (F := Ideal) S_ .f32 0x3F800000#32))))

/-- Rows 0..255 of a 512-row weight matrix: the self half. -/
def wtop (w : Vec Ideal S512x256 .f32) : Vec Ideal S256x256 .f32 := extractStridedSlice S256x256 ![0, 0] w slices_S512x256_S256x256_0_0
/-- Rows 256..511: the neighbour half. -/
def wbot (w : Vec Ideal S512x256 .f32) : Vec Ideal S256x256 .f32 := extractStridedSlice S256x256 ![256, 0] w slices_S512x256_S256x256_256_0
/-- A length-256 vector as a one-row matrix. -/
def row (b : Vec Ideal S256 .f32) : Vec Ideal S1x256 .f32 := shapeCast S1x256 b shapeCasts_S256_S1x256

/-- The two node types' final states stacked on a new leading axis, users first. -/
def stack (hu hi : Vec Ideal S50000x256 .f32) : Vec Ideal S2x50000x256 .f32 :=
  concatenate S2x50000x256 0
    [⟨S1x50000x256, broadcastInDim S1x50000x256 ![1, 2] bcast_S50000x256_S1x50000x256_1_2 hu⟩,
     ⟨S1x50000x256, broadcastInDim S1x50000x256 ![1, 2] bcast_S50000x256_S1x50000x256_1_2 hi⟩]
    concatenates_S1x50000x256_S1x50000x256_S2x50000x256_d0

variable (I : Inputs)

/-- The embedded user→item edge features. -/
def embUb : Vec Ideal S500000x256 .f32 := Spec.embed I.etUb I.wemUb (row I.bemUb)
/-- The embedded item→user edge features. -/
def embBu : Vec Ideal S500000x256 .f32 := Spec.embed I.etBu I.wemBu (row I.bemBu)
/-- The edge bias onto items. -/
def addI : Vec Ideal S50000x256 .f32 := smean (embUb I) (dstRow I.eiUb)
/-- The edge bias onto users. -/
def addU : Vec Ideal S50000x256 .f32 := smean (embBu I) (dstRow I.eiBu)

/-- One layer's new item states from the current states. -/
def newHi (hu hi : Vec Ideal S50000x256 .f32) (w : Vec Ideal S512x256 .f32) (b : Vec Ideal S256 .f32) : Vec Ideal S50000x256 .f32 :=
  Spec.layer hi (smean (gath hu (srcRow I.eiUb)) (dstRow I.eiUb)) (addI I) (wtop w) (wbot w) (row b) (row I.gI) (row I.betaI)
/-- One layer's new user states from the current states. -/
def newHu (hu hi : Vec Ideal S50000x256 .f32) (w : Vec Ideal S512x256 .f32) (b : Vec Ideal S256 .f32) : Vec Ideal S50000x256 .f32 :=
  Spec.layer hu (smean (gath hi (srcRow I.eiBu)) (dstRow I.eiBu)) (addU I) (wtop w) (wbot w) (row b) (row I.gU) (row I.betaU)

/-- After layer 0. -/
def hi1 : Vec Ideal S50000x256 .f32 := newHi I I.hUser I.hItem I.w0Ub I.b0Ub
def hu1 : Vec Ideal S50000x256 .f32 := newHu I I.hUser I.hItem I.w0Bu I.b0Bu
/-- After layer 1. -/
def hi2 : Vec Ideal S50000x256 .f32 := newHi I (hu1 I) (hi1 I) I.w1Ub I.b1Ub
def hu2 : Vec Ideal S50000x256 .f32 := newHu I (hu1 I) (hi1 I) I.w1Bu I.b1Bu

/-- The result of the whole computation. -/
def result : Vec Ideal S2x50000x256 .f32 := stack (hu2 I) (hi2 I)

end Cert.Chain

end
-- ==== Proof.KFoldA.lean ====
import proofs.«401930_j19567871000709_3_alg».proof.Proof.Gen.KernelIdeal.Frame
import proofs.«401930_j19567871000709_3_alg».proof.Proof.KEmbed
import proofs.«401930_j19567871000709_3_alg».proof.Proof.KLayer
import proofs.«401930_j19567871000709_3_alg».proof.Proof.Chain
import Idealize.ShloMosaic.Lib.StableHlo.Run

set_option maxRecDepth 16384

noncomputable section

namespace Cert.KernelValue

open Idealize.ShloMosaic Idealize.ShloMosaic.TcCoe Idealize.SL.Sem
open Idealize.ShloMosaic.Pipeline (Dat)
open Idealize.ShloMosaic.StableHlo
open Cert.KernelIdeal Cert.KernelIdeal.Gen

variable (m : (ℓ : Loc nD τ sig) → Buf (Elt Ideal) ℓ) (ρ : Dev nD → PrngReg)

/-- The argument arrays as core `c` holds them at launch. -/
def inputs (c : Dev nD) : Chain.Inputs where
  hUser := m ((c.tc : Thread nD τ).loc main_arg0)
  hItem := m ((c.tc : Thread nD τ).loc main_arg1)
  etUb := m ((c.tc : Thread nD τ).loc main_arg2)
  etBu := m ((c.tc : Thread nD τ).loc main_arg3)
  w0Ub := m ((c.tc : Thread nD τ).loc main_arg4)
  b0Ub := m ((c.tc : Thread nD τ).loc main_arg5)
  w0Bu := m ((c.tc : Thread nD τ).loc main_arg6)
  b0Bu := m ((c.tc : Thread nD τ).loc main_arg7)
  w1Ub := m ((c.tc : Thread nD τ).loc main_arg8)
  b1Ub := m ((c.tc : Thread nD τ).loc main_arg9)
  w1Bu := m ((c.tc : Thread nD τ).loc main_arg10)
  b1Bu := m ((c.tc : Thread nD τ).loc main_arg11)
  wemUb := m ((c.tc : Thread nD τ).loc main_arg12)
  bemUb := m ((c.tc : Thread nD τ).loc main_arg13)
  wemBu := m ((c.tc : Thread nD τ).loc main_arg14)
  bemBu := m ((c.tc : Thread nD τ).loc main_arg15)
  gU := m ((c.tc : Thread nD τ).loc main_arg16)
  betaU := m ((c.tc : Thread nD τ).loc main_arg17)
  gI := m ((c.tc : Thread nD τ).loc main_arg18)
  betaI := m ((c.tc : Thread nD τ).loc main_arg19)
  eiUb := m ((c.tc : Thread nD τ).loc main_arg20)
  eiBu := m ((c.tc : Thread nD τ).loc main_arg21)

/-! ## How a buffer passes each of the first six segments -/

/-- The first host stretch writes the one-row bias `main_v0` only. -/
theorem keep1 (c : Dev nD) (r : Ref sig .tc) (h : r ≠ main_v0) :
    W1 (F := Ideal) m ρ c (Proc.devRef .tc r) = W0 m ρ c (Proc.devRef .tc r) := by
  show after hostOps0 (W0 m ρ c) (Proc.devRef .tc r) = _
  simp only [hostOps0, after_cons, after_nil]
  exact reshape_result_ne _ _ _ _ _ _ _ h

/-- A buffer that is none of region 0's four arrays passes it. -/
theorem keep2 (c : Dev nD) (r : Ref sig .tc) (h : ∀ w, Pipeline.arrRef spec0 w ≠ r) :
    W2 (F := Ideal) m ρ c (Proc.devRef .tc r) = W1 m ρ c (Proc.devRef .tc r) := W2_of_ne m ρ c r h

/-- An input array of region 0 passes it: no write-back touches it. -/
theorem keep2_in (c : Dev nD) (w : Fin cfg0.W) (hw : (cfg0.win w).isOut = false) :
    W2 (F := Ideal) m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- The second host stretch writes the one-row bias `main_v2` only. -/
theorem keep3 (c : Dev nD) (r : Ref sig .tc) (h : r ≠ main_v2) :
    W3 (F := Ideal) m ρ c (Proc.devRef .tc r) = W2 m ρ c (Proc.devRef .tc r) := by
  show after hostOps1 (W2 m ρ c) (Proc.devRef .tc r) = _
  simp only [hostOps1, after_cons, after_nil]
  exact reshape_result_ne _ _ _ _ _ _ _ h

theorem keep4 (c : Dev nD) (r : Ref sig .tc) (h : ∀ w, Pipeline.arrRef spec1 w ≠ r) :
    W4 (F := Ideal) m ρ c (Proc.devRef .tc r) = W3 m ρ c (Proc.devRef .tc r) := W4_of_ne m ρ c r h

theorem keep4_in (c : Dev nD) (w : Fin cfg1.W) (hw : (cfg1.win w).isOut = false) :
    W4 (F := Ideal) m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-! ## Boundary 1: the user→item edge embedding's three inputs -/
theorem at1_arg2 (c : Dev nD) : W1 (F := Ideal) m ρ c (Proc.devRef .tc main_arg2) = m ((c.tc : Thread nD τ).loc main_arg2) :=
  keep1 m ρ c main_arg2 (by decide)
theorem at1_arg12 (c : Dev nD) : W1 (F := Ideal) m ρ c (Proc.devRef .tc main_arg12) = m ((c.tc : Thread nD τ).loc main_arg12) :=
  keep1 m ρ c main_arg12 (by decide)
theorem at1_v0 (c : Dev nD) : W1 (F := Ideal) m ρ c (Proc.devRef .tc main_v0) = Chain.row (inputs m c).bemUb := by
  show after hostOps0 (W0 m ρ c) (Proc.devRef .tc main_v0) = _
  simp only [hostOps0]
  after_results
  rfl

/-! ## Boundary 2: the embedded user→item edge features -/
theorem at2_v1 (c : Dev nD) : W2 (F := Ideal) m ρ c (Proc.devRef .tc main_v1) = Chain.embUb (inputs m c) :=
  (W2_arr m ρ c 3).trans ((final0 (V1 m ρ) c).trans (by
    show Spec.embed (W1 m ρ c (Proc.devRef .tc main_arg2)) (W1 m ρ c (Proc.devRef .tc main_arg12)) (W1 m ρ c (Proc.devRef .tc main_v0)) = _
    rw [at1_arg2, at1_arg12, at1_v0]; rfl))

/-- An argument array that neither of the first two regions has among its arrays is, after them, as launched. -/
theorem at4_of_launch (c : Dev nD) (r : Ref sig .tc) (h0 : r ≠ main_v0) (h1 : ∀ w, Pipeline.arrRef spec0 w ≠ r)
    (h2 : r ≠ main_v2) (h3 : ∀ w, Pipeline.arrRef spec1 w ≠ r) :
    W4 (F := Ideal) m ρ c (Proc.devRef .tc r) = W0 m ρ c (Proc.devRef .tc r) :=
  (keep4 m ρ c r h3).trans ((keep3 m ρ c r h2).trans ((keep2 m ρ c r h1).trans (keep1 m ρ c r h0)))

/-! ## Boundary 3: the item→user edge embedding's three inputs; the first embedding stays -/
theorem at3_v1 (c : Dev nD) : W3 (F := Ideal) m ρ c (Proc.devRef .tc main_v1) = Chain.embUb (inputs m c) :=
  (keep3 m ρ c main_v1 (by decide)).trans (at2_v1 m ρ c)
theorem at3_arg3 (c : Dev nD) : W3 (F := Ideal) m ρ c (Proc.devRef .tc main_arg3) = m ((c.tc : Thread nD τ).loc main_arg3) :=
  (keep3 m ρ c main_arg3 (by decide)).trans ((keep2 m ρ c main_arg3 (by decide)).trans (keep1 m ρ c main_arg3 (by decide)))
theorem at3_arg14 (c : Dev nD) : W3 (F := Ideal) m ρ c (Proc.devRef .tc main_arg14) = m ((c.tc : Thread nD τ).loc main_arg14) :=
  (keep3 m ρ c main_arg14 (by decide)).trans ((keep2 m ρ c main_arg14 (by decide)).trans (keep1 m ρ c main_arg14 (by decide)))
theorem at2_arg15 (c : Dev nD) : W2 (F := Ideal) m ρ c (Proc.devRef .tc main_arg15) = m ((c.tc : Thread nD τ).loc main_arg15) :=
  (keep2 m ρ c main_arg15 (by decide)).trans (keep1 m ρ c main_arg15 (by decide))
theorem at3_v2 (c : Dev nD) : W3 (F := Ideal) m ρ c (Proc.devRef .tc main_v2) = Chain.row (inputs m c).bemBu := by
  show after hostOps1 (W2 m ρ c) (Proc.devRef .tc main_v2) = _
  simp only [hostOps1]
  after_results
  rw [at2_arg15]; rfl

/-! ## Boundary 4: both embedded edge-feature arrays, and the arguments still as launched -/
theorem at4_v3 (c : Dev nD) : W4 (F := Ideal) m ρ c (Proc.devRef .tc main_v3) = Chain.embBu (inputs m c) :=
  (W4_arr m ρ c 3).trans ((final1 (V3 m ρ) c).trans (by
    show Spec.embed (W3 m ρ c (Proc.devRef .tc main_arg3)) (W3 m ρ c (Proc.devRef .tc main_arg14)) (W3 m ρ c (Proc.devRef .tc main_v2)) = _
    rw [at3_arg3, at3_arg14, at3_v2]; rfl))
theorem at4_v1 (c : Dev nD) : W4 (F := Ideal) m ρ c (Proc.devRef .tc main_v1) = Chain.embUb (inputs m c) :=
  (keep4 m ρ c main_v1 (by decide)).trans (at3_v1 m ρ c)
theorem at4_arg0 (c : Dev nD) : W4 (F := Ideal) m ρ c (Proc.devRef .tc main_arg0) = m ((c.tc : Thread nD τ).loc main_arg0) :=
  at4_of_launch m ρ c main_arg0 (by decide) (by decide) (by decide) (by decide)
theorem at4_arg1 (c : Dev nD) : W4 (F := Ideal) m ρ c (Proc.devRef .tc main_arg1) = m ((c.tc : Thread nD τ).loc main_arg1) :=
  at4_of_launch m ρ c main_arg1 (by decide) (by decide) (by decide) (by decide)
theorem at4_arg4 (c : Dev nD) : W4 (F := Ideal) m ρ c (Proc.devRef .tc main_arg4) = m ((c.tc : Thread nD τ).loc main_arg4) :=
  at4_of_launch m ρ c main_arg4 (by decide) (by decide) (by decide) (by decide)
theorem at4_arg5 (c : Dev nD) : W4 (F := Ideal) m ρ c (Proc.devRef .tc main_arg5) = m ((c.tc : Thread nD τ).loc main_arg5) :=
  at4_of_launch m ρ c main_arg5 (by decide) (by decide) (by decide) (by decide)
theorem at4_arg6 (c : Dev nD) : W4 (F := Ideal) m ρ c (Proc.devRef .tc main_arg6) = m ((c.tc : Thread nD τ).loc main_arg6) :=
  at4_of_launch m ρ c main_arg6 (by decide) (by decide) (by decide) (by decide)
theorem at4_arg7 (c : Dev nD) : W4 (F := Ideal) m ρ c (Proc.devRef .tc main_arg7) = m ((c.tc : Thread nD τ).loc main_arg7) :=
  at4_of_launch m ρ c main_arg7 (by decide) (by decide) (by decide) (by decide)
theorem at4_arg8 (c : Dev nD) : W4 (F := Ideal) m ρ c (Proc.devRef .tc main_arg8) = m ((c.tc : Thread nD τ).loc main_arg8) :=
  at4_of_launch m ρ c main_arg8 (by decide) (by decide) (by decide) (by decide)
theorem at4_arg9 (c : Dev nD) : W4 (F := Ideal) m ρ c (Proc.devRef .tc main_arg9) = m ((c.tc : Thread nD τ).loc main_arg9) :=
  at4_of_launch m ρ c main_arg9 (by decide) (by decide) (by decide) (by decide)
theorem at4_arg10 (c : Dev nD) : W4 (F := Ideal) m ρ c (Proc.devRef .tc main_arg10) = m ((c.tc : Thread nD τ).loc main_arg10) :=
  at4_of_launch m ρ c main_arg10 (by decide) (by decide) (by decide) (by decide)
theorem at4_arg11 (c : Dev nD) : W4 (F := Ideal) m ρ c (Proc.devRef .tc main_arg11) = m ((c.tc : Thread nD τ).loc main_arg11) :=
  at4_of_launch m ρ c main_arg11 (by decide) (by decide) (by decide) (by decide)
theorem at4_arg16 (c : Dev nD) : W4 (F := Ideal) m ρ c (Proc.devRef .tc main_arg16) = m ((c.tc : Thread nD τ).loc main_arg16) :=
  at4_of_launch m ρ c main_arg16 (by decide) (by decide) (by decide) (by decide)
theorem at4_arg17 (c : Dev nD) : W4 (F := Ideal) m ρ c (Proc.devRef .tc main_arg17) = m ((c.tc : Thread nD τ).loc main_arg17) :=
  at4_of_launch m ρ c main_arg17 (by decide) (by decide) (by decide) (by decide)
theorem at4_arg18 (c : Dev nD) : W4 (F := Ideal) m ρ c (Proc.devRef .tc main_arg18) = m ((c.tc : Thread nD τ).loc main_arg18) :=
  at4_of_launch m ρ c main_arg18 (by decide) (by decide) (by decide) (by decide)
theorem at4_arg19 (c : Dev nD) : W4 (F := Ideal) m ρ c (Proc.devRef .tc main_arg19) = m ((c.tc : Thread nD τ).loc main_arg19) :=
  at4_of_launch m ρ c main_arg19 (by decide) (by decide) (by decide) (by decide)
theorem at4_arg20 (c : Dev nD) : W4 (F := Ideal) m ρ c (Proc.devRef .tc main_arg20) = m ((c.tc : Thread nD τ).loc main_arg20) :=
  at4_of_launch m ρ c main_arg20 (by decide) (by decide) (by decide) (by decide)
theorem at4_arg21 (c : Dev nD) : W4 (F := Ideal) m ρ c (Proc.devRef .tc main_arg21) = m ((c.tc : Thread nD τ).loc main_arg21) :=
  at4_of_launch m ρ c main_arg21 (by decide) (by decide) (by decide) (by decide)

/-! ## The third host stretch: the scatter-means, the weight halves, the one-row vectors -/

/-- The buffers the third host stretch writes, in order. -/
abbrev hostOps2_W : List (Ref sig .tc) := [main_v4, main_v5, main_cst, main_v6, main_v7, main_v8, main_cst_0, main_v9, main_cst_1, main_v10, main_v11, main_v12, main_cst_2, main_v13, main_v14, main_v15, main_v16, main_v17, main_v18, main_cst_3, main_v19, main_v20, main_v21, main_cst_4, main_v22, main_cst_5, main_v23, main_v24, main_v25, main_cst_6, main_v26, main_v27, main_v28, main_v29, main_v30, main_v31, main_c, main_v32, main_v33, main_c_7, main_v34, main_v35, main_v36, main_v37, main_v38, main_v39, main_v40, main_cst_8, main_v41, main_v42, main_v43, main_cst_9, main_v44, main_cst_10, main_v45, main_v46, main_v47, main_cst_11, main_v48, main_v49, main_v50, main_v51, main_v52, main_v53, main_c_12, main_v54, main_v55, main_c_13, main_v56, main_v57, main_v58, main_v59, main_v60, main_v61, main_v62, main_cst_14, main_v63, main_v64, main_v65, main_cst_15, main_v66, main_cst_16, main_v67, main_v68, main_v69, main_cst_17, main_v70, main_v71, main_v72, main_v73, main_v74, main_v75, main_v76, main_v77, main_v78]

set_option maxRecDepth 8192 in
set_option maxHeartbeats 2000000 in
theorem hostOps2_writes : (hostOps2 : List (HloOp τ sig (Elt Ideal))).Forall fun op => op.writes ⊆ (hostOps2_W.map (Proc.devRef (τ := τ) .tc)).toFinset := by
  simp only [hostOps2, List.Forall, nullary_writes, unary_writes, binary_writes, ternary_writes, reshape_writes, Finset.singleton_subset_iff, List.mem_toFinset]
  repeat' apply And.intro
  all_goals exact List.mem_map_of_mem (by decide)

/-- A buffer the third host stretch does not write passes it. -/
theorem keep5 (c : Dev nD) (r : Ref sig .tc) (h : r ∉ hostOps2_W) :
    W5 (F := Ideal) m ρ c (Proc.devRef .tc r) = W4 m ρ c (Proc.devRef .tc r) :=
  after_of_writes_sub hostOps2 _ hostOps2_writes h

/-! ### What the third host stretch leaves in the buffers the items' first layer reads

Each result buffer is read back through the operations that feed it, down to the stretch's inputs (the two edge lists,
the two node-state arrays, the two embedded edge-feature arrays, the first layer's weight matrix and three vectors), all of
which are known at the previous boundary. A scatter-mean is the quotient of two scatter-sums over the destination row of
an edge list: the scattered rows, and the constant one clamped below by one; the gathered rows are those of the node
states at the source row with a negative index wrapped once. These are the same operations, in the same order, as the
chain's `smean`, `gath`, `srcRow`, `dstRow`, `wtop`, `wbot` and `row`, so each equation closes by reading. -/

set_option maxRecDepth 8192 in
set_option maxHeartbeats 2000000 in
theorem at5_v16 (c : Dev nD) : W5 (F := Ideal) m ρ c (Proc.devRef .tc main_v16) = Chain.addI (inputs m c) := by
  show after hostOps2 (W4 m ρ c) (Proc.devRef .tc main_v16) = _
  simp only [hostOps2]
  after_results_simp
  rw [at4_arg20, at4_v1]
  rfl

set_option maxRecDepth 8192 in
set_option maxHeartbeats 2000000 in
theorem at5_v29 (c : Dev nD) : W5 (F := Ideal) m ρ c (Proc.devRef .tc main_v29) = Chain.addU (inputs m c) := by
  show after hostOps2 (W4 m ρ c) (Proc.devRef .tc main_v29) = _
  simp only [hostOps2]
  after_results_simp
  rw [at4_arg21, at4_v3]
  rfl

set_option maxRecDepth 8192 in
set_option maxHeartbeats 2000000 in
theorem at5_v51 (c : Dev nD) : W5 (F := Ideal) m ρ c (Proc.devRef .tc main_v51) = Chain.smean (Chain.gath (inputs m c).hUser (Chain.srcRow (inputs m c).eiUb)) (Chain.dstRow (inputs m c).eiUb) := by
  show after hostOps2 (W4 m ρ c) (Proc.devRef .tc main_v51) = _
  simp only [hostOps2]
  after_results_simp
  rw [at4_arg20, at4_arg0]
  rfl

set_option maxRecDepth 8192 in
set_option maxHeartbeats 2000000 in
theorem at5_v73 (c : Dev nD) : W5 (F := Ideal) m ρ c (Proc.devRef .tc main_v73) = Chain.smean (Chain.gath (inputs m c).hItem (Chain.srcRow (inputs m c).eiBu)) (Chain.dstRow (inputs m c).eiBu) := by
  show after hostOps2 (W4 m ρ c) (Proc.devRef .tc main_v73) = _
  simp only [hostOps2]
  after_results_simp
  rw [at4_arg21, at4_arg1]
  rfl

set_option maxRecDepth 8192 in
set_option maxHeartbeats 2000000 in
theorem at5_v74 (c : Dev nD) : W5 (F := Ideal) m ρ c (Proc.devRef .tc main_v74) = Chain.wtop (inputs m c).w0Ub := by
  show after hostOps2 (W4 m ρ c) (Proc.devRef .tc main_v74) = _
  simp only [hostOps2]
  after_results_simp
  rw [at4_arg4]
  rfl

set_option maxRecDepth 8192 in
set_option maxHeartbeats 2000000 in
theorem at5_v75 (c : Dev nD) : W5 (F := Ideal) m ρ c (Proc.devRef .tc main_v75) = Chain.wbot (inputs m c).w0Ub := by
  show after hostOps2 (W4 m ρ c) (Proc.devRef .tc main_v75) = _
  simp only [hostOps2]
  after_results_simp
  rw [at4_arg4]
  rfl

set_option maxRecDepth 8192 in
set_option maxHeartbeats 2000000 in
theorem at5_v76 (c : Dev nD) : W5 (F := Ideal) m ρ c (Proc.devRef .tc main_v76) = Chain.row (inputs m c).b0Ub := by
  show after hostOps2 (W4 m ρ c) (Proc.devRef .tc main_v76) = _
  simp only [hostOps2]
  after_results_simp
  rw [at4_arg5]
  rfl

set_option maxRecDepth 8192 in
set_option maxHeartbeats 2000000 in
theorem at5_v77 (c : Dev nD) : W5 (F := Ideal) m ρ c (Proc.devRef .tc main_v77) = Chain.row (inputs m c).gI := by
  show after hostOps2 (W4 m ρ c) (Proc.devRef .tc main_v77) = _
  simp only [hostOps2]
  after_results_simp
  rw [at4_arg18]
  rfl

set_option maxRecDepth 8192 in
set_option maxHeartbeats 2000000 in
theorem at5_v78 (c : Dev nD) : W5 (F := Ideal) m ρ c (Proc.devRef .tc main_v78) = Chain.row (inputs m c).betaI := by
  show after hostOps2 (W4 m ρ c) (Proc.devRef .tc main_v78) = _
  simp only [hostOps2]
  after_results_simp
  rw [at4_arg19]
  rfl

theorem at5_arg1 (c : Dev nD) : W5 (F := Ideal) m ρ c (Proc.devRef .tc main_arg1) = m ((c.tc : Thread nD τ).loc main_arg1) :=
  (keep5 m ρ c main_arg1 (by decide)).trans (at4_arg1 m ρ c)

/-! ## Boundary 6: after the items' first layer -/

/-- A buffer that is none of region 2's nine arrays passes it. -/
theorem keep6 (c : Dev nD) (r : Ref sig .tc) (h : ∀ w, Pipeline.arrRef spec2 w ≠ r) :
    W6 (F := Ideal) m ρ c (Proc.devRef .tc r) = W5 m ρ c (Proc.devRef .tc r) := W6_of_ne m ρ c r h

/-- An input array of region 2 passes it. -/
theorem keep6_in (c : Dev nD) (w : Fin cfg2.W) (hw : (cfg2.win w).isOut = false) :
    W6 (F := Ideal) m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-! ## The buffer contents after the first layer's two regions (the boundary `W6`: regions 0, 1, 2 and the host
    operations before them have run): what the second half of the program reads. -/

/-- The item states after layer 0. -/
theorem at6_v79 (c : Dev nD) : W6 (F := Ideal) m ρ c (Proc.devRef .tc main_v79) = Chain.hi1 (inputs m c) :=
  (W6_arr m ρ c 8).trans ((final2 (V5 m ρ) c).trans (by
    show Spec.layer (W5 m ρ c (Proc.devRef .tc main_arg1)) (W5 m ρ c (Proc.devRef .tc main_v51)) (W5 m ρ c (Proc.devRef .tc main_v16)) (W5 m ρ c (Proc.devRef .tc main_v74))
      (W5 m ρ c (Proc.devRef .tc main_v75)) (W5 m ρ c (Proc.devRef .tc main_v76)) (W5 m ρ c (Proc.devRef .tc main_v77)) (W5 m ρ c (Proc.devRef .tc main_v78)) = _
    rw [at5_arg1, at5_v51, at5_v16, at5_v74, at5_v75, at5_v76, at5_v77, at5_v78]; rfl))

/-- The edge bias onto items. -/
theorem at6_v16 (c : Dev nD) : W6 (F := Ideal) m ρ c (Proc.devRef .tc main_v16) = Chain.addI (inputs m c) :=
  (keep6_in m ρ c 2 rfl).trans (at5_v16 m ρ c)

/-- The edge bias onto users. -/
theorem at6_v29 (c : Dev nD) : W6 (F := Ideal) m ρ c (Proc.devRef .tc main_v29) = Chain.addU (inputs m c) :=
  (keep6 m ρ c main_v29 (by decide)).trans (at5_v29 m ρ c)

/-- Layer 0's aggregated item states at the users. -/
theorem at6_v73 (c : Dev nD) : W6 (F := Ideal) m ρ c (Proc.devRef .tc main_v73)
    = Chain.smean (Chain.gath (inputs m c).hItem (Chain.srcRow (inputs m c).eiBu)) (Chain.dstRow (inputs m c).eiBu) :=
  (keep6 m ρ c main_v73 (by decide)).trans (at5_v73 m ρ c)

/-- Argument 0 is still as launched. -/
theorem at6_arg0 (c : Dev nD) : W6 (F := Ideal) m ρ c (Proc.devRef .tc main_arg0) = m ((c.tc : Thread nD τ).loc main_arg0) :=
  (keep6 m ρ c main_arg0 (by decide)).trans ((keep5 m ρ c main_arg0 (by decide)).trans (at4_arg0 m ρ c))

/-- Argument 6 is still as launched. -/
theorem at6_arg6 (c : Dev nD) : W6 (F := Ideal) m ρ c (Proc.devRef .tc main_arg6) = m ((c.tc : Thread nD τ).loc main_arg6) :=
  (keep6 m ρ c main_arg6 (by decide)).trans ((keep5 m ρ c main_arg6 (by decide)).trans (at4_arg6 m ρ c))

/-- Argument 7 is still as launched. -/
theorem at6_arg7 (c : Dev nD) : W6 (F := Ideal) m ρ c (Proc.devRef .tc main_arg7) = m ((c.tc : Thread nD τ).loc main_arg7) :=
  (keep6 m ρ c main_arg7 (by decide)).trans ((keep5 m ρ c main_arg7 (by decide)).trans (at4_arg7 m ρ c))

/-- Argument 8 is still as launched. -/
theorem at6_arg8 (c : Dev nD) : W6 (F := Ideal) m ρ c (Proc.devRef .tc main_arg8) = m ((c.tc : Thread nD τ).loc main_arg8) :=
  (keep6 m ρ c main_arg8 (by decide)).trans ((keep5 m ρ c main_arg8 (by decide)).trans (at4_arg8 m ρ c))

/-- Argument 9 is still as launched. -/
theorem at6_arg9 (c : Dev nD) : W6 (F := Ideal) m ρ c (Proc.devRef .tc main_arg9) = m ((c.tc : Thread nD τ).loc main_arg9) :=
  (keep6 m ρ c main_arg9 (by decide)).trans ((keep5 m ρ c main_arg9 (by decide)).trans (at4_arg9 m ρ c))

/-- Argument 10 is still as launched. -/
theorem at6_arg10 (c : Dev nD) : W6 (F := Ideal) m ρ c (Proc.devRef .tc main_arg10) = m ((c.tc : Thread nD τ).loc main_arg10) :=
  (keep6 m ρ c main_arg10 (by decide)).trans ((keep5 m ρ c main_arg10 (by decide)).trans (at4_arg10 m ρ c))

/-- Argument 11 is still as launched. -/
theorem at6_arg11 (c : Dev nD) : W6 (F := Ideal) m ρ c (Proc.devRef .tc main_arg11) = m ((c.tc : Thread nD τ).loc main_arg11) :=
  (keep6 m ρ c main_arg11 (by decide)).trans ((keep5 m ρ c main_arg11 (by decide)).trans (at4_arg11 m ρ c))

/-- Argument 16 is still as launched. -/
theorem at6_arg16 (c : Dev nD) : W6 (F := Ideal) m ρ c (Proc.devRef .tc main_arg16) = m ((c.tc : Thread nD τ).loc main_arg16) :=
  (keep6 m ρ c main_arg16 (by decide)).trans ((keep5 m ρ c main_arg16 (by decide)).trans (at4_arg16 m ρ c))

/-- Argument 17 is still as launched. -/
theorem at6_arg17 (c : Dev nD) : W6 (F := Ideal) m ρ c (Proc.devRef .tc main_arg17) = m ((c.tc : Thread nD τ).loc main_arg17) :=
  (keep6 m ρ c main_arg17 (by decide)).trans ((keep5 m ρ c main_arg17 (by decide)).trans (at4_arg17 m ρ c))

/-- Argument 18 is still as launched. -/
theorem at6_arg18 (c : Dev nD) : W6 (F := Ideal) m ρ c (Proc.devRef .tc main_arg18) = m ((c.tc : Thread nD τ).loc main_arg18) :=
  (keep6 m ρ c main_arg18 (by decide)).trans ((keep5 m ρ c main_arg18 (by decide)).trans (at4_arg18 m ρ c))

/-- Argument 19 is still as launched. -/
theorem at6_arg19 (c : Dev nD) : W6 (F := Ideal) m ρ c (Proc.devRef .tc main_arg19) = m ((c.tc : Thread nD τ).loc main_arg19) :=
  (keep6 m ρ c main_arg19 (by decide)).trans ((keep5 m ρ c main_arg19 (by decide)).trans (at4_arg19 m ρ c))

/-- Argument 20 is still as launched. -/
theorem at6_arg20 (c : Dev nD) : W6 (F := Ideal) m ρ c (Proc.devRef .tc main_arg20) = m ((c.tc : Thread nD τ).loc main_arg20) :=
  (keep6 m ρ c main_arg20 (by decide)).trans ((keep5 m ρ c main_arg20 (by decide)).trans (at4_arg20 m ρ c))

/-- Argument 21 is still as launched. -/
theorem at6_arg21 (c : Dev nD) : W6 (F := Ideal) m ρ c (Proc.devRef .tc main_arg21) = m ((c.tc : Thread nD τ).loc main_arg21) :=
  (keep6 m ρ c main_arg21 (by decide)).trans ((keep5 m ρ c main_arg21 (by decide)).trans (at4_arg21 m ρ c))

end Cert.KernelValue

end
-- ==== Proof.KFold.lean ====
import proofs.«401930_j19567871000709_3_alg».proof.Proof.KFoldA

set_option maxRecDepth 16384

noncomputable section

namespace Cert.KernelValue

open Idealize.ShloMosaic Idealize.ShloMosaic.TcCoe Idealize.SL.Sem
open Idealize.ShloMosaic.Pipeline (Dat)
open Idealize.ShloMosaic.StableHlo
open Cert.KernelIdeal Cert.KernelIdeal.Gen

variable (m : (ℓ : Loc nD τ sig) → Buf (Elt Ideal) ℓ) (ρ : Dev nD → PrngReg)

/-! ## Before region 3: the five host operations that cut the item→user weight matrix of layer 0 into its two halves and
    turn its bias and the users' normalisation vectors into one-row matrices. Every other buffer is as region 2 left it. -/

/-- The buffers those five operations write, in order. -/
abbrev hostOps3_W : List (Ref sig .tc) := [main_v80, main_v81, main_v82, main_v83, main_v84]

theorem hostOps3_writes : (hostOps3 : List (HloOp τ sig (Elt Ideal))).Forall fun op => op.writes ⊆ (hostOps3_W.map (Proc.devRef (τ := τ) .tc)).toFinset := by
  simp only [hostOps3, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer outside that list holds what it held before them. -/
theorem W7_keep (c : Dev nD) (r : Ref sig .tc) (h : r ∉ hostOps3_W) :
    W7 (F := Ideal) m ρ c (Proc.devRef .tc r) = W6 (F := Ideal) m ρ c (Proc.devRef .tc r) :=
  after_of_writes_sub hostOps3 _ hostOps3_writes h

/-- Rows 0..255 of argument 6. -/
theorem at7_v80 (c : Dev nD) : W7 (F := Ideal) m ρ c (Proc.devRef .tc main_v80) = Chain.wtop (inputs m c).w0Bu := by
  show StableHlo.after hostOps3 (W6 (F := Ideal) m ρ c) (Proc.devRef .tc main_v80) = _
  simp only [hostOps3]
  after_results
  rw [at6_arg6]
  rfl

/-- Rows 256..511 of argument 6. -/
theorem at7_v81 (c : Dev nD) : W7 (F := Ideal) m ρ c (Proc.devRef .tc main_v81) = Chain.wbot (inputs m c).w0Bu := by
  show StableHlo.after hostOps3 (W6 (F := Ideal) m ρ c) (Proc.devRef .tc main_v81) = _
  simp only [hostOps3]
  after_results
  rw [at6_arg6]
  rfl

/-- Argument 7 as a one-row matrix. -/
theorem at7_v82 (c : Dev nD) : W7 (F := Ideal) m ρ c (Proc.devRef .tc main_v82) = Chain.row (inputs m c).b0Bu := by
  show StableHlo.after hostOps3 (W6 (F := Ideal) m ρ c) (Proc.devRef .tc main_v82) = _
  simp only [hostOps3]
  after_results
  rw [at6_arg7]
  rfl

/-- Argument 16 as a one-row matrix. -/
theorem at7_v83 (c : Dev nD) : W7 (F := Ideal) m ρ c (Proc.devRef .tc main_v83) = Chain.row (inputs m c).gU := by
  show StableHlo.after hostOps3 (W6 (F := Ideal) m ρ c) (Proc.devRef .tc main_v83) = _
  simp only [hostOps3]
  after_results
  rw [at6_arg16]
  rfl

/-- Argument 17 as a one-row matrix. -/
theorem at7_v84 (c : Dev nD) : W7 (F := Ideal) m ρ c (Proc.devRef .tc main_v84) = Chain.row (inputs m c).betaU := by
  show StableHlo.after hostOps3 (W6 (F := Ideal) m ρ c) (Proc.devRef .tc main_v84) = _
  simp only [hostOps3]
  after_results
  rw [at6_arg17]
  rfl

theorem at7_arg0 (c : Dev nD) : W7 (F := Ideal) m ρ c (Proc.devRef .tc main_arg0) = m ((c.tc : Thread nD τ).loc main_arg0) :=
  (W7_keep m ρ c main_arg0 (by decide)).trans (at6_arg0 m ρ c)

theorem at7_v73 (c : Dev nD) : W7 (F := Ideal) m ρ c (Proc.devRef .tc main_v73)
    = Chain.smean (Chain.gath (inputs m c).hItem (Chain.srcRow (inputs m c).eiBu)) (Chain.dstRow (inputs m c).eiBu) :=
  (W7_keep m ρ c main_v73 (by decide)).trans (at6_v73 m ρ c)

theorem at7_v29 (c : Dev nD) : W7 (F := Ideal) m ρ c (Proc.devRef .tc main_v29) = Chain.addU (inputs m c) :=
  (W7_keep m ρ c main_v29 (by decide)).trans (at6_v29 m ρ c)

theorem at7_v79 (c : Dev nD) : W7 (F := Ideal) m ρ c (Proc.devRef .tc main_v79) = Chain.hi1 (inputs m c) :=
  (W7_keep m ρ c main_v79 (by decide)).trans (at6_v79 m ρ c)

theorem at7_v16 (c : Dev nD) : W7 (F := Ideal) m ρ c (Proc.devRef .tc main_v16) = Chain.addI (inputs m c) :=
  (W7_keep m ρ c main_v16 (by decide)).trans (at6_v16 m ρ c)

theorem at7_arg8 (c : Dev nD) : W7 (F := Ideal) m ρ c (Proc.devRef .tc main_arg8) = m ((c.tc : Thread nD τ).loc main_arg8) :=
  (W7_keep m ρ c main_arg8 (by decide)).trans (at6_arg8 m ρ c)

theorem at7_arg9 (c : Dev nD) : W7 (F := Ideal) m ρ c (Proc.devRef .tc main_arg9) = m ((c.tc : Thread nD τ).loc main_arg9) :=
  (W7_keep m ρ c main_arg9 (by decide)).trans (at6_arg9 m ρ c)

theorem at7_arg10 (c : Dev nD) : W7 (F := Ideal) m ρ c (Proc.devRef .tc main_arg10) = m ((c.tc : Thread nD τ).loc main_arg10) :=
  (W7_keep m ρ c main_arg10 (by decide)).trans (at6_arg10 m ρ c)

theorem at7_arg11 (c : Dev nD) : W7 (F := Ideal) m ρ c (Proc.devRef .tc main_arg11) = m ((c.tc : Thread nD τ).loc main_arg11) :=
  (W7_keep m ρ c main_arg11 (by decide)).trans (at6_arg11 m ρ c)

theorem at7_arg16 (c : Dev nD) : W7 (F := Ideal) m ρ c (Proc.devRef .tc main_arg16) = m ((c.tc : Thread nD τ).loc main_arg16) :=
  (W7_keep m ρ c main_arg16 (by decide)).trans (at6_arg16 m ρ c)

theorem at7_arg17 (c : Dev nD) : W7 (F := Ideal) m ρ c (Proc.devRef .tc main_arg17) = m ((c.tc : Thread nD τ).loc main_arg17) :=
  (W7_keep m ρ c main_arg17 (by decide)).trans (at6_arg17 m ρ c)

theorem at7_arg18 (c : Dev nD) : W7 (F := Ideal) m ρ c (Proc.devRef .tc main_arg18) = m ((c.tc : Thread nD τ).loc main_arg18) :=
  (W7_keep m ρ c main_arg18 (by decide)).trans (at6_arg18 m ρ c)

theorem at7_arg19 (c : Dev nD) : W7 (F := Ideal) m ρ c (Proc.devRef .tc main_arg19) = m ((c.tc : Thread nD τ).loc main_arg19) :=
  (W7_keep m ρ c main_arg19 (by decide)).trans (at6_arg19 m ρ c)

theorem at7_arg20 (c : Dev nD) : W7 (F := Ideal) m ρ c (Proc.devRef .tc main_arg20) = m ((c.tc : Thread nD τ).loc main_arg20) :=
  (W7_keep m ρ c main_arg20 (by decide)).trans (at6_arg20 m ρ c)

theorem at7_arg21 (c : Dev nD) : W7 (F := Ideal) m ρ c (Proc.devRef .tc main_arg21) = m ((c.tc : Thread nD τ).loc main_arg21) :=
  (W7_keep m ρ c main_arg21 (by decide)).trans (at6_arg21 m ρ c)

/-! ## After region 3 (layer 0, users): its output array holds the layer function of its eight input arrays, which are
    the users' launch states, the items' states gathered along the item→user edges and averaged per user, the edge bias
    onto users, and the five weight pieces just made. The region's input arrays and every buffer outside it are unchanged. -/

/-- The user states after layer 0. -/
theorem at8_v85 (c : Dev nD) : W8 (F := Ideal) m ρ c (Proc.devRef .tc main_v85) = Chain.hu1 (inputs m c) := by
  refine ((W8_arr m ρ c 8).trans (final3 (V7 m ρ) c)).trans ?_
  show Spec.layer (W7 (F := Ideal) m ρ c (Proc.devRef .tc main_arg0)) (W7 (F := Ideal) m ρ c (Proc.devRef .tc main_v73))
      (W7 (F := Ideal) m ρ c (Proc.devRef .tc main_v29)) (W7 (F := Ideal) m ρ c (Proc.devRef .tc main_v80))
      (W7 (F := Ideal) m ρ c (Proc.devRef .tc main_v81)) (W7 (F := Ideal) m ρ c (Proc.devRef .tc main_v82))
      (W7 (F := Ideal) m ρ c (Proc.devRef .tc main_v83)) (W7 (F := Ideal) m ρ c (Proc.devRef .tc main_v84)) = _
  rw [at7_arg0, at7_v73, at7_v29, at7_v80, at7_v81, at7_v82, at7_v83, at7_v84]
  rfl

theorem at8_v79 (c : Dev nD) : W8 (F := Ideal) m ρ c (Proc.devRef .tc main_v79) = Chain.hi1 (inputs m c) :=
  (W8_of_ne m ρ c main_v79 (by decide)).trans (at7_v79 m ρ c)

theorem at8_v16 (c : Dev nD) : W8 (F := Ideal) m ρ c (Proc.devRef .tc main_v16) = Chain.addI (inputs m c) :=
  (W8_of_ne m ρ c main_v16 (by decide)).trans (at7_v16 m ρ c)

/-- The edge bias onto users is one of region 3's input arrays: an input array ends as it was found. -/
theorem at8_v29 (c : Dev nD) : W8 (F := Ideal) m ρ c (Proc.devRef .tc main_v29) = Chain.addU (inputs m c) :=
  (W8_arr m ρ c 2).trans ((((dat3 (V7 m ρ) c).arrAt_in 2 rfl _).trans (A_eq3 (V7 m ρ) c 2)).trans (at7_v29 m ρ c))

theorem at8_arg8 (c : Dev nD) : W8 (F := Ideal) m ρ c (Proc.devRef .tc main_arg8) = m ((c.tc : Thread nD τ).loc main_arg8) :=
  (W8_of_ne m ρ c main_arg8 (by decide)).trans (at7_arg8 m ρ c)

theorem at8_arg9 (c : Dev nD) : W8 (F := Ideal) m ρ c (Proc.devRef .tc main_arg9) = m ((c.tc : Thread nD τ).loc main_arg9) :=
  (W8_of_ne m ρ c main_arg9 (by decide)).trans (at7_arg9 m ρ c)

theorem at8_arg10 (c : Dev nD) : W8 (F := Ideal) m ρ c (Proc.devRef .tc main_arg10) = m ((c.tc : Thread nD τ).loc main_arg10) :=
  (W8_of_ne m ρ c main_arg10 (by decide)).trans (at7_arg10 m ρ c)

theorem at8_arg11 (c : Dev nD) : W8 (F := Ideal) m ρ c (Proc.devRef .tc main_arg11) = m ((c.tc : Thread nD τ).loc main_arg11) :=
  (W8_of_ne m ρ c main_arg11 (by decide)).trans (at7_arg11 m ρ c)

theorem at8_arg16 (c : Dev nD) : W8 (F := Ideal) m ρ c (Proc.devRef .tc main_arg16) = m ((c.tc : Thread nD τ).loc main_arg16) :=
  (W8_of_ne m ρ c main_arg16 (by decide)).trans (at7_arg16 m ρ c)

theorem at8_arg17 (c : Dev nD) : W8 (F := Ideal) m ρ c (Proc.devRef .tc main_arg17) = m ((c.tc : Thread nD τ).loc main_arg17) :=
  (W8_of_ne m ρ c main_arg17 (by decide)).trans (at7_arg17 m ρ c)

theorem at8_arg18 (c : Dev nD) : W8 (F := Ideal) m ρ c (Proc.devRef .tc main_arg18) = m ((c.tc : Thread nD τ).loc main_arg18) :=
  (W8_of_ne m ρ c main_arg18 (by decide)).trans (at7_arg18 m ρ c)

theorem at8_arg19 (c : Dev nD) : W8 (F := Ideal) m ρ c (Proc.devRef .tc main_arg19) = m ((c.tc : Thread nD τ).loc main_arg19) :=
  (W8_of_ne m ρ c main_arg19 (by decide)).trans (at7_arg19 m ρ c)

theorem at8_arg20 (c : Dev nD) : W8 (F := Ideal) m ρ c (Proc.devRef .tc main_arg20) = m ((c.tc : Thread nD τ).loc main_arg20) :=
  (W8_of_ne m ρ c main_arg20 (by decide)).trans (at7_arg20 m ρ c)

theorem at8_arg21 (c : Dev nD) : W8 (F := Ideal) m ρ c (Proc.devRef .tc main_arg21) = m ((c.tc : Thread nD τ).loc main_arg21) :=
  (W8_of_ne m ρ c main_arg21 (by decide)).trans (at7_arg21 m ρ c)

/-! ## Before region 4: the sixty-one host operations of layer 1's aggregation. The new user states are gathered along
    the user→item edges (row 0 of the edge list, a negative index wrapped once) and averaged per item (the scattered sum
    by row 1 over the scattered count clamped below by one); the new item states likewise along the item→user edges; then
    the user→item weight matrix of layer 1 is cut into its halves and its bias and the items' normalisation vectors become
    one-row matrices. -/

/-- The buffers those operations write, in order. -/
abbrev hostOps4_W : List (Ref sig .tc) :=
  [main_v86, main_v87, main_c_18, main_v88, main_v89, main_c_19, main_v90, main_v91, main_v92, main_v93, main_v94,
   main_v95, main_v96, main_cst_20, main_v97, main_v98, main_v99, main_cst_21, main_v100, main_cst_22, main_v101,
   main_v102, main_v103, main_cst_23, main_v104, main_v105, main_v106, main_v107,
   main_v108, main_v109, main_c_24, main_v110, main_v111, main_c_25, main_v112, main_v113, main_v114, main_v115, main_v116,
   main_v117, main_v118, main_cst_26, main_v119, main_v120, main_v121, main_cst_27, main_v122, main_cst_28, main_v123,
   main_v124, main_v125, main_cst_29, main_v126, main_v127, main_v128, main_v129,
   main_v130, main_v131, main_v132, main_v133, main_v134]

set_option maxHeartbeats 2000000 in
theorem hostOps4_writes : (hostOps4 : List (HloOp τ sig (Elt Ideal))).Forall fun op => op.writes ⊆ (hostOps4_W.map (Proc.devRef (τ := τ) .tc)).toFinset := by
  simp only [hostOps4, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer outside that list holds what it held before them. -/
theorem W9_keep (c : Dev nD) (r : Ref sig .tc) (h : r ∉ hostOps4_W) :
    W9 (F := Ideal) m ρ c (Proc.devRef .tc r) = W8 (F := Ideal) m ρ c (Proc.devRef .tc r) :=
  after_of_writes_sub hostOps4 _ hostOps4_writes h

set_option maxHeartbeats 2000000 in
/-- The new user states aggregated at the items. -/
theorem at9_v107 (c : Dev nD) : W9 (F := Ideal) m ρ c (Proc.devRef .tc main_v107)
    = Chain.smean (Chain.gath (Chain.hu1 (inputs m c)) (Chain.srcRow (inputs m c).eiUb)) (Chain.dstRow (inputs m c).eiUb) := by
  show StableHlo.after hostOps4 (W8 (F := Ideal) m ρ c) (Proc.devRef .tc main_v107) = _
  simp only [hostOps4]
  after_results_simp
  rw [at8_v85, at8_arg20]
  rfl

set_option maxHeartbeats 2000000 in
/-- The new item states aggregated at the users. -/
theorem at9_v129 (c : Dev nD) : W9 (F := Ideal) m ρ c (Proc.devRef .tc main_v129)
    = Chain.smean (Chain.gath (Chain.hi1 (inputs m c)) (Chain.srcRow (inputs m c).eiBu)) (Chain.dstRow (inputs m c).eiBu) := by
  show StableHlo.after hostOps4 (W8 (F := Ideal) m ρ c) (Proc.devRef .tc main_v129) = _
  simp only [hostOps4]
  after_results_simp
  rw [at8_v79, at8_arg21]
  rfl

set_option maxHeartbeats 2000000 in
/-- Rows 0..255 of argument 8. -/
theorem at9_v130 (c : Dev nD) : W9 (F := Ideal) m ρ c (Proc.devRef .tc main_v130) = Chain.wtop (inputs m c).w1Ub := by
  show StableHlo.after hostOps4 (W8 (F := Ideal) m ρ c) (Proc.devRef .tc main_v130) = _
  simp only [hostOps4]
  after_results_simp
  rw [at8_arg8]
  rfl

set_option maxHeartbeats 2000000 in
/-- Rows 256..511 of argument 8. -/
theorem at9_v131 (c : Dev nD) : W9 (F := Ideal) m ρ c (Proc.devRef .tc main_v131) = Chain.wbot (inputs m c).w1Ub := by
  show StableHlo.after hostOps4 (W8 (F := Ideal) m ρ c) (Proc.devRef .tc main_v131) = _
  simp only [hostOps4]
  after_results_simp
  rw [at8_arg8]
  rfl

set_option maxHeartbeats 2000000 in
/-- Argument 9 as a one-row matrix. -/
theorem at9_v132 (c : Dev nD) : W9 (F := Ideal) m ρ c (Proc.devRef .tc main_v132) = Chain.row (inputs m c).b1Ub := by
  show StableHlo.after hostOps4 (W8 (F := Ideal) m ρ c) (Proc.devRef .tc main_v132) = _
  simp only [hostOps4]
  after_results_simp
  rw [at8_arg9]
  rfl

set_option maxHeartbeats 2000000 in
/-- Argument 18 as a one-row matrix. -/
theorem at9_v133 (c : Dev nD) : W9 (F := Ideal) m ρ c (Proc.devRef .tc main_v133) = Chain.row (inputs m c).gI := by
  show StableHlo.after hostOps4 (W8 (F := Ideal) m ρ c) (Proc.devRef .tc main_v133) = _
  simp only [hostOps4]
  after_results_simp
  rw [at8_arg18]
  rfl

set_option maxHeartbeats 2000000 in
/-- Argument 19 as a one-row matrix. -/
theorem at9_v134 (c : Dev nD) : W9 (F := Ideal) m ρ c (Proc.devRef .tc main_v134) = Chain.row (inputs m c).betaI := by
  show StableHlo.after hostOps4 (W8 (F := Ideal) m ρ c) (Proc.devRef .tc main_v134) = _
  simp only [hostOps4]
  after_results_simp
  rw [at8_arg19]
  rfl

theorem at9_v79 (c : Dev nD) : W9 (F := Ideal) m ρ c (Proc.devRef .tc main_v79) = Chain.hi1 (inputs m c) :=
  (W9_keep m ρ c main_v79 (by decide)).trans (at8_v79 m ρ c)

theorem at9_v16 (c : Dev nD) : W9 (F := Ideal) m ρ c (Proc.devRef .tc main_v16) = Chain.addI (inputs m c) :=
  (W9_keep m ρ c main_v16 (by decide)).trans (at8_v16 m ρ c)

theorem at9_v85 (c : Dev nD) : W9 (F := Ideal) m ρ c (Proc.devRef .tc main_v85) = Chain.hu1 (inputs m c) :=
  (W9_keep m ρ c main_v85 (by decide)).trans (at8_v85 m ρ c)

theorem at9_v29 (c : Dev nD) : W9 (F := Ideal) m ρ c (Proc.devRef .tc main_v29) = Chain.addU (inputs m c) :=
  (W9_keep m ρ c main_v29 (by decide)).trans (at8_v29 m ρ c)

theorem at9_arg10 (c : Dev nD) : W9 (F := Ideal) m ρ c (Proc.devRef .tc main_arg10) = m ((c.tc : Thread nD τ).loc main_arg10) :=
  (W9_keep m ρ c main_arg10 (by decide)).trans (at8_arg10 m ρ c)

theorem at9_arg11 (c : Dev nD) : W9 (F := Ideal) m ρ c (Proc.devRef .tc main_arg11) = m ((c.tc : Thread nD τ).loc main_arg11) :=
  (W9_keep m ρ c main_arg11 (by decide)).trans (at8_arg11 m ρ c)

theorem at9_arg16 (c : Dev nD) : W9 (F := Ideal) m ρ c (Proc.devRef .tc main_arg16) = m ((c.tc : Thread nD τ).loc main_arg16) :=
  (W9_keep m ρ c main_arg16 (by decide)).trans (at8_arg16 m ρ c)

theorem at9_arg17 (c : Dev nD) : W9 (F := Ideal) m ρ c (Proc.devRef .tc main_arg17) = m ((c.tc : Thread nD τ).loc main_arg17) :=
  (W9_keep m ρ c main_arg17 (by decide)).trans (at8_arg17 m ρ c)

/-! ## After region 4 (layer 1, items): its output array holds the layer function of the item states after layer 0, the
    new user states aggregated at the items, the edge bias onto items, and the five weight pieces just made. None of the
    buffers the last region reads is one of this region's arrays. -/

/-- The item states after layer 1. -/
theorem at10_v135 (c : Dev nD) : W10 (F := Ideal) m ρ c (Proc.devRef .tc main_v135) = Chain.hi2 (inputs m c) := by
  refine ((W10_arr m ρ c 8).trans (final4 (V9 m ρ) c)).trans ?_
  show Spec.layer (W9 (F := Ideal) m ρ c (Proc.devRef .tc main_v79)) (W9 (F := Ideal) m ρ c (Proc.devRef .tc main_v107))
      (W9 (F := Ideal) m ρ c (Proc.devRef .tc main_v16)) (W9 (F := Ideal) m ρ c (Proc.devRef .tc main_v130))
      (W9 (F := Ideal) m ρ c (Proc.devRef .tc main_v131)) (W9 (F := Ideal) m ρ c (Proc.devRef .tc main_v132))
      (W9 (F := Ideal) m ρ c (Proc.devRef .tc main_v133)) (W9 (F := Ideal) m ρ c (Proc.devRef .tc main_v134)) = _
  rw [at9_v79, at9_v107, at9_v16, at9_v130, at9_v131, at9_v132, at9_v133, at9_v134]
  rfl

theorem at10_v85 (c : Dev nD) : W10 (F := Ideal) m ρ c (Proc.devRef .tc main_v85) = Chain.hu1 (inputs m c) :=
  (W10_of_ne m ρ c main_v85 (by decide)).trans (at9_v85 m ρ c)

theorem at10_v129 (c : Dev nD) : W10 (F := Ideal) m ρ c (Proc.devRef .tc main_v129)
    = Chain.smean (Chain.gath (Chain.hi1 (inputs m c)) (Chain.srcRow (inputs m c).eiBu)) (Chain.dstRow (inputs m c).eiBu) :=
  (W10_of_ne m ρ c main_v129 (by decide)).trans (at9_v129 m ρ c)

theorem at10_v29 (c : Dev nD) : W10 (F := Ideal) m ρ c (Proc.devRef .tc main_v29) = Chain.addU (inputs m c) :=
  (W10_of_ne m ρ c main_v29 (by decide)).trans (at9_v29 m ρ c)

theorem at10_arg10 (c : Dev nD) : W10 (F := Ideal) m ρ c (Proc.devRef .tc main_arg10) = m ((c.tc : Thread nD τ).loc main_arg10) :=
  (W10_of_ne m ρ c main_arg10 (by decide)).trans (at9_arg10 m ρ c)

theorem at10_arg11 (c : Dev nD) : W10 (F := Ideal) m ρ c (Proc.devRef .tc main_arg11) = m ((c.tc : Thread nD τ).loc main_arg11) :=
  (W10_of_ne m ρ c main_arg11 (by decide)).trans (at9_arg11 m ρ c)

theorem at10_arg16 (c : Dev nD) : W10 (F := Ideal) m ρ c (Proc.devRef .tc main_arg16) = m ((c.tc : Thread nD τ).loc main_arg16) :=
  (W10_of_ne m ρ c main_arg16 (by decide)).trans (at9_arg16 m ρ c)

theorem at10_arg17 (c : Dev nD) : W10 (F := Ideal) m ρ c (Proc.devRef .tc main_arg17) = m ((c.tc : Thread nD τ).loc main_arg17) :=
  (W10_of_ne m ρ c main_arg17 (by decide)).trans (at9_arg17 m ρ c)

/-! ## Before region 5: the five host operations that cut the item→user weight matrix of layer 1 into its halves and turn
    its bias and the users' normalisation vectors into one-row matrices. -/

/-- The buffers those five operations write, in order. -/
abbrev hostOps5_W : List (Ref sig .tc) := [main_v136, main_v137, main_v138, main_v139, main_v140]

theorem hostOps5_writes : (hostOps5 : List (HloOp τ sig (Elt Ideal))).Forall fun op => op.writes ⊆ (hostOps5_W.map (Proc.devRef (τ := τ) .tc)).toFinset := by
  simp only [hostOps5, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer outside that list holds what it held before them. -/
theorem W11_keep (c : Dev nD) (r : Ref sig .tc) (h : r ∉ hostOps5_W) :
    W11 (F := Ideal) m ρ c (Proc.devRef .tc r) = W10 (F := Ideal) m ρ c (Proc.devRef .tc r) :=
  after_of_writes_sub hostOps5 _ hostOps5_writes h

/-- Rows 0..255 of argument 10. -/
theorem at11_v136 (c : Dev nD) : W11 (F := Ideal) m ρ c (Proc.devRef .tc main_v136) = Chain.wtop (inputs m c).w1Bu := by
  show StableHlo.after hostOps5 (W10 (F := Ideal) m ρ c) (Proc.devRef .tc main_v136) = _
  simp only [hostOps5]
  after_results
  rw [at10_arg10]
  rfl

/-- Rows 256..511 of argument 10. -/
theorem at11_v137 (c : Dev nD) : W11 (F := Ideal) m ρ c (Proc.devRef .tc main_v137) = Chain.wbot (inputs m c).w1Bu := by
  show StableHlo.after hostOps5 (W10 (F := Ideal) m ρ c) (Proc.devRef .tc main_v137) = _
  simp only [hostOps5]
  after_results
  rw [at10_arg10]
  rfl

/-- Argument 11 as a one-row matrix. -/
theorem at11_v138 (c : Dev nD) : W11 (F := Ideal) m ρ c (Proc.devRef .tc main_v138) = Chain.row (inputs m c).b1Bu := by
  show StableHlo.after hostOps5 (W10 (F := Ideal) m ρ c) (Proc.devRef .tc main_v138) = _
  simp only [hostOps5]
  after_results
  rw [at10_arg11]
  rfl

/-- Argument 16 as a one-row matrix. -/
theorem at11_v139 (c : Dev nD) : W11 (F := Ideal) m ρ c (Proc.devRef .tc main_v139) = Chain.row (inputs m c).gU := by
  show StableHlo.after hostOps5 (W10 (F := Ideal) m ρ c) (Proc.devRef .tc main_v139) = _
  simp only [hostOps5]
  after_results
  rw [at10_arg16]
  rfl

/-- Argument 17 as a one-row matrix. -/
theorem at11_v140 (c : Dev nD) : W11 (F := Ideal) m ρ c (Proc.devRef .tc main_v140) = Chain.row (inputs m c).betaU := by
  show StableHlo.after hostOps5 (W10 (F := Ideal) m ρ c) (Proc.devRef .tc main_v140) = _
  simp only [hostOps5]
  after_results
  rw [at10_arg17]
  rfl

theorem at11_v85 (c : Dev nD) : W11 (F := Ideal) m ρ c (Proc.devRef .tc main_v85) = Chain.hu1 (inputs m c) :=
  (W11_keep m ρ c main_v85 (by decide)).trans (at10_v85 m ρ c)

theorem at11_v129 (c : Dev nD) : W11 (F := Ideal) m ρ c (Proc.devRef .tc main_v129)
    = Chain.smean (Chain.gath (Chain.hi1 (inputs m c)) (Chain.srcRow (inputs m c).eiBu)) (Chain.dstRow (inputs m c).eiBu) :=
  (W11_keep m ρ c main_v129 (by decide)).trans (at10_v129 m ρ c)

theorem at11_v29 (c : Dev nD) : W11 (F := Ideal) m ρ c (Proc.devRef .tc main_v29) = Chain.addU (inputs m c) :=
  (W11_keep m ρ c main_v29 (by decide)).trans (at10_v29 m ρ c)

theorem at11_v135 (c : Dev nD) : W11 (F := Ideal) m ρ c (Proc.devRef .tc main_v135) = Chain.hi2 (inputs m c) :=
  (W11_keep m ρ c main_v135 (by decide)).trans (at10_v135 m ρ c)

/-! ## After region 5 (layer 1, users): its output array holds the layer function of the user states after layer 0, the
    new item states aggregated at the users, the edge bias onto users, and the five weight pieces just made. The item
    states after layer 1 lie outside this region. -/

/-- The user states after layer 1. -/
theorem at12_v141 (c : Dev nD) : W12 (F := Ideal) m ρ c (Proc.devRef .tc main_v141) = Chain.hu2 (inputs m c) := by
  refine ((W12_arr m ρ c 8).trans (final5 (V11 m ρ) c)).trans ?_
  show Spec.layer (W11 (F := Ideal) m ρ c (Proc.devRef .tc main_v85)) (W11 (F := Ideal) m ρ c (Proc.devRef .tc main_v129))
      (W11 (F := Ideal) m ρ c (Proc.devRef .tc main_v29)) (W11 (F := Ideal) m ρ c (Proc.devRef .tc main_v136))
      (W11 (F := Ideal) m ρ c (Proc.devRef .tc main_v137)) (W11 (F := Ideal) m ρ c (Proc.devRef .tc main_v138))
      (W11 (F := Ideal) m ρ c (Proc.devRef .tc main_v139)) (W11 (F := Ideal) m ρ c (Proc.devRef .tc main_v140)) = _
  rw [at11_v85, at11_v129, at11_v29, at11_v136, at11_v137, at11_v138, at11_v139, at11_v140]
  rfl

theorem at12_v135 (c : Dev nD) : W12 (F := Ideal) m ρ c (Proc.devRef .tc main_v135) = Chain.hi2 (inputs m c) :=
  (W12_of_ne m ρ c main_v135 (by decide)).trans (at11_v135 m ρ c)

/-! ## The last three host operations give each final state a new leading axis of length one and stack the two, users first. -/

/-- The result buffer's contents at the last segment boundary: the whole computation `Chain.result` of the launch
    contents of the arguments. -/
theorem result_eq (c : Dev nD) :
    W13 (F := Ideal) m ρ c (Proc.devRef .tc main_v144) = Chain.result (inputs m c) := by
  show StableHlo.after hostOps6 (W12 (F := Ideal) m ρ c) (Proc.devRef .tc main_v144) = _
  simp only [hostOps6]
  after_results
  rw [at12_v141, at12_v135]
  rfl

end Cert.KernelValue

end
-- ==== Proof.RefBridge.lean ====
/-
  The reference's two dense stages, as it spells them on the host, are the functions of `Spec`:
  `et @ Wem + bem` (a dot_general over the 32 features plus the bias broadcast along the rows) is `Spec.embed`, and
  the layer norm of `concatenate [h, agg] @ W + b + add` is `Spec.layer` with `W` cut into its two 256-row halves —
  the sum over the 512 concatenated features is the sum over the first 256 plus the sum over the last 256, a
  regrouping of a finite sum of extended reals, which needs no finiteness.
-/
import proofs.«401930_j19567871000709_3_alg».proof.ReferenceIdeal
import proofs.«401930_j19567871000709_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.KernelVsHost
import Idealize.ShloMosaic.Lib.StackMember

noncomputable section

namespace Cert.RefValue

open Idealize.ShloMosaic Idealize.ShloMosaic.ValueIdx
open Cert.ReferenceIdeal

/-- A 256 × 256 half of a weight matrix (the reference itself never cuts one). -/
abbrev S256x256 : Shape := ⟨2, ![256, 256]⟩

variable [Cert.ReferenceIdeal.Facts]
open Cert.ReferenceIdeal.Facts₀ Cert.ReferenceIdeal.Facts

/-- The reference's edge embedding: `et @ Wem + bem`. -/
def refEmbed (et : FVec Ideal S500000x32 .f32) (w : FVec Ideal S32x256 .f32) (b : FVec Ideal S256 .f32) : FVec Ideal S500000x256 .f32 :=
  addf (F := Ideal) (φ := .f32) (Host.dotGeneral (F := Ideal) dot_S500000x32_S32x256_S500000x256_1_0_0_1_n_n none et w)
    (broadcastInDim S500000x256 ![0, 1] bcast_S1x256_S500000x256_0_1 (broadcastInDim S1x256 ![1] bcast_S256_S1x256_1 b))

/-- The reference's pre-normalisation state: `concatenate [h, agg] @ W + b + add`. -/
def refPre (h agg add : FVec Ideal S50000x256 .f32) (w : FVec Ideal S512x256 .f32) (b : FVec Ideal S256 .f32) : FVec Ideal S50000x256 .f32 :=
  addf (F := Ideal) (φ := .f32) (addf (F := Ideal) (φ := .f32) (Host.dotGeneral (F := Ideal) dot_S50000x512_S512x256_S50000x256_1_0_0_1_n_n none
      (concatenate (α := Ideal .f32) S50000x512 1 [⟨S50000x256, h⟩, ⟨S50000x256, agg⟩] concatenates_S50000x256_S50000x256_S50000x512_d1) w)
    (broadcastInDim S50000x256 ![0, 1] bcast_S1x256_S50000x256_0_1 (broadcastInDim S1x256 ![1] bcast_S256_S1x256_1 b))) add

/-- The reference's row mean, kept as a column. -/
def refMean (y : FVec Ideal S50000x256 .f32) : FVec Ideal S50000x1 .f32 :=
  Host.divf (F := Ideal) (φ := .f32) (broadcastInDim S50000x1 ![0] bcast_S50000_S50000x1_0
      (Host.reduceAdd (F := Ideal) (φ := .f32) y (constant (F := Ideal) S_ .f32 0x00000000#32) reducesTo_S50000x256_S50000_d1 h_S_))
    (broadcastInDim S50000x1 ![] bcast_S_S50000x1 (constant (F := Ideal) S_ .f32 0x43800000#32))

/-- The reference's deviation from the row mean. -/
def refDev (y : FVec Ideal S50000x256 .f32) : FVec Ideal S50000x256 .f32 :=
  subf (F := Ideal) (φ := .f32) y (broadcastInDim S50000x256 ![0, 1] bcast_S50000x1_S50000x256_0_1 (refMean y))

/-- The reference's layer norm of `y` with scale `g` and shift `beta`. -/
def refLN (y : FVec Ideal S50000x256 .f32) (g beta : FVec Ideal S256 .f32) : FVec Ideal S50000x256 .f32 :=
  addf (F := Ideal) (φ := .f32) (mulf (F := Ideal) (φ := .f32) (mulf (F := Ideal) (φ := .f32)
      (subf (F := Ideal) (φ := .f32) y (broadcastInDim S50000x256 ![0, 1] bcast_S50000x1_S50000x256_0_1 (refMean y)))
      (broadcastInDim S50000x256 ![0, 1] bcast_S50000x1_S50000x256_0_1
        (Host.rsqrt (F := Ideal) (φ := .f32) (addf (F := Ideal) (φ := .f32)
          (Host.divf (F := Ideal) (φ := .f32) (broadcastInDim S50000x1 ![0] bcast_S50000_S50000x1_0
              (Host.reduceAdd (F := Ideal) (φ := .f32) (mulf (F := Ideal) (φ := .f32) (refDev y) (refDev y)) (constant (F := Ideal) S_ .f32 0x00000000#32) reducesTo_S50000x256_S50000_d1 h_S_))
            (broadcastInDim S50000x1 ![] bcast_S_S50000x1 (constant (F := Ideal) S_ .f32 0x43800000#32)))
          (broadcastInDim S50000x1 ![] bcast_S_S50000x1 (constant (F := Ideal) S_ .f32 0x3727C5AC#32))))))
      (broadcastInDim S50000x256 ![0, 1] bcast_S1x256_S50000x256_0_1 (broadcastInDim S1x256 ![1] bcast_S256_S1x256_1 g)))
    (broadcastInDim S50000x256 ![0, 1] bcast_S1x256_S50000x256_0_1 (broadcastInDim S1x256 ![1] bcast_S256_S1x256_1 beta))

/-! ## The pieces, each read at one index -/

/-- The embedding's contraction record is the plain rows-by-columns product: it contracts the left operand's columns
    with the right operand's rows and has no batch axis. -/
theorem dotEmbed_eq : dot_S500000x32_S32x256_S500000x256_1_0_0_1_n_n = DotDims.plain 500000 32 256 := rfl

/-- So is the dense layer's, over the 512 concatenated features. -/
theorem dotLayer_eq : dot_S50000x512_S512x256_S50000x256_1_0_0_1_n_n = DotDims.plain 50000 512 256 := rfl

/-- A vector of 256 made a one-row matrix reads, at (0, j), the vector at j. -/
theorem row_apply (b : FVec Ideal S256 .f32) (j : Fin 256) :
    broadcastInDim S1x256 ![1] bcast_S256_S1x256_1 b (ix2 (0 : Fin 1) j) = b (ix1 j) := by
  refine broadcastInDim_apply (![1] : Fin S256.rank → Fin S1x256.rank) bcast_S256_S1x256_1 b (ix2 (0 : Fin 1) j) (ix1 j) ?_
  intro a
  fin_cases a
  show j.val = if (256 : ℕ) = 1 then 0 else j.val
  rw [if_neg (by decide)]

/-- The same one-row matrix by a change of shape: the bias as `Spec` takes it. -/
theorem cast_apply (b : FVec Ideal S256 .f32) (hc : S256.ShapeCasts S1x256) (j : Fin 256) :
    shapeCast S1x256 b hc (ix2 (0 : Fin 1) j) = b (ix1 j) :=
  shapeCast_a_1a_apply b hc 0 j

/-- The embedding's bias, laid along the 500000 rows, reads the bias vector at the column. -/
theorem biasE_apply (b : FVec Ideal S256 .f32) (e : Fin 500000) (j : Fin 256) :
    broadcastInDim S500000x256 ![0, 1] bcast_S1x256_S500000x256_0_1 (broadcastInDim S1x256 ![1] bcast_S256_S1x256_1 b) (ix2 e j)
      = b (ix1 j) :=
  (broadcastInDim_oneRow_apply bcast_S1x256_S500000x256_0_1 _ e j).trans (row_apply b j)

/-- The edge embedding is `Spec.embed`, the bias read as a one-row matrix. -/
theorem refEmbed_eq (et : FVec Ideal S500000x32 .f32) (w : FVec Ideal S32x256 .f32) (b : FVec Ideal S256 .f32)
    (hc : S256.ShapeCasts S1x256) :
    refEmbed et w b = Spec.embed et w (shapeCast S1x256 b hc) := by
  funext i
  obtain ⟨e, j, rfl⟩ : ∃ (e : Fin 500000) (j : Fin 256), i = ix2 e j := ⟨i 0, i 1, eq_ix2 i⟩
  show Host.dotGeneral (F := Ideal) dot_S500000x32_S32x256_S500000x256_1_0_0_1_n_n none et w (ix2 e j)
      + broadcastInDim S500000x256 ![0, 1] bcast_S1x256_S500000x256_0_1 (broadcastInDim S1x256 ![1] bcast_S256_S1x256_1 b) (ix2 e j)
    = (∑ k : Fin 32, et (ix2 e k) * w (ix2 k j)) + shapeCast S1x256 b hc (ix2 (0 : Fin 1) j)
  rw [dotEmbed_eq, StackMember.dotGeneral_plain_apply, biasE_apply, cast_apply]

/-! ## The dense layer over the concatenated features

The 512 concatenated features are the 256 of `h` followed by the 256 of `agg`, and the weight matrix's rows split the
same way, so the sum over the 512 is the sum over the first 256 plus the sum over the last 256. -/

/-- Left of column 256 the concatenation is `h`. -/
theorem cat_left (h agg : FVec Ideal S50000x256 .f32) (n : Fin 50000) (k : Fin 256) :
    concatenate (α := Ideal .f32) S50000x512 1 [⟨S50000x256, h⟩, ⟨S50000x256, agg⟩] concatenates_S50000x256_S50000x256_S50000x512_d1
      (ix2 n (⟨k.val, by have := k.isLt; omega⟩ : Fin 512)) = h (ix2 n k) := by
  refine concatenate_pair_apply_left (1 : Fin S50000x512.rank) h agg _ _ rfl (ix2 n k) ?_
  intro b
  fin_cases b <;> rfl

/-- From column 256 on it is `agg`, 256 columns back. -/
theorem cat_right (h agg : FVec Ideal S50000x256 .f32) (n : Fin 50000) (k : Fin 256) :
    concatenate (α := Ideal .f32) S50000x512 1 [⟨S50000x256, h⟩, ⟨S50000x256, agg⟩] concatenates_S50000x256_S50000x256_S50000x512_d1
      (ix2 n (⟨256 + k.val, by have := k.isLt; omega⟩ : Fin 512)) = agg (ix2 n k) := by
  refine concatenate_pair_apply_right (1 : Fin S50000x512.rank) h agg _ _ rfl rfl (ix2 n k) ?_ ?_
  · intro b hb
    fin_cases b
    · rfl
    · exact absurd rfl hb
  · show k.val + 256 = 256 + k.val
    omega

/-- The top half of the weight matrix is its rows 0 to 255. -/
theorem top_apply (w : FVec Ideal S512x256 .f32) (ht : S512x256.Slices ![0, 0] S256x256) (k j : Fin 256) :
    extractStridedSlice S256x256 ![0, 0] w ht (ix2 k j) = w (ix2 (⟨k.val, by have := k.isLt; omega⟩ : Fin 512) j) := by
  refine extractStridedSlice_apply _ w ht (ix2 k j) _ ?_
  intro a
  fin_cases a
  · show k.val = 0 + k.val
    omega
  · show j.val = 0 + j.val
    omega

/-- The bottom half is its rows 256 to 511. -/
theorem bot_apply (w : FVec Ideal S512x256 .f32) (hb : S512x256.Slices ![256, 0] S256x256) (k j : Fin 256) :
    extractStridedSlice S256x256 ![256, 0] w hb (ix2 k j) = w (ix2 (⟨256 + k.val, by have := k.isLt; omega⟩ : Fin 512) j) := by
  refine extractStridedSlice_apply _ w hb (ix2 k j) _ ?_
  intro a
  fin_cases a
  · rfl
  · show j.val = 0 + j.val
    omega

/-- The dense layer at (n, j): the self term over `h` and the top rows plus the neighbour term over `agg` and the
    bottom rows — the sum over 512 = 256 + 256 features regrouped. -/
theorem dense_apply (h agg : FVec Ideal S50000x256 .f32) (w : FVec Ideal S512x256 .f32)
    (ht : S512x256.Slices ![0, 0] S256x256) (hb : S512x256.Slices ![256, 0] S256x256) (n : Fin 50000) (j : Fin 256) :
    Host.dotGeneral (F := Ideal) dot_S50000x512_S512x256_S50000x256_1_0_0_1_n_n none
        (concatenate (α := Ideal .f32) S50000x512 1 [⟨S50000x256, h⟩, ⟨S50000x256, agg⟩] concatenates_S50000x256_S50000x256_S50000x512_d1) w (ix2 n j)
      = (∑ k : Fin 256, h (ix2 n k) * extractStridedSlice S256x256 ![0, 0] w ht (ix2 k j))
        + ∑ k : Fin 256, agg (ix2 n k) * extractStridedSlice S256x256 ![256, 0] w hb (ix2 k j) := by
  rw [dotLayer_eq, StackMember.dotGeneral_plain_apply]
  refine (Fin.sum_univ_add (M := EReal) (a := 256) (b := 256) _).trans ?_
  congr 1
  · refine Finset.sum_congr rfl fun k _ => ?_
    rw [top_apply w ht k j, ← cat_left h agg n k]
    rfl
  · refine Finset.sum_congr rfl fun k _ => ?_
    rw [bot_apply w hb k j, ← cat_right h agg n k]
    rfl

/-- The layer's bias, laid along the 50000 rows, reads the bias vector at the column. -/
theorem biasN_apply (b : FVec Ideal S256 .f32) (n : Fin 50000) (j : Fin 256) :
    broadcastInDim S50000x256 ![0, 1] bcast_S1x256_S50000x256_0_1 (broadcastInDim S1x256 ![1] bcast_S256_S1x256_1 b) (ix2 n j)
      = b (ix1 j) :=
  (broadcastInDim_oneRow_apply bcast_S1x256_S50000x256_0_1 _ n j).trans (row_apply b j)

/-- The pre-normalisation state at (n, j) is `Spec.preRow` of row n at j. -/
theorem refPre_apply (h agg add : FVec Ideal S50000x256 .f32) (w : FVec Ideal S512x256 .f32) (b : FVec Ideal S256 .f32)
    (hc : S256.ShapeCasts S1x256) (ht : S512x256.Slices ![0, 0] S256x256) (hb : S512x256.Slices ![256, 0] S256x256)
    (n : Fin 50000) (j : Fin 256) :
    refPre h agg add w b (ix2 n j)
      = Spec.preRow h agg add (extractStridedSlice S256x256 ![0, 0] w ht) (extractStridedSlice S256x256 ![256, 0] w hb)
          (shapeCast S1x256 b hc) n j := by
  show Host.dotGeneral (F := Ideal) dot_S50000x512_S512x256_S50000x256_1_0_0_1_n_n none
        (concatenate (α := Ideal .f32) S50000x512 1 [⟨S50000x256, h⟩, ⟨S50000x256, agg⟩] concatenates_S50000x256_S50000x256_S50000x512_d1) w (ix2 n j)
      + broadcastInDim S50000x256 ![0, 1] bcast_S1x256_S50000x256_0_1 (broadcastInDim S1x256 ![1] bcast_S256_S1x256_1 b) (ix2 n j)
      + add (ix2 n j)
    = (((∑ k : Fin 256, h (ix2 n k) * extractStridedSlice S256x256 ![0, 0] w ht (ix2 k j))
        + ∑ k : Fin 256, agg (ix2 n k) * extractStridedSlice S256x256 ![256, 0] w hb (ix2 k j))
        + shapeCast S1x256 b hc (ix2 (0 : Fin 1) j)) + add (ix2 n j)
  rw [dense_apply h agg w ht hb n j, biasN_apply, cast_apply]

/-! ## The layer norm of a row -/

/-- The sum of a row: the host's reduction over the feature axis from the zero word. -/
theorem rowSum_apply (y : FVec Ideal S50000x256 .f32) (n : Fin 50000) :
    Host.reduceAdd (F := Ideal) (φ := .f32) y (constant (F := Ideal) S_ .f32 0x00000000#32) reducesTo_S50000x256_S50000_d1 h_S_ (ix1 n)
      = ∑ k : Fin 256, y (ix2 n k) := by
  have hr : S50000x256.Reduces [1] S50000 := by decide
  rw [hostReduceAdd_apply]
  refine (Ideal.hostReduceAdd_single reducesTo_S50000x256_S50000_d1 hr y _ (ix1 n)).trans ?_
  rw [constant_apply, Ideal.ofBits_zero_f32, zero_add]
  refine Finset.sum_congr rfl fun k _ => congrArg y ?_
  funext a
  apply Fin.ext
  match a with
  | ⟨0, _⟩ => rfl
  | ⟨1, _⟩ => rfl

/-- A vector over the 50000 rows made a column reads, at (n, 0), the vector at n. -/
theorem col_apply (x : FVec Ideal S50000 .f32) (n : Fin 50000) (u : Fin 1) :
    broadcastInDim S50000x1 ![0] bcast_S50000_S50000x1_0 x (ix2 n u) = x (ix1 n) := by
  refine broadcastInDim_apply (![0] : Fin S50000.rank → Fin S50000x1.rank) bcast_S50000_S50000x1_0 x (ix2 n u) (ix1 n) ?_
  intro a
  fin_cases a
  show n.val = if (50000 : ℕ) = 1 then 0 else n.val
  rw [if_neg (by decide)]

/-- A scalar constant laid over a column reads the value of its word. -/
theorem scal_apply (c : BitVec 32) (n : Fin 50000) (u : Fin 1) :
    broadcastInDim S50000x1 ![] bcast_S_S50000x1 (constant (F := Ideal) S_ .f32 c) (ix2 n u) = Ideal.ofBits .f32 c :=
  broadcastInDim_scalar_apply bcast_S_S50000x1 _ _

/-- A column laid along the 256 features reads the column at the row. -/
theorem wide_apply (x : FVec Ideal S50000x1 .f32) (n : Fin 50000) (j : Fin 256) :
    broadcastInDim S50000x256 ![0, 1] bcast_S50000x1_S50000x256_0_1 x (ix2 n j) = x (ix2 n (0 : Fin 1)) := by
  refine broadcastInDim_apply (![0, 1] : Fin S50000x1.rank → Fin S50000x256.rank) bcast_S50000x1_S50000x256_0_1 x (ix2 n j)
    (ix2 n (0 : Fin 1)) ?_
  intro a
  fin_cases a
  · show n.val = if (50000 : ℕ) = 1 then 0 else n.val
    rw [if_neg (by decide)]
  · show (0 : ℕ) = if (1 : ℕ) = 1 then 0 else j.val
    rw [if_pos rfl]

/-- The host's reciprocal square root at an index is the extended reals' of the element. -/
theorem hostRsqrt_apply (x : FVec Ideal S50000x1 .f32) (i : S50000x1.Idx) :
    Host.rsqrt (F := Ideal) (φ := .f32) x i = Ideal.rsqrt (x i) := rfl

/-- The mean column at row n is the mean of row n. -/
theorem mean_apply (y : FVec Ideal S50000x256 .f32) (n : Fin 50000) (u : Fin 1) :
    refMean y (ix2 n u) = Spec.mean (fun k => y (ix2 n k)) := by
  unfold refMean Spec.mean
  rw [hostDivf_apply, col_apply, rowSum_apply, scal_apply]

/-- The deviation at (n, j) is the entry less the mean of row n. -/
theorem dev_apply (y : FVec Ideal S50000x256 .f32) (n : Fin 50000) (j : Fin 256) :
    refDev y (ix2 n j) = y (ix2 n j) - Spec.mean (fun k => y (ix2 n k)) := by
  unfold refDev
  rw [subf_apply, wide_apply, mean_apply]

/-- The variance column at row n is the mean squared deviation of row n. -/
theorem var_apply (y : FVec Ideal S50000x256 .f32) (n : Fin 50000) (u : Fin 1) :
    Host.divf (F := Ideal) (φ := .f32) (broadcastInDim S50000x1 ![0] bcast_S50000_S50000x1_0
        (Host.reduceAdd (F := Ideal) (φ := .f32) (mulf (F := Ideal) (φ := .f32) (refDev y) (refDev y)) (constant (F := Ideal) S_ .f32 0x00000000#32) reducesTo_S50000x256_S50000_d1 h_S_))
      (broadcastInDim S50000x1 ![] bcast_S_S50000x1 (constant (F := Ideal) S_ .f32 0x43800000#32)) (ix2 n u)
    = Spec.var (fun k => y (ix2 n k)) := by
  rw [hostDivf_apply, col_apply, rowSum_apply, scal_apply]
  unfold Spec.var
  refine congrArg (fun s => Ideal.div s Spec.c256) (Finset.sum_congr rfl fun k _ => ?_)
  rw [mulf_apply, dev_apply]

/-- The layer norm at (n, j) is `Spec.lnAt` of row n at j, scale and shift read as one-row matrices. -/
theorem ln_apply (y : FVec Ideal S50000x256 .f32) (g beta : FVec Ideal S256 .f32) (hc : S256.ShapeCasts S1x256)
    (n : Fin 50000) (j : Fin 256) :
    refLN y g beta (ix2 n j)
      = Spec.lnAt (fun k => y (ix2 n k)) (fun q => shapeCast S1x256 g hc (ix2 (0 : Fin 1) q))
          (fun q => shapeCast S1x256 beta hc (ix2 (0 : Fin 1) q)) j := by
  unfold refLN Spec.lnAt
  rw [addf_apply, mulf_apply, mulf_apply, subf_apply, wide_apply, mean_apply, wide_apply, hostRsqrt_apply, addf_apply,
    var_apply, scal_apply, biasN_apply, biasN_apply, ← cast_apply g hc j, ← cast_apply beta hc j]

/-- The layer norm of the concatenated dense layer is `Spec.layer` over the two halves of the weight matrix. -/
theorem refLayer_eq (h agg add : FVec Ideal S50000x256 .f32) (w : FVec Ideal S512x256 .f32) (b g beta : FVec Ideal S256 .f32)
    (hc : S256.ShapeCasts S1x256) (ht : S512x256.Slices ![0, 0] S256x256) (hb : S512x256.Slices ![256, 0] S256x256) :
    refLN (refPre h agg add w b) g beta
      = Spec.layer h agg add (extractStridedSlice S256x256 ![0, 0] w ht) (extractStridedSlice S256x256 ![256, 0] w hb)
          (shapeCast S1x256 b hc) (shapeCast S1x256 g hc) (shapeCast S1x256 beta hc) := by
  funext i
  obtain ⟨n, j, rfl⟩ : ∃ (n : Fin 50000) (j : Fin 256), i = ix2 n j := ⟨i 0, i 1, eq_ix2 i⟩
  rw [ln_apply _ g beta hc n j,
    show (fun k => refPre h agg add w b (ix2 n k))
        = Spec.preRow h agg add (extractStridedSlice S256x256 ![0, 0] w ht) (extractStridedSlice S256x256 ![256, 0] w hb)
            (shapeCast S1x256 b hc) n from funext fun k => refPre_apply h agg add w b hc ht hb n k]
  rfl

end Cert.RefValue

end
-- ==== Proof.RefTerm.lean ====
/-
  The reference's run, read in the vocabulary of the mathematics: the generated run states the result as the composed
  term of the reference's host operations over named intermediate values; here each named value is identified, by
  unfolding names only, with the corresponding stage — a row of an edge list, a gather, a scatter-mean, the edge
  embedding `refEmbed`, a pre-normalisation state `refPre`, a layer norm `refLN` — so that the result is `rresult` of the
  argument arrays, the same composition as `Chain.result` with the reference's own spelling of the two dense stages.
-/
import proofs.«401930_j19567871000709_3_alg».proof.Proof.Gen.ReferenceIdeal.Run
import proofs.«401930_j19567871000709_3_alg».proof.Proof.RefBridge
import proofs.«401930_j19567871000709_3_alg».proof.Proof.Chain

set_option maxRecDepth 8192

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value

/-! ## The host operations the reference shares with the kernel's program, in the reference's spelling -/

/-- Row 0 of an edge list: the source nodes. -/
def srcRow (ei : IVec S2x500000 32) : IVec S500000 32 :=
  shapeCast S500000 (extractStridedSlice S1x500000 ![0, 0] ei slices_S2x500000_S1x500000_0_0) shapeCasts_S1x500000_S500000

/-- Row 1 of an edge list: the destination nodes. -/
def dstRow (ei : IVec S2x500000 32) : IVec S500000 32 :=
  shapeCast S500000 (extractStridedSlice S1x500000 ![1, 0] ei slices_S2x500000_S1x500000_1_0) shapeCasts_S1x500000_S500000

/-- The rows of `h` at the edges' source nodes. -/
def gath (h : FVec Ideal S50000x256 .f32) (src : IVec S500000 32) : FVec Ideal S500000x256 .f32 :=
  Host.gather gather_S50000x256_S500000x1_S500000x256_1_0_n_n_0_1_1256 h
    (broadcastInDim S500000x1 ![0] bcast_S500000_S500000x1_0
      (select (cmpi .slt src (broadcastInDim S500000 ![] bcast_S_S500000 (constantI S_ 32 0#32)))
        (addi src (broadcastInDim S500000 ![] bcast_S_S500000 (constantI S_ 32 50000#32))) src))

/-- The mean, per destination node, of the edge rows scattered there. -/
def smean (vals : FVec Ideal S500000x256 .f32) (dst : IVec S500000 32) : FVec Ideal S50000x256 .f32 :=
  Host.divf (F := Ideal) (φ := .f32)
    (Host.scatterAdd (F := Ideal) (φ := .f32) scatter_S50000x256_S500000x1_S500000x256_1_0_0_1
      (broadcastInDim S50000x256 ![] bcast_S_S50000x256 (constant (F := Ideal) S_ .f32 0x00000000#32))
      (broadcastInDim S500000x1 ![0] bcast_S500000_S500000x1_0 dst) vals)
    (broadcastInDim S50000x256 ![0, 1] bcast_S50000x1_S50000x256_0_1
      (maximumf (F := Ideal) (φ := .f32)
        (Host.scatterAdd (F := Ideal) (φ := .f32) scatter_S50000x1_S500000x1_S500000x1_1_0_0_1
          (broadcastInDim S50000x1 ![] bcast_S_S50000x1 (constant (F := Ideal) S_ .f32 0x00000000#32))
          (broadcastInDim S500000x1 ![0] bcast_S500000_S500000x1_0 dst)
          (broadcastInDim S500000x1 ![] bcast_S_S500000x1 (constant (F := Ideal) S_ .f32 0x3F800000#32)))
        (broadcastInDim S50000x1 ![] bcast_S_S50000x1 (constant (F := Ideal) S_ .f32 0x3F800000#32))))

/-- The two node types' final states stacked, users first. -/
def stack (hu hi : FVec Ideal S50000x256 .f32) : FVec Ideal S2x50000x256 .f32 :=
  concatenate (α := Ideal .f32) S2x50000x256 0
    [⟨S1x50000x256, broadcastInDim S1x50000x256 ![1, 2] bcast_S50000x256_S1x50000x256_1_2 hu⟩,
     ⟨S1x50000x256, broadcastInDim S1x50000x256 ![1, 2] bcast_S50000x256_S1x50000x256_1_2 hi⟩]
    concatenates_S1x50000x256_S1x50000x256_S2x50000x256_d0

/-! ## The whole reference as a composition -/

section
variable (I : Chain.Inputs)

def rAddI : FVec Ideal S50000x256 .f32 := smean (refEmbed I.etUb I.wemUb I.bemUb) (dstRow I.eiUb)
def rAddU : FVec Ideal S50000x256 .f32 := smean (refEmbed I.etBu I.wemBu I.bemBu) (dstRow I.eiBu)
/-- One layer's pre-normalisation item states. -/
def rPreI (hu hi : FVec Ideal S50000x256 .f32) (w : FVec Ideal S512x256 .f32) (b : FVec Ideal S256 .f32) : FVec Ideal S50000x256 .f32 :=
  refPre hi (smean (gath hu (srcRow I.eiUb)) (dstRow I.eiUb)) (rAddI I) w b
/-- One layer's pre-normalisation user states. -/
def rPreU (hu hi : FVec Ideal S50000x256 .f32) (w : FVec Ideal S512x256 .f32) (b : FVec Ideal S256 .f32) : FVec Ideal S50000x256 .f32 :=
  refPre hu (smean (gath hi (srcRow I.eiBu)) (dstRow I.eiBu)) (rAddU I) w b
def rHi1 : FVec Ideal S50000x256 .f32 := refLN (rPreI I I.hUser I.hItem I.w0Ub I.b0Ub) I.gI I.betaI
def rHu1 : FVec Ideal S50000x256 .f32 := refLN (rPreU I I.hUser I.hItem I.w0Bu I.b0Bu) I.gU I.betaU
def rHi2 : FVec Ideal S50000x256 .f32 := refLN (rPreI I (rHu1 I) (rHi1 I) I.w1Ub I.b1Ub) I.gI I.betaI
def rHu2 : FVec Ideal S50000x256 .f32 := refLN (rPreU I (rHu1 I) (rHi1 I) I.w1Bu I.b1Bu) I.gU I.betaU
/-- The reference's result. -/
def rresult : FVec Ideal S2x50000x256 .f32 := stack (rHu2 I) (rHi2 I)
end

/-! ## The generated run's named values are these stages -/

variable (V0 : Valuation τ sig (Elt Ideal))

/-- The argument arrays read from a valuation of the reference's buffers. -/
def rI : Chain.Inputs where
  hUser := V0 (Proc.devRef .tc main_arg0)
  hItem := V0 (Proc.devRef .tc main_arg1)
  etUb := V0 (Proc.devRef .tc main_arg2)
  etBu := V0 (Proc.devRef .tc main_arg3)
  w0Ub := V0 (Proc.devRef .tc main_arg4)
  b0Ub := V0 (Proc.devRef .tc main_arg5)
  w0Bu := V0 (Proc.devRef .tc main_arg6)
  b0Bu := V0 (Proc.devRef .tc main_arg7)
  w1Ub := V0 (Proc.devRef .tc main_arg8)
  b1Ub := V0 (Proc.devRef .tc main_arg9)
  w1Bu := V0 (Proc.devRef .tc main_arg10)
  b1Bu := V0 (Proc.devRef .tc main_arg11)
  wemUb := V0 (Proc.devRef .tc main_arg12)
  bemUb := V0 (Proc.devRef .tc main_arg13)
  wemBu := V0 (Proc.devRef .tc main_arg14)
  bemBu := V0 (Proc.devRef .tc main_arg15)
  gU := V0 (Proc.devRef .tc main_arg16)
  betaU := V0 (Proc.devRef .tc main_arg17)
  gI := V0 (Proc.devRef .tc main_arg18)
  betaI := V0 (Proc.devRef .tc main_arg19)
  eiUb := V0 (Proc.devRef .tc main_arg20)
  eiBu := V0 (Proc.devRef .tc main_arg21)

theorem v5_eq : res_main_v5 V0 = dstRow (rI V0).eiUb := rfl
theorem v22_eq : res_main_v22 V0 = dstRow (rI V0).eiBu := rfl
theorem v35_eq : res_main_v35 V0 = srcRow (rI V0).eiUb := rfl
theorem v44_eq : res_main_v44 V0 = dstRow (rI V0).eiUb := rfl
theorem v63_eq : res_main_v63 V0 = srcRow (rI V0).eiBu := rfl
theorem v72_eq : res_main_v72 V0 = dstRow (rI V0).eiBu := rfl
theorem v139_eq : res_main_v139 V0 = srcRow (rI V0).eiUb := rfl
theorem v148_eq : res_main_v148 V0 = dstRow (rI V0).eiUb := rfl
theorem v167_eq : res_main_v167 V0 = srcRow (rI V0).eiBu := rfl
theorem v176_eq : res_main_v176 V0 = dstRow (rI V0).eiBu := rfl

theorem v16_eq : res_main_v16 V0 = rAddI (rI V0) := by
  unfold res_main_v16; rw [v5_eq]; rfl
theorem v33_eq : res_main_v33 V0 = rAddU (rI V0) := by
  unfold res_main_v33; rw [v22_eq]; rfl

theorem v61_eq : res_main_v61 V0 = rPreI (rI V0) (rI V0).hUser (rI V0).hItem (rI V0).w0Ub (rI V0).b0Ub := by
  unfold res_main_v61; rw [v44_eq, v35_eq, v16_eq]; rfl
theorem v89_eq : res_main_v89 V0 = rPreU (rI V0) (rI V0).hUser (rI V0).hItem (rI V0).w0Bu (rI V0).b0Bu := by
  unfold res_main_v89; rw [v72_eq, v63_eq, v33_eq]; rfl

/-! Layer 0's means, deviations and normalised states. -/

theorem v93_eq : res_main_v93 V0 = refMean (res_main_v89 V0) := rfl
theorem v95_eq : res_main_v95 V0 = refDev (res_main_v89 V0) := by
  unfold res_main_v95 refDev; rw [v93_eq]
theorem v113_eq : res_main_v113 V0 = rHu1 (rI V0) := by
  unfold res_main_v113; rw [v93_eq, v95_eq, v89_eq]; rfl
theorem v117_eq : res_main_v117 V0 = refMean (res_main_v61 V0) := rfl
theorem v119_eq : res_main_v119 V0 = refDev (res_main_v61 V0) := by
  unfold res_main_v119 refDev; rw [v117_eq]
theorem v137_eq : res_main_v137 V0 = rHi1 (rI V0) := by
  unfold res_main_v137; rw [v117_eq, v119_eq, v61_eq]; rfl

/-! Layer 1. -/

theorem v165_eq : res_main_v165 V0 = rPreI (rI V0) (rHu1 (rI V0)) (rHi1 (rI V0)) (rI V0).w1Ub (rI V0).b1Ub := by
  unfold res_main_v165; rw [v148_eq, v139_eq, v16_eq, v137_eq, v113_eq]; rfl
theorem v193_eq : res_main_v193 V0 = rPreU (rI V0) (rHu1 (rI V0)) (rHi1 (rI V0)) (rI V0).w1Bu (rI V0).b1Bu := by
  unfold res_main_v193; rw [v176_eq, v167_eq, v33_eq, v137_eq, v113_eq]; rfl
theorem v197_eq : res_main_v197 V0 = refMean (res_main_v193 V0) := rfl
theorem v199_eq : res_main_v199 V0 = refDev (res_main_v193 V0) := by
  unfold res_main_v199 refDev; rw [v197_eq]
theorem v221_eq : res_main_v221 V0 = refMean (res_main_v165 V0) := rfl
theorem v223_eq : res_main_v223 V0 = refDev (res_main_v165 V0) := by
  unfold res_main_v223 refDev; rw [v221_eq]

/-- The result buffer after the reference's operations is `rresult` of the argument arrays. -/
theorem v244_eq : val5 V0 (Proc.devRef .tc main_v244) = rresult (rI V0) := by
  refine (val5_main_v244 V0).trans ?_
  rw [v197_eq, v199_eq, v221_eq, v223_eq]
  show stack (refLN (res_main_v193 V0) (rI V0).gU (rI V0).betaU) (refLN (res_main_v165 V0) (rI V0).gI (rI V0).betaI) = _
  rw [v193_eq, v165_eq]
  rfl

end Cert.RefValue

end
-- ==== Proof.RefEq.lean ====
/-
  The reference's composition is the kernel program's: the host operations the two programs share are the same functions
  (their dimension records are spelled alike in the two printed programs), and the reference's two dense stages are
  `Spec.embed` and `Spec.layer` (RefBridge), which is what `Chain` composes.
-/
import proofs.«401930_j19567871000709_3_alg».proof.Proof.RefTerm

noncomputable section

namespace Cert.RefValue

open Idealize.ShloMosaic

variable [Cert.KernelIdeal.Facts] [Cert.ReferenceIdeal.Facts]

theorem srcRow_eq (ei : IVec Cert.ReferenceIdeal.S2x500000 32) : srcRow ei = Chain.srcRow ei := rfl
theorem dstRow_eq (ei : IVec Cert.ReferenceIdeal.S2x500000 32) : dstRow ei = Chain.dstRow ei := rfl
theorem gath_eq (h : FVec Ideal Cert.ReferenceIdeal.S50000x256 .f32) (src : IVec Cert.ReferenceIdeal.S500000 32) :
    gath h src = Chain.gath h src := rfl
theorem smean_eq (vals : FVec Ideal Cert.ReferenceIdeal.S500000x256 .f32) (dst : IVec Cert.ReferenceIdeal.S500000 32) :
    smean vals dst = Chain.smean vals dst := rfl
theorem stack_eq (hu hi : FVec Ideal Cert.ReferenceIdeal.S50000x256 .f32) : stack hu hi = Chain.stack hu hi := rfl

variable (I : Chain.Inputs)

theorem rAddI_eq : rAddI I = Chain.addI I := by
  unfold rAddI Chain.addI Chain.embUb Chain.row
  rw [refEmbed_eq _ _ _ Cert.KernelIdeal.Facts₀.shapeCasts_S256_S1x256, smean_eq, dstRow_eq]

theorem rAddU_eq : rAddU I = Chain.addU I := by
  unfold rAddU Chain.addU Chain.embBu Chain.row
  rw [refEmbed_eq _ _ _ Cert.KernelIdeal.Facts₀.shapeCasts_S256_S1x256, smean_eq, dstRow_eq]

/-- A layer's new item states: the reference's layer norm of its concatenated dense layer is the kernel's. -/
theorem newHi_eq (hu hi : FVec Ideal Cert.ReferenceIdeal.S50000x256 .f32) (w : FVec Ideal Cert.ReferenceIdeal.S512x256 .f32)
    (b : FVec Ideal Cert.ReferenceIdeal.S256 .f32) :
    refLN (rPreI I hu hi w b) I.gI I.betaI = Chain.newHi I hu hi w b := by
  unfold rPreI Chain.newHi Chain.wtop Chain.wbot Chain.row
  rw [refLayer_eq _ _ _ _ _ _ _ Cert.KernelIdeal.Facts₀.shapeCasts_S256_S1x256 Cert.KernelIdeal.Facts₀.slices_S512x256_S256x256_0_0
    Cert.KernelIdeal.Facts₀.slices_S512x256_S256x256_256_0, smean_eq, gath_eq, srcRow_eq, dstRow_eq, rAddI_eq]

/-- A layer's new user states. -/
theorem newHu_eq (hu hi : FVec Ideal Cert.ReferenceIdeal.S50000x256 .f32) (w : FVec Ideal Cert.ReferenceIdeal.S512x256 .f32)
    (b : FVec Ideal Cert.ReferenceIdeal.S256 .f32) :
    refLN (rPreU I hu hi w b) I.gU I.betaU = Chain.newHu I hu hi w b := by
  unfold rPreU Chain.newHu Chain.wtop Chain.wbot Chain.row
  rw [refLayer_eq _ _ _ _ _ _ _ Cert.KernelIdeal.Facts₀.shapeCasts_S256_S1x256 Cert.KernelIdeal.Facts₀.slices_S512x256_S256x256_0_0
    Cert.KernelIdeal.Facts₀.slices_S512x256_S256x256_256_0, smean_eq, gath_eq, srcRow_eq, dstRow_eq, rAddU_eq]

theorem rHi1_eq : rHi1 I = Chain.hi1 I := newHi_eq I _ _ _ _
theorem rHu1_eq : rHu1 I = Chain.hu1 I := newHu_eq I _ _ _ _
theorem rHi2_eq : rHi2 I = Chain.hi2 I := by
  unfold rHi2 Chain.hi2; rw [rHu1_eq, rHi1_eq]; exact newHi_eq I _ _ _ _
theorem rHu2_eq : rHu2 I = Chain.hu2 I := by
  unfold rHu2 Chain.hu2; rw [rHu1_eq, rHi1_eq]; exact newHu_eq I _ _ _ _

/-- The reference's result is the kernel program's. -/
theorem rresult_eq : rresult I = Chain.result I := by
  unfold rresult Chain.result; rw [stack_eq, rHu2_eq, rHi2_eq]

end Cert.RefValue

end
-- ==== Proof.lean ====
/-
  The certificate of the two-layer heterogeneous message-passing network: a Pallas edge-embedding kernel and a fused
  linear + layer-norm kernel, launched six times among gathers and scatter-means left to the host, against the plain
  jnp reference.

  At the extended reals the two programs are one function of the 22 argument arrays (`Chain.result`):
  * the kernel program's side: each region's output array is `Spec.embed` / `Spec.layer` of the arrays the region
    finds (a row block of the output is computed from the same row block of the row-indexed operands, and the blocks
    tile the array), and the host operations between the regions are read off the program one buffer at a time;
  * the reference's side: its generated run, with the dense stages identified with the same two functions — the
    dot over the 512 concatenated features splits into the two dots over 256, a regrouping of a finite sum that holds
    on the extended reals without any finiteness assumption, so the precondition is never opened;
  * the host operations the two programs share (row selection, gather, scatter-mean, stacking) are carried as opaque
    functions and never evaluated.
  The three frames are the generated ones (the reference's is its run with the result dropped); no rewrite of the
  ideal pass was applied, so `preserves` is trivial.
-/
import proofs.«401930_j19567871000709_3_alg».proof.Defs
import proofs.«401930_j19567871000709_3_alg».proof.Proof.Gen.Kernel
import proofs.«401930_j19567871000709_3_alg».proof.Proof.Gen.Kernel.Frame
import proofs.«401930_j19567871000709_3_alg».proof.Proof.Gen.KernelIdeal
import proofs.«401930_j19567871000709_3_alg».proof.Proof.Gen.KernelIdeal.Frame
import proofs.«401930_j19567871000709_3_alg».proof.Proof.Gen.ReferenceIdeal
import proofs.«401930_j19567871000709_3_alg».proof.Proof.Gen.ReferenceIdeal.Run
import proofs.«401930_j19567871000709_3_alg».proof.Proof.Gen.Pre_finite_inputs
import proofs.«401930_j19567871000709_3_alg».proof.Proof.KRun
import proofs.«401930_j19567871000709_3_alg».proof.Proof.KFold
import proofs.«401930_j19567871000709_3_alg».proof.Proof.RefEq
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Memories that agree on the arguments give the two programs the same 22 arrays. -/
theorem inputs_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.RefValue.rI (launchContents m' c) = Cert.KernelValue.inputs m c := by
  obtain ⟨h0, h1, h2, h3, h4, h5, h6, h7, h8, h9, h10, h11, h12, h13, h14, h15, h16, h17, h18, h19, h20, h21⟩ := h
  unfold Cert.RefValue.rI Cert.KernelValue.inputs
  rw [Cert.Chain.Inputs.mk.injEq]
  exact ⟨h0, h1, h2, h3, h4, h5, h6, h7, h8, h9, h10, h11, h12, h13, h14, h15, h16, h17, h18, h19, h20, h21⟩

/-- From memories agreeing on the arguments both idealized programs end with the result at `Chain.result` of them. -/
theorem algebraic : Cert.algebraic_KernelIdeal_ReferenceIdeal := by
  intro m ρ m' ρ' _ hagree
  refine ⟨fun c => Cert.Chain.result (Cert.KernelValue.inputs m c), ?_, ?_⟩
  · exact (θ_run Cert.KernelIdeal.defs _ _).mono
      (fun r h c => ⟨(h c).1.trans (Cert.KernelValue.result_eq m ρ c), (h c).2⟩)
      (Cert.KernelIdeal.GenRun.run_result (F := Ideal) m ρ)
  · refine (θ_run Cert.ReferenceIdeal.defs _ _).mono (fun r h c => ⟨?_, (h c).2⟩)
      (Cert.ReferenceIdeal.Value.run (F := Ideal) m' ρ')
    refine (h c).1.trans ?_
    refine (Cert.ReferenceIdeal.Value.val5_main_v244 (launchContents m' c)).symm.trans ?_
    rw [Cert.RefValue.v244_eq, Cert.RefValue.rresult_eq, inputs_agree m m' c (hagree c)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
